-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S11264x2048 : Shape := ⟨2, ![11264, 2048]⟩
abbrev S2048x5632 : Shape := ⟨2, ![2048, 5632]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4x2048x2048 .f32) (main_arg1 : FVec F S11264x2048 .f32) (main_arg2 : FVec F S2048x5632 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S4x2048x2048 : Shape := ⟨3, ![4, 2048, 2048]⟩
abbrev S11264x2048 : Shape := ⟨2, ![11264, 2048]⟩
abbrev S2048x5632 : Shape := ⟨2, ![2048, 5632]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S11264 : Shape := ⟨1, ![11264]⟩
abbrev S11264x1 : Shape := ⟨2, ![11264, 1]⟩
abbrev S2048x11264 : Shape := ⟨2, ![2048, 11264]⟩
abbrev S2048 : Shape := ⟨1, ![2048]⟩
abbrev S2048x1 : Shape := ⟨2, ![2048, 1]⟩
abbrev S5632x2048 : Shape := ⟨2, ![5632, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 105
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S11264x2048, .f32⟩
  | .hbm, ⟨29, _⟩ => ⟨S_, .f32⟩
  | .hbm, ⟨30, _⟩ => ⟨S11264, .f32⟩
  | .hbm, ⟨31, _⟩ => ⟨S11264x1, .f32⟩
  | .hbm, ⟨32, _⟩ => ⟨S_, .f32⟩
  | .hbm, ⟨33, _⟩ => ⟨S11264x1, .f32⟩
  | .hbm, ⟨34, _⟩ => ⟨S11264x1, .f32⟩
  | .hbm, ⟨35, _⟩ => ⟨S_, .f32⟩
  | .hbm, ⟨36, _⟩ => ⟨S11264x1, .f32⟩
  | .hbm, ⟨37, _⟩ => ⟨S11264x1, .f32⟩
  | .hbm, ⟨38, _⟩ => ⟨S11264x2048, .f32⟩
  | .hbm, ⟨39, _⟩ => ⟨S11264x2048, .f32⟩
  | .hbm, ⟨40, _⟩ => ⟨S11264x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S11264x2048, .f32⟩
  | .hbm, ⟨45, _⟩ => ⟨S11264x2048, .f32⟩
  | .hbm, ⟨46, _⟩ => ⟨S_, .f32⟩
  | .hbm, ⟨47, _⟩ => ⟨S11264x2048, .f32⟩
  | .hbm, ⟨48, _⟩ => ⟨S11264x2048, .f32⟩
  | .hbm, ⟨49, _⟩ => ⟨S11264x2048, .f32⟩
  | .hbm, ⟨50, _⟩ => ⟨S11264x2048, .f32⟩
  | .hbm, ⟨51, _⟩ => ⟨S2048x11264, .f32⟩
  | .hbm, ⟨52, _⟩ => ⟨S2048x11264, .bf16⟩
  | .hbm, ⟨53, _⟩ => ⟨S2048x5632, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S2048x5632, .f32⟩
  | .hbm, ⟨64, _⟩ => ⟨S2048x5632, .f32⟩
  | .hbm, ⟨65, _⟩ => ⟨S2048x5632, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048x5632, .f32⟩
  | .hbm, ⟨70, _⟩ => ⟨S2048x5632, .f32⟩
  | .hbm, ⟨71, _⟩ => ⟨S_, .f32⟩
  | .hbm, ⟨72, _⟩ => ⟨S2048x5632, .f32⟩
  | .hbm, ⟨73, _⟩ => ⟨S2048x5632, .f32⟩
  | .hbm, ⟨74, _⟩ => ⟨S2048x5632, .f32⟩
  | .hbm, ⟨75, _⟩ => ⟨S2048x5632, .f32⟩
  | .hbm, ⟨76, _⟩ => ⟨S5632x2048, .f32⟩
  | .hbm, ⟨77, _⟩ => ⟨S5632x2048, .bf16⟩
  | .hbm, ⟨78, _⟩ => ⟨S8192x5632, .f32⟩
  | .hbm, ⟨79, _⟩ => ⟨S8192x5632, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x5632, .f32⟩
  | .hbm, ⟨90, _⟩ => ⟨S8192x5632, .f32⟩
  | .hbm, ⟨91, _⟩ => ⟨S8192x5632, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192x5632, .f32⟩
  | .hbm, ⟨96, _⟩ => ⟨S8192x5632, .f32⟩
  | .hbm, ⟨97, _⟩ => ⟨S_, .f32⟩
  | .hbm, ⟨98, _⟩ => ⟨S8192x5632, .f32⟩
  | .hbm, ⟨99, _⟩ => ⟨S8192x5632, .f32⟩
  | .hbm, ⟨100, _⟩ => ⟨S8192x5632, .f32⟩
  | .hbm, ⟨101, _⟩ => ⟨S8192x5632, .f32⟩
  | .hbm, ⟨102, _⟩ => ⟨S8192x5632, .bf16⟩
  | .hbm, ⟨103, _⟩ => ⟨S8192x2048, .f32⟩
  | .hbm, ⟨104, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S512x2048, .bf16⟩
  | .local _ .vmem, ⟨11, _⟩ => ⟨S512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_cst_13 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_17 : Ref sig .tc := ⟨.hbm, 92, rfl⟩
abbrev main_cst_18 : Ref sig .tc := ⟨.hbm, 93, rfl⟩
abbrev main_call7_v0 : Ref sig .tc := ⟨.hbm, 94, rfl⟩
abbrev main_call7_v1 : Ref sig .tc := ⟨.hbm, 95, rfl⟩
abbrev main_call7_v2 : Ref sig .tc := ⟨.hbm, 96, rfl⟩
abbrev main_call7_v3 : Ref sig .tc := ⟨.hbm, 97, rfl⟩
abbrev main_call7_v4 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 11], ![false, false]⟩

def k1_cond2 (i : grid1.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4x2048x2048_S8192x2048 : S4x2048x2048.ShapeCasts S8192x2048
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bitsLt_bf16_f32 : FTy.bits .bf16 < FTy.bits .f32
  reducesTo_S11264x2048_S11264_d1 : S11264x2048.ReducesTo [1] S11264
  bcast_S11264_S11264x1_0 : S11264.BroadcastsInDim S11264x1 (![0] : Fin 1 → Fin S11264x1.rank)
  bcast_S_S11264x1 : S_.BroadcastsInDim S11264x1 (![] : Fin 0 → Fin S11264x1.rank)
  bcast_S11264x1_S11264x2048_0_1 : S11264x1.BroadcastsInDim S11264x2048 (![0, 1] : Fin 2 → Fin S11264x2048.rank)
  bcast_S_S11264x2048 : S_.BroadcastsInDim S11264x2048 (![] : Fin 0 → Fin S11264x2048.rank)
  transposes_S11264x2048_S2048x11264_1_0 : S11264x2048.Transposes [1, 0] S2048x11264
  reducesTo_S2048x5632_S2048_d1 : S2048x5632.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x5632_0_1 : S2048x1.BroadcastsInDim S2048x5632 (![0, 1] : Fin 2 → Fin S2048x5632.rank)
  bcast_S_S2048x5632 : S_.BroadcastsInDim S2048x5632 (![] : Fin 0 → Fin S2048x5632.rank)
  transposes_S2048x5632_S5632x2048_1_0 : S2048x5632.Transposes [1, 0] S5632x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  reducesTo_S8192x5632_S8192_d1 : S8192x5632.ReducesTo [1] S8192
  bcast_S8192x1_S8192x5632_0_1 : S8192x1.BroadcastsInDim S8192x5632 (![0, 1] : Fin 2 → Fin S8192x5632.rank)
  bcast_S_S8192x5632 : S_.BroadcastsInDim S8192x5632 (![] : Fin 0 → Fin S8192x5632.rank)
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x2048_S4x2048x2048 : S8192x2048.ShapeCasts S4x2048x2048
  dot_S1024x2048_S2048x512_S1024x512_1_0_0_1_n_n_wf : DotDims.WF S1024x2048 S2048x512 S1024x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x11264.size a
  hwx0_1 : ∀ i : grid0.Coords, EltTy.bits .bf16 = 32 ∨ (Rect.block (s := S2048x11264) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x11264.size a
  hwx0_2 : ∀ i : grid0.Coords, EltTy.bits .bf16 = 32 ∨ (Rect.block (s := S2048x11264) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x5632.size a
  hwx0_3 : ∀ i : grid0.Coords, EltTy.bits .f32 = 32 ∨ (Rect.block (s := S8192x5632) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x5632.size a
  hwx1_0 : ∀ i : grid1.Coords, EltTy.bits .bf16 = 32 ∨ (Rect.block (s := S8192x5632) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S5632x2048.size a
  hwx1_1 : ∀ i : grid1.Coords, EltTy.bits .bf16 = 32 ∨ (Rect.block (s := S5632x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .f32 = 32 ∨ (Rect.block (s := S8192x2048) S1024x2048.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v14) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S11264x2048 : Shape := ⟨2, ![11264, 2048]⟩
abbrev S2048x5632 : Shape := ⟨2, ![2048, 5632]⟩
abbrev S_ : Shape := ⟨0, ![]⟩
abbrev S4x2048 : Shape := ⟨2, ![4, 2048]⟩
abbrev S4x2048x1 : Shape := ⟨3, ![4, 2048, 1]⟩
abbrev S11264 : Shape := ⟨1, ![11264]⟩
abbrev S11264x1 : Shape := ⟨2, ![11264, 1]⟩
abbrev S4x2048x11264 : Shape := ⟨3, ![4, 2048, 11264]⟩
abbrev S4x2048x5632 : Shape := ⟨3, ![4, 2048, 5632]⟩
abbrev S2048 : Shape := ⟨1, ![2048]⟩
abbrev S2048x1 : Shape := ⟨2, ![2048, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S11264x2048, .f32⟩
  | .hbm, ⟨29, _⟩ => ⟨S_, .f32⟩
  | .hbm, ⟨30, _⟩ => ⟨S11264, .f32⟩
  | .hbm, ⟨31, _⟩ => ⟨S11264x1, .f32⟩
  | .hbm, ⟨32, _⟩ => ⟨S_, .f32⟩
  | .hbm, ⟨33, _⟩ => ⟨S11264x1, .f32⟩
  | .hbm, ⟨34, _⟩ => ⟨S11264x1, .f32⟩
  | .hbm, ⟨35, _⟩ => ⟨S_, .f32⟩
  | .hbm, ⟨36, _⟩ => ⟨S11264x1, .f32⟩
  | .hbm, ⟨37, _⟩ => ⟨S11264x1, .f32⟩
  | .hbm, ⟨38, _⟩ => ⟨S11264x2048, .f32⟩
  | .hbm, ⟨39, _⟩ => ⟨S11264x2048, .f32⟩
  | .hbm, ⟨40, _⟩ => ⟨S11264x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S11264x2048, .f32⟩
  | .hbm, ⟨45, _⟩ => ⟨S11264x2048, .f32⟩
  | .hbm, ⟨46, _⟩ => ⟨S_, .f32⟩
  | .hbm, ⟨47, _⟩ => ⟨S11264x2048, .f32⟩
  | .hbm, ⟨48, _⟩ => ⟨S11264x2048, .f32⟩
  | .hbm, ⟨49, _⟩ => ⟨S11264x2048, .f32⟩
  | .hbm, ⟨50, _⟩ => ⟨S11264x2048, .f32⟩
  | .hbm, ⟨51, _⟩ => ⟨S11264x2048, .f32⟩
  | .hbm, ⟨52, _⟩ => ⟨S11264x2048, .f32⟩
  | .hbm, ⟨53, _⟩ => ⟨S4x2048x11264, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S_, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S4x2048x5632, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x5632, .f32⟩
  | .hbm, ⟨77, _⟩ => ⟨S4x2048x5632, .f32⟩
  | .hbm, ⟨78, _⟩ => ⟨S4x2048x5632, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4x2048x5632, .f32⟩
  | .hbm, ⟨83, _⟩ => ⟨S4x2048x5632, .f32⟩
  | .hbm, ⟨84, _⟩ => ⟨S_, .f32⟩
  | .hbm, ⟨85, _⟩ => ⟨S4x2048x5632, .f32⟩
  | .hbm, ⟨86, _⟩ => ⟨S4x2048x5632, .f32⟩
  | .hbm, ⟨87, _⟩ => ⟨S4x2048x5632, .f32⟩
  | .hbm, ⟨88, _⟩ => ⟨S4x2048x5632, .f32⟩
  | .hbm, ⟨89, _⟩ => ⟨S4x2048x5632, .f32⟩
  | .hbm, ⟨90, _⟩ => ⟨S4x2048x5632, .f32⟩
  | .hbm, ⟨91, _⟩ => ⟨S2048x5632, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x5632, .f32⟩
  | .hbm, ⟨102, _⟩ => ⟨S2048x5632, .f32⟩
  | .hbm, ⟨103, _⟩ => ⟨S2048x5632, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S2048x5632, .f32⟩
  | .hbm, ⟨108, _⟩ => ⟨S2048x5632, .f32⟩
  | .hbm, ⟨109, _⟩ => ⟨S_, .f32⟩
  | .hbm, ⟨110, _⟩ => ⟨S2048x5632, .f32⟩
  | .hbm, ⟨111, _⟩ => ⟨S2048x5632, .f32⟩
  | .hbm, ⟨112, _⟩ => ⟨S2048x5632, .f32⟩
  | .hbm, ⟨113, _⟩ => ⟨S2048x5632, .f32⟩
  | .hbm, ⟨114, _⟩ => ⟨S2048x5632, .f32⟩
  | .hbm, ⟨115, _⟩ => ⟨S2048x5632, .f32⟩
  | .hbm, ⟨116, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call4_v0 : Ref sig .tc := ⟨.hbm, 56, rfl⟩
abbrev main_call4_v1 : Ref sig .tc := ⟨.hbm, 57, rfl⟩
abbrev main_call4_cst : Ref sig .tc := ⟨.hbm, 58, rfl⟩
abbrev main_call4_v2 : Ref sig .tc := ⟨.hbm, 59, rfl⟩
abbrev main_call4_v3 : Ref sig .tc := ⟨.hbm, 60, rfl⟩
abbrev main_call4_cst_0 : Ref sig .tc := ⟨.hbm, 61, rfl⟩
abbrev main_call4_v4 : Ref sig .tc := ⟨.hbm, 62, rfl⟩
abbrev main_call4_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_12 : Ref sig .tc := ⟨.hbm, 79, rfl⟩
abbrev main_cst_13 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_14 : Ref sig .tc := ⟨.hbm, 92, rfl⟩
abbrev main_v51 : Ref sig .tc := ⟨.hbm, 93, rfl⟩
abbrev main_v52 : Ref sig .tc := ⟨.hbm, 94, rfl⟩
abbrev main_cst_15 : Ref sig .tc := ⟨.hbm, 95, rfl⟩
abbrev main_v53 : Ref sig .tc := ⟨.hbm, 96, rfl⟩
abbrev main_v54 : Ref sig .tc := ⟨.hbm, 97, rfl⟩
abbrev main_cst_16 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_17 : Ref sig .tc := ⟨.hbm, 104, rfl⟩
abbrev main_cst_18 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S11264x2048_S11264_d1 : S11264x2048.ReducesTo [1] S11264
  bcast_S11264_S11264x1_0 : S11264.BroadcastsInDim S11264x1 (![0] : Fin 1 → Fin S11264x1.rank)
  bcast_S_S11264x1 : S_.BroadcastsInDim S11264x1 (![] : Fin 0 → Fin S11264x1.rank)
  bcast_S11264x1_S11264x2048_0_1 : S11264x1.BroadcastsInDim S11264x2048 (![0, 1] : Fin 2 → Fin S11264x2048.rank)
  bcast_S_S11264x2048 : S_.BroadcastsInDim S11264x2048 (![] : Fin 0 → Fin S11264x2048.rank)
  slices_S4x2048x11264_S4x2048x5632_0_0_0 : S4x2048x11264.Slices ![0, 0, 0] S4x2048x5632
  slices_S4x2048x11264_S4x2048x5632_0_0_5632 : S4x2048x11264.Slices ![0, 0, 5632] S4x2048x5632
  bcast_S_S4x2048x5632 : S_.BroadcastsInDim S4x2048x5632 (![] : Fin 0 → Fin S4x2048x5632.rank)
  reducesTo_S4x2048x5632_S4x2048_d2 : S4x2048x5632.ReducesTo [2] S4x2048
  bcast_S4x2048x1_S4x2048x5632_0_1_2 : S4x2048x1.BroadcastsInDim S4x2048x5632 (![0, 1, 2] : Fin 3 → Fin S4x2048x5632.rank)
  reducesTo_S2048x5632_S2048_d1 : S2048x5632.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x5632_0_1 : S2048x1.BroadcastsInDim S2048x5632 (![0, 1] : Fin 2 → Fin S2048x5632.rank)
  bcast_S_S2048x5632 : S_.BroadcastsInDim S2048x5632 (![] : Fin 0 → Fin S2048x5632.rank)
  dot_S4x2048x2048_S11264x2048_S4x2048x11264_2_1_01_0_n_n_wf : DotDims.WF S4x2048x2048 S11264x2048 S4x2048x11264 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S11264x2048_S4x2048x11264_2_1_01_0_n_n : DotDims S4x2048x2048 S11264x2048 S4x2048x11264 where
  lhsContracting := [2]
  rhsContracting := [1]
  lhsNonContracting := [0, 1]
  rhsNonContracting := [0]
  lhsBatch := []
  rhsBatch := []
  wf := dot_S4x2048x2048_S11264x2048_S4x2048x11264_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.R0Defs.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the gated projection): the proof data -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output block, from the three input blocks. -/
def out0_3 (x0 : Vec F S1024x2048 .bf16) (x1 : Vec F S2048x512 .bf16) (x2 : Vec F S2048x512 .bf16) : Vec F S1024x512 .f32 :=
  k0_pay1 x0 x1 x2

/-- The proof data of the region on core `c`: the arrays as found; each input's buffer left at its block, the output's at
    the body's result; the two windows on the one transposed weight array hold half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Region0

end Cert.KernelIdeal.Hand

end
-- ==== Proof.R0Body.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.R0Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the gated projection): the body's triple and the obligation at every grid point -/

section Region0
variable (V : (c : Dev nD) → (b : Ref sig .tc) → Buf (Elt F) ((c : Thread nD τ).loc b))

/-! ## The body's triple -/

/-- The offsets of a whole-buffer access on a two-axis shape are zero on both axes. -/
private theorem off_zero2 : (![0, 0] : Fin 2 → ℕ) = fun _ => 0 := by
  funext a; match a with | ⟨0, _⟩ => rfl | ⟨1, _⟩ => rfl

/-- The body's one store tiles the output buffer (it is the whole buffer), so it covers it. -/
theorem cover0_3 (p : Vec F S1024x512 .f32) (y : S1024x512.Idx) :
    ∃ pc ∈ ([⟨Rect.unit ![0, 0] S1024x512.size inb_S1024x512_S1024x512_0_0, p⟩] : List (View.Piece (Elt F) S1024x512 .f32)),
      y ∈ pc.1.set :=
  View.cover_of_tiled [⟨Rect.unit ![0, 0] S1024x512.size inb_S1024x512_S1024x512_0_0, p⟩] S1024x512.size (by rfl) y

set_option maxHeartbeats 1000000 in
/-- The body on whole staging buffers, the three inputs' at contents `x0 x1 x2` and the output's at anything, runs to
    the continuation with the inputs' unchanged and the output's at `out0_3 x0 x1 x2`. -/
theorem sound_kernel0 (c : Dev nD) (E : Set ℕ) (i : grid0.Coords)
    (arg0 : Memref sig .tc .vmem S1024x2048 .bf16) (harg0 : arg0.IsWhole)
    (arg1 : Memref sig .tc .vmem S2048x512 .bf16) (harg1 : arg1.IsWhole)
    (arg2 : Memref sig .tc .vmem S2048x512 .bf16) (harg2 : arg2.IsWhole)
    (arg3 : Memref sig .tc .vmem S1024x512 .f32) (harg3 : arg3.IsWhole)
    (x0 : Vec F S1024x2048 .bf16) (x1 : Vec F S2048x512 .bf16) (x2 : Vec F S2048x512 .bf16) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E
          (cc0__gate_up_swiglu_kernel i arg0 harg0 arg1 harg1 arg2 harg2 arg3 harg3) K := by
  simp only [cc0__gate_up_swiglu_kernel_eq_skeleton]; unfold cc0__gate_up_swiglu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is a piece over the whole buffer, so the buffer read back is its payload; each load is of a whole
  -- buffer, so it reads that buffer's contents
  refine (View.read_writes_eq_canon _ _ _ (cover0_3 _)).trans ?_
  rw [View.canon_unit_zero (S := S1024x512) off_zero2]
  unfold out0_3
  simp only [View.readAt_eq_ld, View.ld_unit_zero (S := S1024x2048) off_zero2,
    View.ld_unit_zero (S := S2048x512) off_zero2]

/-! ## What each input's buffer holds when the body is called -/

/-- An input window's current buffer holds its block at every point, fetched there or not: where it is not fetched the
    block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the output's holds something, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Defs.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): the proof data -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n`: the product of the two blocks at `n` added to what the
    point before left, or to the zero splat where a row of blocks begins (every eleventh point). -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn => k1_pay2 (if (n + 1) % 11 = 0 then k1_pay1 (F := F) else acc1 c n (Nat.lt_of_succ_lt hn))
      (iblk1 V c 0 ⟨n + 1, hn⟩) (iblk1 V c 1 ⟨n + 1, hn⟩)

/-- The first region's eight staging buffers, each whole at some contents: scoped buffers this region never touches. -/
def Stg0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before position `n`: before the first point every scoped buffer the region does not stage at
    anything and the generator register at some state; afterwards the accumulator at what the point before left, the
    other scoped buffers at anything, the generator register at some state. -/
def Phi1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ Stg0 (F := F) c ∗ (∃ r, prngReg c r))

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Region1

end Cert.KernelIdeal.Hand

end
-- ==== Proof.R1Phi.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.R1Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): its invariant against the plain one

Before the first grid point the invariant is the plain one: every scoped buffer the region does not stage at some contents,
and the generator register at some state. Those buffers are the first region's eight staging buffers and the accumulator.
After any point the accumulator's contents are named; forgetting the name gives the plain invariant back. -/

section Region1
variable (V : (c : Dev nD) → (b : Ref sig .tc) → Buf (Elt F) ((c : Thread nD τ).loc b))

/-- The plain invariant, taken apart: the accumulator whole at some contents, the first region's eight staging buffers, the
    generator register. A whole buffer owned at given contents is its points-to at them; the rest is re-association. -/
theorem PhiA1_split (c : Dev nD) :
    (Pipeline.ΦA spec1 c : sProp 𝕄) ⊢ iprop((∃ d, owns (c : Thread nD τ) (Memref.whole cc1_scratch0) fullShare d)
      ∗ Stg0 (F := F) c ∗ (∃ r, prngReg c r)) := by
  unfold Pipeline.ΦA Stg0; rw [scopedRest1_eq]; simp only [owns_whole]
  iintro ⟨⟨H0, H1, H2, H3, H4, H5, H6, H7, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- The converse, from the accumulator at ANY named contents: the name is forgotten. -/
private theorem PhiA1_join (c : Dev nD) (X : Vec F S1024x2048 .f32) :
    iprop(owns (c : Thread nD τ) (Memref.whole cc1_scratch0) fullShare X ∗ Stg0 (F := F) c ∗ (∃ r, prngReg c r))
      ⊢ (Pipeline.ΦA spec1 c : sProp 𝕄) := by
  unfold Pipeline.ΦA Stg0; rw [scopedRest1_eq]; simp only [owns_whole]
  iintro ⟨HS, ⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

/-- Before any position but the first the invariant gives the plain one back. -/
private theorem Phi1_out (c : Dev nD) (n : ℕ) (h : n ≤ cfg1.N) (hz : n ≠ 0) :
    Phi1 V c n h ⊢ (Pipeline.ΦA spec1 c : sProp 𝕄) := by
  cases n with
  | zero => exact absurd rfl hz
  | succ n => exact PhiA1_join c (acc1 V c n h)

/-- What the launch hands the region is the invariant before the first point. -/
theorem hin1 (c : Dev nD) : Pipeline.ΦA spec1 c ⊢ (dat1 V c).Φ 0 := by
  rw [show (dat1 V c).Φ 0 = Phi1 V c 0 (Nat.zero_le _) from rfl,
    show Phi1 V c 0 (Nat.zero_le _) = Pipeline.ΦA spec1 c from rfl]

/-- After the last point the invariant gives the plain one back: there are eighty-eight points, so the last position is not the first. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_out V c _ _ (by rw [Fin.val_last]; have : cfg1.N = 88 := N_1; omega)

end Region1

end Cert.KernelIdeal.Hand

end
-- ==== Proof.R1Body.lean ====
import proofs.«165539_j39865886442066_1_alg».proof.Proof.R1Defs
import proofs.«165539_j39865886442066_1_alg».proof.Proof.R1Phi
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): the body's triples and the obligation at every grid point

A grid point is (row of blocks, place in the row); eleven places make a row. At the first place the accumulator is reset to
the zero splat, at every place the product of the two input blocks is added to it, at the last place it is copied to the
output's buffer. -/

/-! ## The two conditionals over the grid -/

/-- The first conditional of the body: the inner grid coordinate is zero (a row of blocks begins). -/
abbrev cond1_0 (i : grid1.Coords) : Prop :=
  (Scalar.cmpi .ne (Scalar.extui (Scalar.cmpi .eq (BitVec.ofNat 32 (i 1).val) 0#32)) 0#32) = 1#1
/-- It holds at the points ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)
/-- The second conditional of the body: the inner grid coordinate is ten (a row of blocks ends). -/
abbrev cond1_1 (i : grid1.Coords) : Prop := k1_cond2 i = 1#1
/-- It holds at the points ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-- The offsets of a whole-buffer access on a two-axis shape are zero on both axes. -/
private theorem off_zero2 : (![0, 0] : Fin 2 → ℕ) = fun _ => 0 := by
  funext a; match a with | ⟨0, _⟩ => rfl | ⟨1, _⟩ => rfl

/-! ## The body's triples, one per place in the row -/

/-- A store through the whole-shape rectangle at zero offsets, made last, reads back as its payload. -/
private theorem read_store_unit {S : Shape} {e : EltTy} {κ : Kind} {sp : Space} (v : View sig κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load through it reads the contents. -/
private theorem readAt_unit {S : Shape} {e : EltTy} {κ : Kind} {sp : Space} (v : View sig κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

set_option maxHeartbeats 400000 in
/-- Where a row of blocks begins (the first conditional taken, the second not): on whole buffers, the inputs' at `x0 x1`
    and the accumulator at anything, the body runs to the continuation with the inputs' unchanged and the accumulator at
    `k1_pay2 k1_pay1 x0 x1`, the zero splat having been stored first; the output's buffer is not touched. -/
theorem sound_kernel1_A (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : cond1_0 i) (hc1 : ¬cond1_1 i)
    (x0 : Vec F S1024x512 .bf16) (x1 : Vec F S512x2048 .bf16) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (k1_pay1 (F := F)) x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  -- the reset then the update are stored over the whole accumulator: it reads back as the update, whose first operand,
  -- loaded after the reset, is the zero splat
  sl_unfold_words
  refine (read_store_unit _ _ off_zero2 _ _ _).trans ?_
  rw [View.readCov_unit_zero (S := S1024x2048) arg5.view off_zero2, readAt_unit arg2.view f0 off_zero2,
    readAt_unit arg3.view f1 off_zero2]

set_option maxHeartbeats 400000 in
/-- Inside a row of blocks (neither conditional taken): on whole buffers, the inputs' at `x0 x1` and the accumulator at
    `a`, the body runs to the continuation with the inputs' unchanged and the accumulator at `k1_pay2 a x0 x1`; the
    output's buffer is not touched. -/
theorem sound_kernel1_B (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : ¬cond1_0 i) (hc1 : ¬cond1_1 i)
    (x0 : Vec F S1024x512 .bf16) (x1 : Vec F S512x2048 .bf16) (a : Vec F S1024x2048 .f32) (K : PUnit → sProp 𝕄) :
    iprop(owns (c : Thread nD τ) arg2 fullShare x0 ∗ owns (c : Thread nD τ) arg3 fullShare x1
        ∗ owns (c : Thread nD τ) arg5 fullShare a
        ∗ (iprop(owns (c : Thread nD τ) arg2 fullShare x0 ∗ owns (c : Thread nD τ) arg3 fullShare x1
            ∗ owns (c : Thread nD τ) arg5 fullShare (k1_pay2 a x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  refine (read_store_unit _ _ off_zero2 _ _ _).trans ?_
  rw [readAt_unit arg5.view f5 off_zero2, readAt_unit arg2.view f0 off_zero2, readAt_unit arg3.view f1 off_zero2]

set_option maxHeartbeats 400000 in
/-- Where a row of blocks ends (the second conditional taken, the first not): on whole buffers, the inputs' at `x0 x1`, the
    accumulator at `a` and the output's at anything, the body runs to the continuation with the inputs' unchanged and both
    the accumulator and the output's buffer at `k1_pay2 a x0 x1`. -/
theorem sound_kernel1_C (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : ¬cond1_0 i) (hc1 : cond1_1 i)
    (x0 : Vec F S1024x512 .bf16) (x1 : Vec F S512x2048 .bf16) (a : Vec F S1024x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (k1_pay2 a x0 x1)
            ∗ owns (c : Thread nD τ) arg5 fullShare (k1_pay2 a x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    -- the output's buffer is stored whole with what a load of the accumulator reads after the update
    sl_unfold_words
    refine (read_store_unit _ _ off_zero2 _ _ _).trans ?_
    rw [View.readCov_unit_zero (S := S1024x2048) arg5.view off_zero2, readAt_unit arg5.view f5 off_zero2,
      readAt_unit arg2.view f0 off_zero2, readAt_unit arg3.view f1 off_zero2]
  iexists _; isplitr
  swap; · iexact H5
  ipureintro
  sl_unfold_words
  refine (read_store_unit _ _ off_zero2 _ _ _).trans ?_
  rw [readAt_unit arg5.view f5 off_zero2, readAt_unit arg2.view f0 off_zero2, readAt_unit arg3.view f1 off_zero2]

section Region1
variable (V : (c : Dev nD) → (b : Ref sig .tc) → Buf (Elt F) ((c : Thread nD τ).loc b))

/-! ## What the windows' buffers hold when the body is called, and where the output window is idle -/

/-- An input window's current buffer holds its block at every point, fetched there or not: where it is not fetched the
    block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The output window is idle wherever a row of blocks does not end, -/
theorem idleAt1_2 (i : grid1.Coords) (h : ¬cond1_1 i) : cfg1.idle 2 i = true := by
  show (!(k1_cond2 i == 1#1)) = true
  rw [Bool.not_eq_true', beq_eq_false_iff_ne]; exact h
/-- live where one ends, -/
theorem liveAt1_2 (i : grid1.Coords) (h : cond1_1 i) : cfg1.idle 2 i = false := by
  show (!(k1_cond2 i == 1#1)) = false
  rw [Bool.not_eq_false', beq_iff_eq]; exact h
/-- and written back only there. -/
theorem noFlush1_2 (t : Fin cfg1.N) (h : ¬t.val % 11 = 10) : (cfg1.win 2).flush t = false :=
  Bool.eq_false_iff.mpr fun hf => h ((flush1_2 t).mp hf)

/-! ## The accumulator point by point, and the invariant at a point -/

/-- Where a row of blocks begins the accumulator restarts from the zero splat; -/
theorem acc1_reset (c : Dev nD) (t : Fin cfg1.N) (h0 : t.val % 11 = 0) :
    acc1 V c t.val t.isLt = k1_pay2 (k1_pay1 (F := F)) (iblk1 V c 0 t) (iblk1 V c 1 t) := by
  obtain ⟨n, hn⟩ := t
  cases n with
  | zero => rfl
  | succ n => exact congrArg (fun z => k1_pay2 z (iblk1 V c 0 ⟨n + 1, hn⟩) (iblk1 V c 1 ⟨n + 1, hn⟩)) (if_pos h0)

/-- elsewhere it adds to what the point before left. -/
theorem acc1_step (c : Dev nD) (t : Fin cfg1.N) (h0 : ¬t.val % 11 = 0) :
    acc1 V c t.val t.isLt = k1_pay2 (acc1 V c (t.val - 1) (Nat.lt_of_le_of_lt (Nat.sub_le _ _) t.isLt))
      (iblk1 V c 0 t) (iblk1 V c 1 t) := by
  obtain ⟨n, hn⟩ := t
  cases n with
  | zero => exact absurd (Nat.zero_mod _) h0
  | succ n => exact congrArg (fun z => k1_pay2 z (iblk1 V c 0 ⟨n + 1, hn⟩) (iblk1 V c 1 ⟨n + 1, hn⟩)) (if_neg h0)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) (Memref.whole cc1_scratch0) fullShare (acc1 V c n hn) ∗ Stg0 (F := F) c ∗ (∃ r, prngReg c r)) := rfl

theorem Phi1_pos (c : Dev nD) (n : ℕ) (h : n ≤ cfg1.N) (hz : n ≠ 0) :
    Phi1 V c n h = iprop(owns (c : Thread nD τ) (Memref.whole cc1_scratch0) fullShare (acc1 V c (n - 1) (by omega)) ∗ Stg0 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point: the inputs' buffers hold their blocks; the point's place in its row of blocks says which of
    the three triples applies; the invariant hands the body the accumulator at what the point before left (at anything
    before the first point, where a row begins and the body resets it) and takes it back at this point's contents; where
    the row does not end the output's buffer goes back untouched, where it ends it holds the accumulator's contents;
    the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ, after1_0, after1_1]
  have hN : t.val < 88 := lt_of_lt_of_eq t.isLt (show cfg1.N = 88 from N_1)
  by_cases h0 : t.val % 11 = 0
  · have hc0 : cond1_0 (grid1.coords t) := (hcond1_0 t).mpr h0
    have h1 : ¬t.val % 11 = 10 := by omega
    have hc1 : ¬cond1_1 (grid1.coords t) := fun h => h1 ((hcond1_1 t).mp h)
    rw [Dat.leavesExact_idle (dat1 V c) 2 t (idleAt1_2 _ hc1) (noFlush1_2 t h1), acc1_reset V c t h0]
    by_cases hz : t.val = 0
    · rw [Phi1_castSucc V c t, Phi1_zero V c _ _ hz]
      iintro ⟨HΦ, Ho, ⟨%d0, H0⟩, ⟨%d1, H1⟩, H2⟩
      icases (PhiA1_split (F := F) c) $$ HΦ with ⟨HS, Hstg, Hg⟩
      iapply (sound_kernel1_A c Set.univ _ _ _ _ _ _ _ _ _ hc0 hc1 (iblk1 V c 0 t) (iblk1 V c 1 t) _)
      isplitl [H0]; · iexact H0
      isplitl [H1]; · iexact H1
      isplitl [HS]; · iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
    · rw [Phi1_castSucc V c t, Phi1_pos V c _ _ hz]
      iintro ⟨⟨HS, Hstg, Hg⟩, Ho, ⟨%d0, H0⟩, ⟨%d1, H1⟩, H2⟩
      iapply (sound_kernel1_A c Set.univ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
  · have hc0 : ¬cond1_0 (grid1.coords t) := fun h => h0 ((hcond1_0 t).mp h)
    have hz : t.val ≠ 0 := fun e => h0 (by rw [e])
    by_cases h1 : t.val % 11 = 10
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 _ hc1], after1_2, acc1_step V c t h0,
        Phi1_castSucc V c t, Phi1_pos V c _ _ hz]
      iintro ⟨⟨HS, Hstg, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 _ hc1) (noFlush1_2 t h1), acc1_step V c t h0,
        Phi1_castSucc V c t, Phi1_pos V c _ _ hz]
      iintro ⟨⟨HS, Hstg, Hg⟩, Ho, ⟨%d0, H0⟩, ⟨%d1, H1⟩, H2⟩
      iapply (sound_kernel1_B c Set.univ _ _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Outs.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.R0Defs
import proofs.«165539_j39865886442066_1_alg».proof.Proof.R1Defs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between @main's items, with what the two regions leave named -/

variable (m : (ℓ : Loc nD τ sig) → Buf (Elt F) ℓ)

/-- The contents the first region is entered from, read at the TensorCore's references. -/
abbrev Vr13 : (c : Dev nD) → (b : Ref sig .tc) → Buf (Elt F) ((c : Thread nD τ).loc b) := fun c b => V13 m c b

/-- What the first region leaves in its result array: its write-backs folded over the entry contents. -/
def o14 (c : Dev nD) : Buf (Elt F) ((c : Thread nD τ).loc main_v45) := (dat0 (Vr13 m) c).arrAt 3 cfg0.N

/-- Every unscoped buffer after the first region. -/
def W14 (c : Dev nD) : Valuation τ sig (Elt F) := Function.update (V13 m c) main_v45 (o14 m c)

/-- The regions' leavings, as far as the first region: read off `W14`. -/
def outsA : Outs (F := F) := fun _ r c => W14 m c r

/-- The contents the second region is entered from. -/
abbrev Vr19 : (c : Dev nD) → (b : Ref sig .tc) → Buf (Elt F) ((c : Thread nD τ).loc b) := fun c b => V19 m (outsA m) c b

/-- What the second region leaves in its result array. -/
def o20 (c : Dev nD) : Buf (Elt F) ((c : Thread nD τ).loc main_v60) := (dat1 (Vr19 m) c).arrAt 2 cfg1.N

/-- Every unscoped buffer after the second region. -/
def W20 (c : Dev nD) : Valuation τ sig (Elt F) := Function.update (V19 m (outsA m) c) main_v60 (o20 m c)

/-- The regions' leavings: after item 19 read off `W20`, before it off `W14`. -/
def outsB : Outs (F := F) := fun J r c => if J = 20 then W20 m c r else W14 m c r

theorem outsB_14 (c : Dev nD) : outsB m 14 main_v45 c = o14 m c := by
  show (if (14 : ℕ) = 20 then W20 m c main_v45 else W14 m c main_v45) = o14 m c
  rw [if_neg (by decide)]
  exact Function.update_self _ _ _
theorem outsB_20 (c : Dev nD) : outsB m 20 main_v60 c = o20 m c := by
  show (if (20 : ℕ) = 20 then W20 m c main_v60 else W14 m c main_v60) = o20 m c
  rw [if_pos rfl]
  exact Function.update_self _ _ _
theorem outsA_14 (c : Dev nD) : outsA m 14 main_v45 c = o14 m c := by
  show W14 m c main_v45 = o14 m c
  exact Function.update_self _ _ _
theorem V14_outsA (c : Dev nD) : V14 m (outsA m) c = W14 m c := by
  show Function.update (V13 m c) main_v45 (outsA m 14 main_v45 c) = W14 m c
  rw [outsA_14]; rfl
theorem V14_outsB (c : Dev nD) : V14 m (outsB m) c = W14 m c := by
  show Function.update (V13 m c) main_v45 (outsB m 14 main_v45 c) = W14 m c
  rw [outsB_14]; rfl
theorem V19_outsB (c : Dev nD) : V19 m (outsB m) c = V19 m (outsA m) c := by
  have h : V14 m (outsB m) c = V14 m (outsA m) c := (V14_outsB m c).trans (V14_outsA m c).symm
  show StableHlo.after hostOps1_4 (StableHlo.after hostOps1_3 (StableHlo.after hostOps1_2 (StableHlo.after hostOps1_1 (StableHlo.after hostOps1 (V14 m (outsB m) c)))))
    = StableHlo.after hostOps1_4 (StableHlo.after hostOps1_3 (StableHlo.after hostOps1_2 (StableHlo.after hostOps1_1 (StableHlo.after hostOps1 (V14 m (outsA m) c)))))
  rw [h]
theorem V20_outsB (c : Dev nD) : V20 m (outsB m) c = W20 m c := by
  show Function.update (V19 m (outsB m) c) main_v60 (outsB m 20 main_v60 c) = W20 m c
  rw [V19_outsB, outsB_20]; rfl

/-! ## The proof data family and what rides beside the buffers -/

/-- The prefetched tables' admissible contents: no pallas_call has a table (the generated `Gen.adm`). -/
abbrev hadm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (Vr13 m) c
  | ⟨1, _⟩ => fun c => dat1 (Vr19 m) c

abbrev 𝒱h : Variants := Variants.none
abbrev Lh : GSem nD τ sig → Finset Unit := fun _ => ∅
abbrev lvh : GSem nD τ sig → Unit → ℕ := fun _ _ => 0

/-- What rides beside the buffers through every item: the generator register at some state, nothing owed. -/
abbrev Rh (c : Dev nD) : sProp 𝕄 := iprop((∃ r, prngReg c r) ∗ ∃ W, owes (c : Thread nD τ) (0 : CellTallies nD τ sig Unit) W)

end Cert.KernelIdeal.Hand

end
-- ==== Proof.Reg0.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.Outs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's arrays among the core's unscoped buffers

Windows 1 and 2 read the one transposed weight array, so the buffers behind the four windows are three. The region holds
that array's full share as two halves, one per window. -/

/-- The buffers behind the region's four windows are three: the two middle windows read the one weight array. -/
theorem img0 : (Finset.univ.image (Pipeline.arrRef spec0) : Finset (Ref sig .tc)) = {main_v14, main_v29, main_v45} := by decide

/-- The three buffers behind the windows, each whole at the full share. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v14) ↦{fullShare} V main_v14) ∗ (((c : Thread nD τ).loc main_v29) ↦{fullShare} V main_v29)
          ∗ (((c : Thread nD τ).loc main_v45) ↦{fullShare} V main_v45)) := by
  unfold Pipeline.arrBufs
  rw [img0, bigSep_insert (by decide), bigSep_insert (by decide), bigSep_singleton]
  rfl

theorem share0_0 (V) (c : Dev nD) : (dat0 (F := F) V c).share 0 = fullShare := rfl
theorem share0_1 (V) (c : Dev nD) : (dat0 (F := F) V c).share 1 = fullShare.left := rfl
theorem share0_2 (V) (c : Dev nD) : (dat0 (F := F) V c).share 2 = fullShare.right := rfl
theorem share0_3 (V) (c : Dev nD) : (dat0 (F := F) V c).share 3 = fullShare := rfl

/-- Each window's array is a whole buffer, so its points-to is the buffer's at the window's share. -/
theorem pt0_0 (V) (c : Dev nD) (A : Buf (Elt F) ((cfg0.win 0).arr.view.loc (c : Thread nD τ))) :
    ((cfg0.win 0).arr.view.loc (c : Thread nD τ) ↦[(cfg0.win 0).arr.view.set]{(dat0 (F := F) V c).share 0} A : sProp 𝕄)
      = (((c : Thread nD τ).loc main_v14) ↦{fullShare} A) := by
  rw [(arr_whole0 0).set_eq_univ]
  exact congrArg (fun q => (((c : Thread nD τ).loc main_v14) ↦{q} A : sProp 𝕄)) (share0_0 V c)
theorem pt0_1 (V) (c : Dev nD) (A : Buf (Elt F) ((cfg0.win 1).arr.view.loc (c : Thread nD τ))) :
    ((cfg0.win 1).arr.view.loc (c : Thread nD τ) ↦[(cfg0.win 1).arr.view.set]{(dat0 (F := F) V c).share 1} A : sProp 𝕄)
      = (((c : Thread nD τ).loc main_v29) ↦{fullShare.left} A) := by
  rw [(arr_whole0 1).set_eq_univ]
  exact congrArg (fun q => (((c : Thread nD τ).loc main_v29) ↦{q} A : sProp 𝕄)) (share0_1 V c)
theorem pt0_2 (V) (c : Dev nD) (A : Buf (Elt F) ((cfg0.win 2).arr.view.loc (c : Thread nD τ))) :
    ((cfg0.win 2).arr.view.loc (c : Thread nD τ) ↦[(cfg0.win 2).arr.view.set]{(dat0 (F := F) V c).share 2} A : sProp 𝕄)
      = (((c : Thread nD τ).loc main_v29) ↦{fullShare.right} A) := by
  rw [(arr_whole0 2).set_eq_univ]
  exact congrArg (fun q => (((c : Thread nD τ).loc main_v29) ↦{q} A : sProp 𝕄)) (share0_2 V c)
theorem pt0_3 (V) (c : Dev nD) (A : Buf (Elt F) ((cfg0.win 3).arr.view.loc (c : Thread nD τ))) :
    ((cfg0.win 3).arr.view.loc (c : Thread nD τ) ↦[(cfg0.win 3).arr.view.set]{(dat0 (F := F) V c).share 3} A : sProp 𝕄)
      = (((c : Thread nD τ).loc main_v45) ↦{fullShare} A) := by
  rw [(arr_whole0 3).set_eq_univ]
  exact congrArg (fun q => (((c : Thread nD τ).loc main_v45) ↦{q} A : sProp 𝕄)) (share0_3 V c)

/-- The region's arrays at contents `A`: the activations and the result whole, the weight array as its two halves. -/
theorem arrays0_eq (V) (c : Dev nD) (A : (w : Fin cfg0.W) → Buf (Elt F) ((cfg0.win w).arr.view.loc (c : Thread nD τ))) :
    ((dat0 (F := F) V c).arrays A : sProp 𝕄)
      = iprop((((c : Thread nD τ).loc main_v14) ↦{fullShare} A 0) ∗ (((c : Thread nD τ).loc main_v29) ↦{fullShare.left} A 1)
          ∗ (((c : Thread nD τ).loc main_v29) ↦{fullShare.right} A 2) ∗ (((c : Thread nD τ).loc main_v45) ↦{fullShare} A 3)) := by
  unfold Pipeline.Dat.arrays
  rw [bigSep_W0]
  exact congrArg₂ _ (pt0_0 V c (A 0)) (congrArg₂ _ (pt0_1 V c (A 1)) (congrArg₂ _ (pt0_2 V c (A 2)) (pt0_3 V c (A 3))))

/-- The core's unscoped buffers are the three buffers behind the region's windows and the rest. -/
theorem unscopedBufs_split0 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec0 c V : sProp 𝕄) ∗ Pipeline.unscopedRest spec0 c V) :=
  Pipeline.unscopedBufs_split₀ cfgs 0 winFacts₀0.arr_unscoped c V

/-- ENTRY, the arrays' part: the core's unscoped buffers are the region's arrays as found — the weight array's full
    share dealt as its left half to window 1 and its right half to window 2 — and the rest. -/
theorem arrays_of_unscopedBufs0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays (dat0 V c).A ∗ Pipeline.unscopedRest spec0 c (V c)) := by
  rw [unscopedBufs_split0 c (V c), arrBufs0_eq, arrays0_eq]
  iintro ⟨⟨H14, H29, H45⟩, Hrest⟩
  ihave H := (pointsTo_share (PosShare.mem_left_op_right fullShare)).1 $$ H29
  icases H with ⟨HL, HR⟩
  isplitr [Hrest]
  · isplitl [H14]; · iexact H14
    isplitl [HL]; · iexact HL
    isplitl [HR]; · iexact HR
    iexact H45
  iexact Hrest

/-- EXIT, the arrays' part: the region's arrays at contents `A` — the weight array's two halves joined — and the rest at
    `V` are the core's unscoped buffers at any valuation `V'` that has the arrays at `A` and agrees with `V` off them. -/
theorem unscopedBufs_of_arrays0 (V : (c : Dev nD) → (b : Ref sig .tc) → Buf (Elt F) ((c : Thread nD τ).loc b)) (c : Dev nD)
    (V' : (b : Ref sig .tc) → Buf (Elt F) ((c : Thread nD τ).loc b))
    (A : (w : Fin cfg0.W) → Buf (Elt F) ((cfg0.win w).arr.view.loc (c : Thread nD τ)))
    (h0 : A 0 = V' main_v14) (h1 : A 1 = V' main_v29) (h2 : A 2 = V' main_v29) (h3 : A 3 = V' main_v45)
    (hrest : ∀ b, b ∉ Finset.univ.image (Pipeline.arrRef spec0) → V' b = V c b) :
    iprop((dat0 V c).arrays A ∗ Pipeline.unscopedRest spec0 c (V c))
      ⊢ (unscopedBufs (Ix := Unit) (Name := ℕ) (U := UR sig nD τ) (Lvl := ℕ) c V' : sProp 𝕄) := by
  rw [unscopedBufs_split0 c V', arrBufs0_eq, arrays0_eq, h0, h1, h2, h3]
  refine sep_mono ?_ (Entails.of_eq ?_)
  · iintro ⟨H14, HL, HR, H45⟩
    isplitl [H14]; · iexact H14
    isplitl [HL HR]
    · iapply (pointsTo_share (PosShare.mem_left_op_right fullShare)).2
      isplitl [HL]; · iexact HL
      iexact HR
    iexact H45
  · unfold Pipeline.unscopedRest
    exact bigSep_congr fun b hb => by rw [hrest b (Finset.mem_sdiff.mp hb).2]

/-! # The first kernel region as a segment of @main -/

variable (m : (ℓ : Loc nD τ sig) → Buf (Elt F) ℓ)

/-- After the region every buffer but its result array holds what it held at entry, -/
theorem W14_of_ne (c : Dev nD) (b : Ref sig .tc) (hb : b ≠ main_v45) : W14 m c b = V13 m c b := by
  unfold W14; exact Function.update_of_ne (StableHlo.devRef_ne_of_ne hb) _ _
/-- and the result array what the region leaves there. -/
theorem W14_out (c : Dev nD) : W14 m c main_v45 = o14 m c := by
  unfold W14; exact Function.update_self _ _ _

/-- At the region's exit its three input arrays are as entered (an input is never written back), -/
theorem hF0_0 (c : Dev nD) : (dat0 (Vr13 m) c).arrAt 0 cfg0.N = W14 m c main_v14 :=
  ((dat0 (Vr13 m) c).arrAt_in 0 rfl cfg0.N).trans (W14_of_ne m c main_v14 (by decide)).symm
theorem hF0_1 (c : Dev nD) : (dat0 (Vr13 m) c).arrAt 1 cfg0.N = W14 m c main_v29 :=
  ((dat0 (Vr13 m) c).arrAt_in 1 rfl cfg0.N).trans (W14_of_ne m c main_v29 (by decide)).symm
theorem hF0_2 (c : Dev nD) : (dat0 (Vr13 m) c).arrAt 2 cfg0.N = W14 m c main_v29 :=
  ((dat0 (Vr13 m) c).arrAt_in 2 rfl cfg0.N).trans (W14_of_ne m c main_v29 (by decide)).symm
/-- its result array holds the write-backs folded over the entry contents, -/
theorem hF0_3 (c : Dev nD) : (dat0 (Vr13 m) c).arrAt 3 cfg0.N = W14 m c main_v45 := (W14_out m c).symm
/-- and every buffer behind no window is as entered. -/
theorem hrest0 (c : Dev nD) : ∀ b : Ref sig .tc, b ∉ Finset.univ.image (Pipeline.arrRef spec0) → W14 m c b = Vr13 m c b :=
  fun b hb => W14_of_ne m c b fun e => hb (e ▸ Finset.mem_image.mpr ⟨3, Finset.mem_univ _, rfl⟩)

set_option backward.isDefEq.respectTransparency.types false in
/-- The first region over the thread state: entered from every unscoped buffer at `V13`, left at `W14`. The one
    transposed weight array its windows 1 and 2 both read is split in two halves at entry and joined again at exit. -/
def reg0 (hb : ∀ c : Dev nD, BodyObligation (dat0 (F := F) (Vr13 m) c) (defs₀ (F := F)) Variants.none () Set.univ) :
    Pipeline.RegionSeg (pcfgs (F := F)) hadm (pdats m) () defs₀ 𝒱h Lh lvh 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ Lh lvh 0 fun _ _ => rfl
  pre c := iprop(StableHlo.held (c : Thread nD τ) (Pipeline.ucRefs τ sig) (V13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := arrays_of_unscopedBufs0 (Vr13 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (Vr13 m) c (fun b => W14 m c b) ((dat0 (Vr13 m) c).arrAt · cfg0.N)
      (hF0_0 m c) (hF0_1 m c) (hF0_2 m c) (hF0_3 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg0_pre (hb) (c : Dev nD) : (reg0 m hb).pre c = iprop(StableHlo.held (c : Thread nD τ) (Pipeline.ucRefs τ sig) (V13 m c) ∗ Rh c) := rfl
theorem reg0_post (hb) (c : Dev nD) : (reg0 m hb).post c = iprop(StableHlo.held (c : Thread nD τ) (Pipeline.ucRefs τ sig) (W14 m c) ∗ Rh c) := rfl

end Cert.KernelIdeal.Hand

end
-- ==== Proof.Reg1.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.Outs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region as a segment of @main -/

variable (m : (ℓ : Loc nD τ sig) → Buf (Elt F) ℓ)

/-! ## The exit contents at the region's arrays, and off them -/

/-- The contents the second region leaves, read at the TensorCore's references. -/
abbrev Vr20 : (c : Dev nD) → (b : Ref sig .tc) → Buf (Elt F) ((c : Thread nD τ).loc b) := fun c b => W20 m c b

/-- The first input array is never written: it leaves as it entered, and the exit contents differ from the entry
    contents only at the result array, a different buffer. -/
theorem hF1_0 (c : Dev nD) : (dat1 (Vr19 m) c).arrAt 0 cfg1.N = Vr20 m c (Pipeline.arrRef spec1 0) := by
  rw [Pipeline.Dat.arrAt_in _ (0 : Fin cfg1.W) rfl, A_eq1]
  exact (Function.update_of_ne (StableHlo.devRef_ne_of_ne (by decide)) _ _).symm

/-- The second input array likewise. -/
theorem hF1_1 (c : Dev nD) : (dat1 (Vr19 m) c).arrAt 1 cfg1.N = Vr20 m c (Pipeline.arrRef spec1 1) := by
  rw [Pipeline.Dat.arrAt_in _ (1 : Fin cfg1.W) rfl, A_eq1]
  exact (Function.update_of_ne (StableHlo.devRef_ne_of_ne (by decide)) _ _).symm

/-- The result array leaves at its write-backs folded over the entry contents: the exit contents are the entry
    contents updated there to exactly that. -/
theorem hF1_2 (c : Dev nD) : (dat1 (Vr19 m) c).arrAt 2 cfg1.N = Vr20 m c (Pipeline.arrRef spec1 2) := by
  refine Eq.symm ?_
  show W20 m c main_v60 = o20 m c
  exact Function.update_self _ _ _

/-- Each of the region's arrays holds at the exit what the pipeline leaves in it. -/
theorem hF1 (c : Dev nD) (w : Fin cfg1.W) : (dat1 (Vr19 m) c).arrAt w cfg1.N = Vr20 m c (Pipeline.arrRef spec1 w) :=
  match w with
  | ⟨0, _⟩ => hF1_0 m c
  | ⟨1, _⟩ => hF1_1 m c
  | ⟨2, _⟩ => hF1_2 m c

/-- Every buffer that is no window's array holds at the exit what it held at the entry: the only buffer updated is
    the result array, which is the third window's. -/
theorem hrest1 (c : Dev nD) : ∀ b, b ∉ Finset.univ.image (Pipeline.arrRef spec1) → Vr20 m c b = Vr19 m c b := fun b hb =>
  Function.update_of_ne (StableHlo.devRef_ne_of_ne fun e => hb (Finset.mem_image.mpr ⟨(2 : Fin cfg1.W), Finset.mem_univ _, e.symm⟩)) _ _

set_option backward.isDefEq.respectTransparency.types false in
/-- The second region over the thread state: entered from every unscoped buffer at `V19` (over the first region's
    leavings), left at `W20`. -/
def reg1 (hb : ∀ c : Dev nD, BodyObligation (dat1 (F := F) (Vr19 m) c) (defs₀ (F := F)) Variants.none () Set.univ)
    (hi : ∀ c : Dev nD, Pipeline.ΦA spec1 c ⊢ (dat1 (F := F) (Vr19 m) c).Φ 0)
    (ho : ∀ c : Dev nD, (dat1 (F := F) (Vr19 m) c).Φ (Fin.last cfg1.N) ⊢ Pipeline.ΦA spec1 c) :
    Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ Lh lvh 1 fun _ _ => rfl
  pre c := iprop(StableHlo.held (c : Thread nD τ) (Pipeline.ucRefs τ sig) (V19 m (outsA m) c) ∗ Rh c)
  post c := iprop(StableHlo.held (c : Thread nD τ) (Pipeline.ucRefs τ sig) (W20 m c) ∗ Rh c)
  X c := iprop(∃ r, prngReg c r)
  Y c := iprop(∃ r, prngReg c r)
  Z c := Pipeline.unscopedRest (Ix := Unit) (Name := ℕ) (U := UR sig nD τ) (Lvl := ℕ) spec1 c (Vr19 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vr19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vr19 m c) (Vr20 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (hb hi ho) (c : Dev nD) : (reg1 m hb hi ho).pre c = iprop(StableHlo.held (c : Thread nD τ) (Pipeline.ucRefs τ sig) (V19 m (outsA m) c) ∗ Rh c) := rfl
theorem reg1_post (hb hi ho) (c : Dev nD) : (reg1 m hb hi ho).post c = iprop(StableHlo.held (c : Thread nD τ) (Pipeline.ucRefs τ sig) (W20 m c) ∗ Rh c) := rfl

end Cert.KernelIdeal.Hand

end
-- ==== Proof.Run.lean ====
import proofs.«165539_j39865886442066_1_alg».proof.Proof.Gen.KernelIdeal.Launch
import proofs.«165539_j39865886442066_1_alg».proof.Proof.Gen.KernelIdeal.Skeleton
import proofs.«165539_j39865886442066_1_alg».proof.Proof.Gen.KernelIdeal.Points
import proofs.«165539_j39865886442066_1_alg».proof.Proof.Gen.KernelIdeal.Regions
import proofs.«165539_j39865886442066_1_alg».proof.Proof.Outs
import proofs.«165539_j39865886442066_1_alg».proof.Proof.Reg0
import proofs.«165539_j39865886442066_1_alg».proof.Proof.Reg1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main's run: the launch over the two regions' segments

  Given the two regions' body obligations (and the second region's invariant in and out), every weakly fair execution
  of @main terminates; read against the last valuation, the arguments end as launched and the result array holds the
  second region's leavings, re-laid. -/

open Idealize.ShloMosaic.Pipeline (Seg HostSeg RegionSeg)

variable (m : (ℓ : Loc nD τ sig) → Buf (Elt F) ℓ)

section Launch

variable (hb0 : ∀ c : Dev nD, BodyObligation (dat0 (F := F) (Vr13 m) c) (defs₀ (F := F)) Variants.none () Set.univ)
  (hb1 : ∀ c : Dev nD, BodyObligation (dat1 (F := F) (Vr19 m) c) (defs₀ (F := F)) Variants.none () Set.univ)
  (hi1 : ∀ c : Dev nD, Pipeline.ΦA spec1 c ⊢ (dat1 (F := F) (Vr19 m) c).Φ 0)
  (ho1 : ∀ c : Dev nD, (dat1 (F := F) (Vr19 m) c).Φ (Fin.last cfg1.N) ⊢ Pipeline.ΦA spec1 c)
  (ρ : Dev nD → PrngReg)

/-- The thread states the regions leave and are entered from are the generated valuations at the named leavings. -/
theorem hpost0h (c : Dev nD) : iprop(StableHlo.held (c : Thread nD τ) (Pipeline.ucRefs τ sig) (W14 m c) ∗ Rh (F := F) c)
    ⊢ (iprop(StableHlo.held (c : Thread nD τ) (Pipeline.ucRefs τ sig) (V14 m (outsB m) c) ∗ Rh (F := F) c) : sProp 𝕄) := by
  rw [V14_outsB]
theorem hpre1h (c : Dev nD) : iprop(StableHlo.held (c : Thread nD τ) (Pipeline.ucRefs τ sig) (V19 m (outsB m) c) ∗ Rh (F := F) c)
    ⊢ (iprop(StableHlo.held (c : Thread nD τ) (Pipeline.ucRefs τ sig) (V19 m (outsA m) c) ∗ Rh (F := F) c) : sProp 𝕄) := by
  rw [V19_outsB]
theorem hpost1h (c : Dev nD) : iprop(StableHlo.held (c : Thread nD τ) (Pipeline.ucRefs τ sig) (W20 m c) ∗ Rh (F := F) c)
    ⊢ (iprop(StableHlo.held (c : Thread nD τ) (Pipeline.ucRefs τ sig) (V20 m (outsB m) c) ∗ Rh (F := F) c) : sProp 𝕄) := by
  rw [V20_outsB]

/-- The launch element yields the pipeline library's at every staging cell; no other ghost resource is dealt. -/
theorem hu₀h : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the riding state on every core. -/
theorem hE0h : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lh lvh)
    ⊢ (|={Set.univ}=> bigSep Finset.univ (fun c : Dev nD => Rh (F := F) c) : sProp 𝕄) := by
  refine Pipeline.initEach Lh lvh fun c => ?_
  iintro ⟨⟨-, HO, -, Hp, -⟩, -⟩
  imodintro
  isplitl [Hp]; · iexists _; iexact Hp
  iexists ∅; iexact HO

include hb0 hb1 hi1 ho1 in
set_option backward.isDefEq.respectTransparency.types false in
/-- THE FRAME: every weakly fair execution of @main terminates with the argument arrays as launched. -/
theorem frame_of_bodies : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := 𝒱h) (L := Lh) (lv := lvh) (hL := fun _ _ => rfl) (ρ := ρ) (outs := outsB m) (pdats := pdats m)
    (O₀ := 0) (G := fun _ => iprop(emp)) (u₀ := initOf (Pipeline.cells cfgs cellOf_inj) (Pipeline.launchToks cfgs cellOf_inj)) (hu₀ := hu₀h)
    (E := fun _ c => Rh c) (hE0 := hE0h ρ) (hE2 := fun c => by iintro ⟨-, H⟩; iexact H)
    (R0 := reg0 m hb0) (hpre0 := fun c => .rfl) (hpost0 := fun c => by rw [V14_outsB]; exact .rfl)
    (R1 := reg1 m hb1 hi1 ho1) (hpre1 := fun c => by rw [V19_outsB]; exact .rfl) (hpost1 := fun c => by rw [V20_outsB]; exact .rfl)

include hb0 hb1 hi1 ho1 in
set_option backward.isDefEq.respectTransparency.types false in
/-- THE RUN WITH ITS RESULT: the same executions end with the result array at the last valuation's contents. -/
theorem run_of_bodies : θ_run defs (onTc (τ := τ) (main (F := F))) ⟨m, fun _ => 0, ρ⟩ (fun r => ∀ c : Dev nD,
      r.2.mem ((c.tc : Thread nD τ).loc main_v61) = V21 m (outsB m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ 𝒱h Lh lvh m ρ main
    (segs m (outsB m) 𝒱h Lh lvh (fun _ c => Rh c) () (pdats m) (reg0 m hb0) (reg1 m hb1 hi1 ho1))
    (fun c Q => by
      rewrite [main_chain c, Seg.run_eq_chain,
        show (segs m (outsB m) 𝒱h Lh lvh (fun _ c => Rh c) () (pdats m) (reg0 m hb0) (reg1 m hb1 hi1 ho1) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj)) (hu₀ := hu₀h)
    (T₀ := fun c => iprop(StableHlo.held (c : Thread nD τ) (Pipeline.ucRefs τ sig) (V0 m c) ∗ Rh c))
    (Tₙ := fun c => StableHlo.held (c : Thread nD τ) (Pipeline.ucRefs τ sig) (V21 m (outsB m) c))
    (hch := fun c => ⟨.rfl, .rfl, .rfl, .rfl, .rfl, .rfl, .rfl, .rfl, .rfl, .rfl, .rfl, .rfl, .rfl, .rfl,
      hpost0h m c, .rfl, .rfl, .rfl, .rfl, hpre1h m c, hpost1h m c,
      sep_mono .rfl (by iintro ⟨-, H⟩; iexact H)⟩)
    (hinit := ?_)
    (QY := fun c s => s.mem ((c.tc : Thread nD τ).loc main_v61) = V21 m (outsB m) c main_v61
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0h ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rh (F := F) c)]
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V21 m (outsB m) c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V21_main_arg0 m (outsB m) c),
        (h (Proc.devRef .tc main_arg1) (Finset.mem_filter.mpr ⟨StableHlo.devRef_mem_tcRefs main_arg1, by decide⟩)).trans (V21_main_arg1 m (outsB m) c),
        (h (Proc.devRef .tc main_arg2) (Finset.mem_filter.mpr ⟨StableHlo.devRef_mem_tcRefs main_arg2, by decide⟩)).trans (V21_main_arg2 m (outsB m) c)⟩
    · iexact HSI

end Launch

end Cert.KernelIdeal.Hand

end
-- ==== Proof.K_R0Defs.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the gated projection): the proof data -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output block, from the three input blocks. -/
def out0_3 (x0 : Vec F S1024x2048 .bf16) (x1 : Vec F S2048x512 .bf16) (x2 : Vec F S2048x512 .bf16) : Vec F S1024x512 .f32 :=
  k0_pay1 x0 x1 x2

/-- The proof data of the region on core `c`: the arrays as found; each input's buffer left at its block, the output's at
    the body's result; the two windows on the one transposed weight array hold half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Region0

end Cert.Kernel.Hand

end
-- ==== Proof.K_R0Body.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_R0Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region (the gated projection): the body's triple and the obligation at every grid point -/

section Region0
variable (V : (c : Dev nD) → (b : Ref sig .tc) → Buf (Elt F) ((c : Thread nD τ).loc b))

/-! ## The body's triple -/

/-- The offsets of a whole-buffer access on a two-axis shape are zero on both axes. -/
private theorem off_zero2 : (![0, 0] : Fin 2 → ℕ) = fun _ => 0 := by
  funext a; match a with | ⟨0, _⟩ => rfl | ⟨1, _⟩ => rfl

/-- The body's one store tiles the output buffer (it is the whole buffer), so it covers it. -/
theorem cover0_3 (p : Vec F S1024x512 .f32) (y : S1024x512.Idx) :
    ∃ pc ∈ ([⟨Rect.unit ![0, 0] S1024x512.size inb_S1024x512_S1024x512_0_0, p⟩] : List (View.Piece (Elt F) S1024x512 .f32)),
      y ∈ pc.1.set :=
  View.cover_of_tiled [⟨Rect.unit ![0, 0] S1024x512.size inb_S1024x512_S1024x512_0_0, p⟩] S1024x512.size (by rfl) y

set_option maxHeartbeats 1000000 in
/-- The body on whole staging buffers, the three inputs' at contents `x0 x1 x2` and the output's at anything, runs to
    the continuation with the inputs' unchanged and the output's at `out0_3 x0 x1 x2`. -/
theorem sound_kernel0 (c : Dev nD) (E : Set ℕ) (i : grid0.Coords)
    (arg0 : Memref sig .tc .vmem S1024x2048 .bf16) (harg0 : arg0.IsWhole)
    (arg1 : Memref sig .tc .vmem S2048x512 .bf16) (harg1 : arg1.IsWhole)
    (arg2 : Memref sig .tc .vmem S2048x512 .bf16) (harg2 : arg2.IsWhole)
    (arg3 : Memref sig .tc .vmem S1024x512 .f32) (harg3 : arg3.IsWhole)
    (x0 : Vec F S1024x2048 .bf16) (x1 : Vec F S2048x512 .bf16) (x2 : Vec F S2048x512 .bf16) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E
          (cc0__gate_up_swiglu_kernel i arg0 harg0 arg1 harg1 arg2 harg2 arg3 harg3) K := by
  simp only [cc0__gate_up_swiglu_kernel_eq_skeleton]; unfold cc0__gate_up_swiglu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is a piece over the whole buffer, so the buffer read back is its payload; each load is of a whole
  -- buffer, so it reads that buffer's contents
  refine (View.read_writes_eq_canon _ _ _ (cover0_3 _)).trans ?_
  rw [View.canon_unit_zero (S := S1024x512) off_zero2]
  unfold out0_3
  simp only [View.readAt_eq_ld, View.ld_unit_zero (S := S1024x2048) off_zero2,
    View.ld_unit_zero (S := S2048x512) off_zero2]

/-! ## What each input's buffer holds when the body is called -/

/-- An input window's current buffer holds its block at every point, fetched there or not: where it is not fetched the
    block index has not moved since the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the output's holds something, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K_R1Defs.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): the proof data -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n`: the product of the two blocks at `n` added to what the
    point before left, or to the zero splat where a row of blocks begins (every eleventh point). -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn => k1_pay2 (if (n + 1) % 11 = 0 then k1_pay1 (F := F) else acc1 c n (Nat.lt_of_succ_lt hn))
      (iblk1 V c 0 ⟨n + 1, hn⟩) (iblk1 V c 1 ⟨n + 1, hn⟩)

/-- The first region's eight staging buffers, each whole at some contents: scoped buffers this region never touches. -/
def Stg0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant before position `n`: before the first point every scoped buffer the region does not stage at
    anything and the generator register at some state; afterwards the accumulator at what the point before left, the
    other scoped buffers at anything, the generator register at some state. -/
def Phi1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ Stg0 (F := F) c ∗ (∃ r, prngReg c r))

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Region1

end Cert.Kernel.Hand

end
-- ==== Proof.K_R1Phi.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_R1Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): its invariant against the plain one

Before the first grid point the invariant is the plain one: every scoped buffer the region does not stage at some contents,
and the generator register at some state. Those buffers are the first region's eight staging buffers and the accumulator.
After any point the accumulator's contents are named; forgetting the name gives the plain invariant back. -/

section Region1
variable (V : (c : Dev nD) → (b : Ref sig .tc) → Buf (Elt F) ((c : Thread nD τ).loc b))

/-- The plain invariant, taken apart: the accumulator whole at some contents, the first region's eight staging buffers, the
    generator register. A whole buffer owned at given contents is its points-to at them; the rest is re-association. -/
theorem PhiA1_split (c : Dev nD) :
    (Pipeline.ΦA spec1 c : sProp 𝕄) ⊢ iprop((∃ d, owns (c : Thread nD τ) (Memref.whole cc1_scratch0) fullShare d)
      ∗ Stg0 (F := F) c ∗ (∃ r, prngReg c r)) := by
  unfold Pipeline.ΦA Stg0; rw [scopedRest1_eq]; simp only [owns_whole]
  iintro ⟨⟨H0, H1, H2, H3, H4, H5, H6, H7, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- The converse, from the accumulator at ANY named contents: the name is forgotten. -/
private theorem PhiA1_join (c : Dev nD) (X : Vec F S1024x2048 .f32) :
    iprop(owns (c : Thread nD τ) (Memref.whole cc1_scratch0) fullShare X ∗ Stg0 (F := F) c ∗ (∃ r, prngReg c r))
      ⊢ (Pipeline.ΦA spec1 c : sProp 𝕄) := by
  unfold Pipeline.ΦA Stg0; rw [scopedRest1_eq]; simp only [owns_whole]
  iintro ⟨HS, ⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

/-- Before any position but the first the invariant gives the plain one back. -/
private theorem Phi1_out (c : Dev nD) (n : ℕ) (h : n ≤ cfg1.N) (hz : n ≠ 0) :
    Phi1 V c n h ⊢ (Pipeline.ΦA spec1 c : sProp 𝕄) := by
  cases n with
  | zero => exact absurd rfl hz
  | succ n => exact PhiA1_join c (acc1 V c n h)

/-- What the launch hands the region is the invariant before the first point. -/
theorem hin1 (c : Dev nD) : Pipeline.ΦA spec1 c ⊢ (dat1 V c).Φ 0 := by
  rw [show (dat1 V c).Φ 0 = Phi1 V c 0 (Nat.zero_le _) from rfl,
    show Phi1 V c 0 (Nat.zero_le _) = Pipeline.ΦA spec1 c from rfl]

/-- After the last point the invariant gives the plain one back: there are eighty-eight points, so the last position is not the first. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_out V c _ _ (by rw [Fin.val_last]; have : cfg1.N = 88 := N_1; omega)

end Region1

end Cert.Kernel.Hand

end
-- ==== Proof.K_R1Body.lean ====
import proofs.«165539_j39865886442066_1_alg».proof.Proof.K_R1Defs
import proofs.«165539_j39865886442066_1_alg».proof.Proof.K_R1Phi
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulated projection): the body's triples and the obligation at every grid point

A grid point is (row of blocks, place in the row); eleven places make a row. At the first place the accumulator is reset to
the zero splat, at every place the product of the two input blocks is added to it, at the last place it is copied to the
output's buffer. -/

/-! ## The two conditionals over the grid -/

/-- The first conditional of the body: the inner grid coordinate is zero (a row of blocks begins). -/
abbrev cond1_0 (i : grid1.Coords) : Prop :=
  (Scalar.cmpi .ne (Scalar.extui (Scalar.cmpi .eq (BitVec.ofNat 32 (i 1).val) 0#32)) 0#32) = 1#1
/-- It holds at the points ≡ 0 (mod 11). -/
theorem hcond1_0 : ∀ t : Fin cfg1.N, cond1_0 (grid1.coords t) ↔ t.val % 11 = 0 :=
  (by decide +kernel : ∀ t : Fin grid1.N, cond1_0 (grid1.coords t) ↔ t.val % 11 = 0)
/-- The second conditional of the body: the inner grid coordinate is ten (a row of blocks ends). -/
abbrev cond1_1 (i : grid1.Coords) : Prop := k1_cond2 i = 1#1
/-- It holds at the points ≡ 10 (mod 11). -/
theorem hcond1_1 : ∀ t : Fin cfg1.N, cond1_1 (grid1.coords t) ↔ t.val % 11 = 10 :=
  (by decide +kernel : ∀ t : Fin grid1.N, cond1_1 (grid1.coords t) ↔ t.val % 11 = 10)

/-- The offsets of a whole-buffer access on a two-axis shape are zero on both axes. -/
private theorem off_zero2 : (![0, 0] : Fin 2 → ℕ) = fun _ => 0 := by
  funext a; match a with | ⟨0, _⟩ => rfl | ⟨1, _⟩ => rfl

/-! ## The body's triples, one per place in the row -/

/-- A store through the whole-shape rectangle at zero offsets, made last, reads back as its payload. -/
private theorem read_store_unit {S : Shape} {e : EltTy} {κ : Kind} {sp : Space} (v : View sig κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load through it reads the contents. -/
private theorem readAt_unit {S : Shape} {e : EltTy} {κ : Kind} {sp : Space} (v : View sig κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

set_option maxHeartbeats 400000 in
/-- Where a row of blocks begins (the first conditional taken, the second not): on whole buffers, the inputs' at `x0 x1`
    and the accumulator at anything, the body runs to the continuation with the inputs' unchanged and the accumulator at
    `k1_pay2 k1_pay1 x0 x1`, the zero splat having been stored first; the output's buffer is not touched. -/
theorem sound_kernel1_A (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : cond1_0 i) (hc1 : ¬cond1_1 i)
    (x0 : Vec F S1024x512 .bf16) (x1 : Vec F S512x2048 .bf16) (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (k1_pay1 (F := F)) x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  -- the reset then the update are stored over the whole accumulator: it reads back as the update, whose first operand,
  -- loaded after the reset, is the zero splat
  sl_unfold_words
  refine (read_store_unit _ _ off_zero2 _ _ _).trans ?_
  rw [View.readCov_unit_zero (S := S1024x2048) arg5.view off_zero2, readAt_unit arg2.view f0 off_zero2,
    readAt_unit arg3.view f1 off_zero2]

set_option maxHeartbeats 400000 in
/-- Inside a row of blocks (neither conditional taken): on whole buffers, the inputs' at `x0 x1` and the accumulator at
    `a`, the body runs to the continuation with the inputs' unchanged and the accumulator at `k1_pay2 a x0 x1`; the
    output's buffer is not touched. -/
theorem sound_kernel1_B (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : ¬cond1_0 i) (hc1 : ¬cond1_1 i)
    (x0 : Vec F S1024x512 .bf16) (x1 : Vec F S512x2048 .bf16) (a : Vec F S1024x2048 .f32) (K : PUnit → sProp 𝕄) :
    iprop(owns (c : Thread nD τ) arg2 fullShare x0 ∗ owns (c : Thread nD τ) arg3 fullShare x1
        ∗ owns (c : Thread nD τ) arg5 fullShare a
        ∗ (iprop(owns (c : Thread nD τ) arg2 fullShare x0 ∗ owns (c : Thread nD τ) arg3 fullShare x1
            ∗ owns (c : Thread nD τ) arg5 fullShare (k1_pay2 a x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  refine (read_store_unit _ _ off_zero2 _ _ _).trans ?_
  rw [readAt_unit arg5.view f5 off_zero2, readAt_unit arg2.view f0 off_zero2, readAt_unit arg3.view f1 off_zero2]

set_option maxHeartbeats 400000 in
/-- Where a row of blocks ends (the second conditional taken, the first not): on whole buffers, the inputs' at `x0 x1`, the
    accumulator at `a` and the output's at anything, the body runs to the continuation with the inputs' unchanged and both
    the accumulator and the output's buffer at `k1_pay2 a x0 x1`. -/
theorem sound_kernel1_C (c : Dev nD) (E : Set ℕ) (i : grid1.Coords)
    (arg2 : Memref sig .tc .vmem S1024x512 .bf16) (harg2 : arg2.IsWhole)
    (arg3 : Memref sig .tc .vmem S512x2048 .bf16) (harg3 : arg3.IsWhole)
    (arg4 : Memref sig .tc .vmem S1024x2048 .f32) (harg4 : arg4.IsWhole)
    (arg5 : Memref sig .tc .vmem S1024x2048 .f32) (harg5 : arg5.IsWhole)
    (hc0 : ¬cond1_0 i) (hc1 : cond1_1 i)
    (x0 : Vec F S1024x512 .bf16) (x1 : Vec F S512x2048 .bf16) (a : Vec F S1024x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (k1_pay2 a x0 x1)
            ∗ owns (c : Thread nD τ) arg5 fullShare (k1_pay2 a x0 x1)) -∗ K ⟨⟩))
      ⊢ wp frame (wpE (defs₀ (F := F)) Variants.none c none) E
          (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    -- the output's buffer is stored whole with what a load of the accumulator reads after the update
    sl_unfold_words
    refine (read_store_unit _ _ off_zero2 _ _ _).trans ?_
    rw [View.readCov_unit_zero (S := S1024x2048) arg5.view off_zero2, readAt_unit arg5.view f5 off_zero2,
      readAt_unit arg2.view f0 off_zero2, readAt_unit arg3.view f1 off_zero2]
  iexists _; isplitr
  swap; · iexact H5
  ipureintro
  sl_unfold_words
  refine (read_store_unit _ _ off_zero2 _ _ _).trans ?_
  rw [readAt_unit arg5.view f5 off_zero2, readAt_unit arg2.view f0 off_zero2, readAt_unit arg3.view f1 off_zero2]

section Region1
variable (V : (c : Dev nD) → (b : Ref sig .tc) → Buf (Elt F) ((c : Thread nD τ).loc b))

/-! ## What the windows' buffers hold when the body is called, and where the output window is idle -/

/-- An input window's current buffer holds its block at every point, fetched there or not: where it is not fetched the
    block index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The output window is idle wherever a row of blocks does not end, -/
theorem idleAt1_2 (i : grid1.Coords) (h : ¬cond1_1 i) : cfg1.idle 2 i = true := by
  show (!(k1_cond2 i == 1#1)) = true
  rw [Bool.not_eq_true', beq_eq_false_iff_ne]; exact h
/-- live where one ends, -/
theorem liveAt1_2 (i : grid1.Coords) (h : cond1_1 i) : cfg1.idle 2 i = false := by
  show (!(k1_cond2 i == 1#1)) = false
  rw [Bool.not_eq_false', beq_iff_eq]; exact h
/-- and written back only there. -/
theorem noFlush1_2 (t : Fin cfg1.N) (h : ¬t.val % 11 = 10) : (cfg1.win 2).flush t = false :=
  Bool.eq_false_iff.mpr fun hf => h ((flush1_2 t).mp hf)

/-! ## The accumulator point by point, and the invariant at a point -/

/-- Where a row of blocks begins the accumulator restarts from the zero splat; -/
theorem acc1_reset (c : Dev nD) (t : Fin cfg1.N) (h0 : t.val % 11 = 0) :
    acc1 V c t.val t.isLt = k1_pay2 (k1_pay1 (F := F)) (iblk1 V c 0 t) (iblk1 V c 1 t) := by
  obtain ⟨n, hn⟩ := t
  cases n with
  | zero => rfl
  | succ n => exact congrArg (fun z => k1_pay2 z (iblk1 V c 0 ⟨n + 1, hn⟩) (iblk1 V c 1 ⟨n + 1, hn⟩)) (if_pos h0)

/-- elsewhere it adds to what the point before left. -/
theorem acc1_step (c : Dev nD) (t : Fin cfg1.N) (h0 : ¬t.val % 11 = 0) :
    acc1 V c t.val t.isLt = k1_pay2 (acc1 V c (t.val - 1) (Nat.lt_of_le_of_lt (Nat.sub_le _ _) t.isLt))
      (iblk1 V c 0 t) (iblk1 V c 1 t) := by
  obtain ⟨n, hn⟩ := t
  cases n with
  | zero => exact absurd (Nat.zero_mod _) h0
  | succ n => exact congrArg (fun z => k1_pay2 z (iblk1 V c 0 ⟨n + 1, hn⟩) (iblk1 V c 1 ⟨n + 1, hn⟩)) (if_neg h0)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) (Memref.whole cc1_scratch0) fullShare (acc1 V c n hn) ∗ Stg0 (F := F) c ∗ (∃ r, prngReg c r)) := rfl

theorem Phi1_pos (c : Dev nD) (n : ℕ) (h : n ≤ cfg1.N) (hz : n ≠ 0) :
    Phi1 V c n h = iprop(owns (c : Thread nD τ) (Memref.whole cc1_scratch0) fullShare (acc1 V c (n - 1) (by omega)) ∗ Stg0 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in
/-- The body at any point: the inputs' buffers hold their blocks; the point's place in its row of blocks says which of
    the three triples applies; the invariant hands the body the accumulator at what the point before left (at anything
    before the first point, where a row begins and the body resets it) and takes it back at this point's contents; where
    the row does not end the output's buffer goes back untouched, where it ends it holds the accumulator's contents;
    the other scoped buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ, after1_0, after1_1]
  have hN : t.val < 88 := lt_of_lt_of_eq t.isLt (show cfg1.N = 88 from N_1)
  by_cases h0 : t.val % 11 = 0
  · have hc0 : cond1_0 (grid1.coords t) := (hcond1_0 t).mpr h0
    have h1 : ¬t.val % 11 = 10 := by omega
    have hc1 : ¬cond1_1 (grid1.coords t) := fun h => h1 ((hcond1_1 t).mp h)
    rw [Dat.leavesExact_idle (dat1 V c) 2 t (idleAt1_2 _ hc1) (noFlush1_2 t h1), acc1_reset V c t h0]
    by_cases hz : t.val = 0
    · rw [Phi1_castSucc V c t, Phi1_zero V c _ _ hz]
      iintro ⟨HΦ, Ho, ⟨%d0, H0⟩, ⟨%d1, H1⟩, H2⟩
      icases (PhiA1_split (F := F) c) $$ HΦ with ⟨HS, Hstg, Hg⟩
      iapply (sound_kernel1_A c Set.univ _ _ _ _ _ _ _ _ _ hc0 hc1 (iblk1 V c 0 t) (iblk1 V c 1 t) _)
      isplitl [H0]; · iexact H0
      isplitl [H1]; · iexact H1
      isplitl [HS]; · iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
    · rw [Phi1_castSucc V c t, Phi1_pos V c _ _ hz]
      iintro ⟨⟨HS, Hstg, Hg⟩, Ho, ⟨%d0, H0⟩, ⟨%d1, H1⟩, H2⟩
      iapply (sound_kernel1_A c Set.univ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
  · have hc0 : ¬cond1_0 (grid1.coords t) := fun h => h0 ((hcond1_0 t).mp h)
    have hz : t.val ≠ 0 := fun e => h0 (by rw [e])
    by_cases h1 : t.val % 11 = 10
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 _ hc1], after1_2, acc1_step V c t h0,
        Phi1_castSucc V c t, Phi1_pos V c _ _ hz]
      iintro ⟨⟨HS, Hstg, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 _ hc1) (noFlush1_2 t h1), acc1_step V c t h0,
        Phi1_castSucc V c t, Phi1_pos V c _ _ hz]
      iintro ⟨⟨HS, Hstg, Hg⟩, Ho, ⟨%d0, H0⟩, ⟨%d1, H1⟩, H2⟩
      iapply (sound_kernel1_B c Set.univ _ _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hstg Hg]
      · isplitl [HS]; · iexact HS
        isplitl [Hstg]; · iexact Hstg
        iexact Hg
      isplitl [Ho]; · iexact Ho
      isplitl [H0]; · iexact H0
      isplitl [H1]; · iexact H1
      iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K_Outs.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_R0Defs
import proofs.«165539_j39865886442066_1_alg».proof.Proof.K_R1Defs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between @main's items, with what the two regions leave named -/

variable (m : (ℓ : Loc nD τ sig) → Buf (Elt F) ℓ)

/-- The contents the first region is entered from, read at the TensorCore's references. -/
abbrev Vr13 : (c : Dev nD) → (b : Ref sig .tc) → Buf (Elt F) ((c : Thread nD τ).loc b) := fun c b => V13 m c b

/-- What the first region leaves in its result array: its write-backs folded over the entry contents. -/
def o14 (c : Dev nD) : Buf (Elt F) ((c : Thread nD τ).loc main_v45) := (dat0 (Vr13 m) c).arrAt 3 cfg0.N

/-- Every unscoped buffer after the first region. -/
def W14 (c : Dev nD) : Valuation τ sig (Elt F) := Function.update (V13 m c) main_v45 (o14 m c)

/-- The regions' leavings, as far as the first region: read off `W14`. -/
def outsA : Outs (F := F) := fun _ r c => W14 m c r

/-- The contents the second region is entered from. -/
abbrev Vr19 : (c : Dev nD) → (b : Ref sig .tc) → Buf (Elt F) ((c : Thread nD τ).loc b) := fun c b => V19 m (outsA m) c b

/-- What the second region leaves in its result array. -/
def o20 (c : Dev nD) : Buf (Elt F) ((c : Thread nD τ).loc main_v60) := (dat1 (Vr19 m) c).arrAt 2 cfg1.N

/-- Every unscoped buffer after the second region. -/
def W20 (c : Dev nD) : Valuation τ sig (Elt F) := Function.update (V19 m (outsA m) c) main_v60 (o20 m c)

/-- The regions' leavings: after item 19 read off `W20`, before it off `W14`. -/
def outsB : Outs (F := F) := fun J r c => if J = 20 then W20 m c r else W14 m c r

theorem outsB_14 (c : Dev nD) : outsB m 14 main_v45 c = o14 m c := by
  show (if (14 : ℕ) = 20 then W20 m c main_v45 else W14 m c main_v45) = o14 m c
  rw [if_neg (by decide)]
  exact Function.update_self _ _ _
theorem outsB_20 (c : Dev nD) : outsB m 20 main_v60 c = o20 m c := by
  show (if (20 : ℕ) = 20 then W20 m c main_v60 else W14 m c main_v60) = o20 m c
  rw [if_pos rfl]
  exact Function.update_self _ _ _
theorem outsA_14 (c : Dev nD) : outsA m 14 main_v45 c = o14 m c := by
  show W14 m c main_v45 = o14 m c
  exact Function.update_self _ _ _
theorem V14_outsA (c : Dev nD) : V14 m (outsA m) c = W14 m c := by
  show Function.update (V13 m c) main_v45 (outsA m 14 main_v45 c) = W14 m c
  rw [outsA_14]; rfl
theorem V14_outsB (c : Dev nD) : V14 m (outsB m) c = W14 m c := by
  show Function.update (V13 m c) main_v45 (outsB m 14 main_v45 c) = W14 m c
  rw [outsB_14]; rfl
theorem V19_outsB (c : Dev nD) : V19 m (outsB m) c = V19 m (outsA m) c := by
  have h : V14 m (outsB m) c = V14 m (outsA m) c := (V14_outsB m c).trans (V14_outsA m c).symm
  show StableHlo.after hostOps1_4 (StableHlo.after hostOps1_3 (StableHlo.after hostOps1_2 (StableHlo.after hostOps1_1 (StableHlo.after hostOps1 (V14 m (outsB m) c)))))
    = StableHlo.after hostOps1_4 (StableHlo.after hostOps1_3 (StableHlo.after hostOps1_2 (StableHlo.after hostOps1_1 (StableHlo.after hostOps1 (V14 m (outsA m) c)))))
  rw [h]
theorem V20_outsB (c : Dev nD) : V20 m (outsB m) c = W20 m c := by
  show Function.update (V19 m (outsB m) c) main_v60 (outsB m 20 main_v60 c) = W20 m c
  rw [V19_outsB, outsB_20]; rfl

/-! ## The proof data family and what rides beside the buffers -/

/-- The prefetched tables' admissible contents: no pallas_call has a table (the generated `Gen.adm`). -/
abbrev hadm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (Vr13 m) c
  | ⟨1, _⟩ => fun c => dat1 (Vr19 m) c

abbrev 𝒱h : Variants := Variants.none
abbrev Lh : GSem nD τ sig → Finset Unit := fun _ => ∅
abbrev lvh : GSem nD τ sig → Unit → ℕ := fun _ _ => 0

/-- What rides beside the buffers through every item: the generator register at some state, nothing owed. -/
abbrev Rh (c : Dev nD) : sProp 𝕄 := iprop((∃ r, prngReg c r) ∗ ∃ W, owes (c : Thread nD τ) (0 : CellTallies nD τ sig Unit) W)

end Cert.Kernel.Hand

end
-- ==== Proof.K_Reg0.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_Outs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region's arrays among the core's unscoped buffers

Windows 1 and 2 read the one transposed weight array, so the buffers behind the four windows are three. The region holds
that array's full share as two halves, one per window. -/

/-- The buffers behind the region's four windows are three: the two middle windows read the one weight array. -/
theorem img0 : (Finset.univ.image (Pipeline.arrRef spec0) : Finset (Ref sig .tc)) = {main_v14, main_v29, main_v45} := by decide

/-- The three buffers behind the windows, each whole at the full share. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v14) ↦{fullShare} V main_v14) ∗ (((c : Thread nD τ).loc main_v29) ↦{fullShare} V main_v29)
          ∗ (((c : Thread nD τ).loc main_v45) ↦{fullShare} V main_v45)) := by
  unfold Pipeline.arrBufs
  rw [img0, bigSep_insert (by decide), bigSep_insert (by decide), bigSep_singleton]
  rfl

theorem share0_0 (V) (c : Dev nD) : (dat0 (F := F) V c).share 0 = fullShare := rfl
theorem share0_1 (V) (c : Dev nD) : (dat0 (F := F) V c).share 1 = fullShare.left := rfl
theorem share0_2 (V) (c : Dev nD) : (dat0 (F := F) V c).share 2 = fullShare.right := rfl
theorem share0_3 (V) (c : Dev nD) : (dat0 (F := F) V c).share 3 = fullShare := rfl

/-- Each window's array is a whole buffer, so its points-to is the buffer's at the window's share. -/
theorem pt0_0 (V) (c : Dev nD) (A : Buf (Elt F) ((cfg0.win 0).arr.view.loc (c : Thread nD τ))) :
    ((cfg0.win 0).arr.view.loc (c : Thread nD τ) ↦[(cfg0.win 0).arr.view.set]{(dat0 (F := F) V c).share 0} A : sProp 𝕄)
      = (((c : Thread nD τ).loc main_v14) ↦{fullShare} A) := by
  rw [(arr_whole0 0).set_eq_univ]
  exact congrArg (fun q => (((c : Thread nD τ).loc main_v14) ↦{q} A : sProp 𝕄)) (share0_0 V c)
theorem pt0_1 (V) (c : Dev nD) (A : Buf (Elt F) ((cfg0.win 1).arr.view.loc (c : Thread nD τ))) :
    ((cfg0.win 1).arr.view.loc (c : Thread nD τ) ↦[(cfg0.win 1).arr.view.set]{(dat0 (F := F) V c).share 1} A : sProp 𝕄)
      = (((c : Thread nD τ).loc main_v29) ↦{fullShare.left} A) := by
  rw [(arr_whole0 1).set_eq_univ]
  exact congrArg (fun q => (((c : Thread nD τ).loc main_v29) ↦{q} A : sProp 𝕄)) (share0_1 V c)
theorem pt0_2 (V) (c : Dev nD) (A : Buf (Elt F) ((cfg0.win 2).arr.view.loc (c : Thread nD τ))) :
    ((cfg0.win 2).arr.view.loc (c : Thread nD τ) ↦[(cfg0.win 2).arr.view.set]{(dat0 (F := F) V c).share 2} A : sProp 𝕄)
      = (((c : Thread nD τ).loc main_v29) ↦{fullShare.right} A) := by
  rw [(arr_whole0 2).set_eq_univ]
  exact congrArg (fun q => (((c : Thread nD τ).loc main_v29) ↦{q} A : sProp 𝕄)) (share0_2 V c)
theorem pt0_3 (V) (c : Dev nD) (A : Buf (Elt F) ((cfg0.win 3).arr.view.loc (c : Thread nD τ))) :
    ((cfg0.win 3).arr.view.loc (c : Thread nD τ) ↦[(cfg0.win 3).arr.view.set]{(dat0 (F := F) V c).share 3} A : sProp 𝕄)
      = (((c : Thread nD τ).loc main_v45) ↦{fullShare} A) := by
  rw [(arr_whole0 3).set_eq_univ]
  exact congrArg (fun q => (((c : Thread nD τ).loc main_v45) ↦{q} A : sProp 𝕄)) (share0_3 V c)

/-- The region's arrays at contents `A`: the activations and the result whole, the weight array as its two halves. -/
theorem arrays0_eq (V) (c : Dev nD) (A : (w : Fin cfg0.W) → Buf (Elt F) ((cfg0.win w).arr.view.loc (c : Thread nD τ))) :
    ((dat0 (F := F) V c).arrays A : sProp 𝕄)
      = iprop((((c : Thread nD τ).loc main_v14) ↦{fullShare} A 0) ∗ (((c : Thread nD τ).loc main_v29) ↦{fullShare.left} A 1)
          ∗ (((c : Thread nD τ).loc main_v29) ↦{fullShare.right} A 2) ∗ (((c : Thread nD τ).loc main_v45) ↦{fullShare} A 3)) := by
  unfold Pipeline.Dat.arrays
  rw [bigSep_W0]
  exact congrArg₂ _ (pt0_0 V c (A 0)) (congrArg₂ _ (pt0_1 V c (A 1)) (congrArg₂ _ (pt0_2 V c (A 2)) (pt0_3 V c (A 3))))

/-- The core's unscoped buffers are the three buffers behind the region's windows and the rest. -/
theorem unscopedBufs_split0 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs spec0 c V : sProp 𝕄) ∗ Pipeline.unscopedRest spec0 c V) :=
  Pipeline.unscopedBufs_split₀ cfgs 0 winFacts₀0.arr_unscoped c V

/-- ENTRY, the arrays' part: the core's unscoped buffers are the region's arrays as found — the weight array's full
    share dealt as its left half to window 1 and its right half to window 2 — and the rest. -/
theorem arrays_of_unscopedBufs0 (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays (dat0 V c).A ∗ Pipeline.unscopedRest spec0 c (V c)) := by
  rw [unscopedBufs_split0 c (V c), arrBufs0_eq, arrays0_eq]
  iintro ⟨⟨H14, H29, H45⟩, Hrest⟩
  ihave H := (pointsTo_share (PosShare.mem_left_op_right fullShare)).1 $$ H29
  icases H with ⟨HL, HR⟩
  isplitr [Hrest]
  · isplitl [H14]; · iexact H14
    isplitl [HL]; · iexact HL
    isplitl [HR]; · iexact HR
    iexact H45
  iexact Hrest

/-- EXIT, the arrays' part: the region's arrays at contents `A` — the weight array's two halves joined — and the rest at
    `V` are the core's unscoped buffers at any valuation `V'` that has the arrays at `A` and agrees with `V` off them. -/
theorem unscopedBufs_of_arrays0 (V : (c : Dev nD) → (b : Ref sig .tc) → Buf (Elt F) ((c : Thread nD τ).loc b)) (c : Dev nD)
    (V' : (b : Ref sig .tc) → Buf (Elt F) ((c : Thread nD τ).loc b))
    (A : (w : Fin cfg0.W) → Buf (Elt F) ((cfg0.win w).arr.view.loc (c : Thread nD τ)))
    (h0 : A 0 = V' main_v14) (h1 : A 1 = V' main_v29) (h2 : A 2 = V' main_v29) (h3 : A 3 = V' main_v45)
    (hrest : ∀ b, b ∉ Finset.univ.image (Pipeline.arrRef spec0) → V' b = V c b) :
    iprop((dat0 V c).arrays A ∗ Pipeline.unscopedRest spec0 c (V c))
      ⊢ (unscopedBufs (Ix := Unit) (Name := ℕ) (U := UR sig nD τ) (Lvl := ℕ) c V' : sProp 𝕄) := by
  rw [unscopedBufs_split0 c V', arrBufs0_eq, arrays0_eq, h0, h1, h2, h3]
  refine sep_mono ?_ (Entails.of_eq ?_)
  · iintro ⟨H14, HL, HR, H45⟩
    isplitl [H14]; · iexact H14
    isplitl [HL HR]
    · iapply (pointsTo_share (PosShare.mem_left_op_right fullShare)).2
      isplitl [HL]; · iexact HL
      iexact HR
    iexact H45
  · unfold Pipeline.unscopedRest
    exact bigSep_congr fun b hb => by rw [hrest b (Finset.mem_sdiff.mp hb).2]

/-! # The first kernel region as a segment of @main -/

variable (m : (ℓ : Loc nD τ sig) → Buf (Elt F) ℓ)

/-- After the region every buffer but its result array holds what it held at entry, -/
theorem W14_of_ne (c : Dev nD) (b : Ref sig .tc) (hb : b ≠ main_v45) : W14 m c b = V13 m c b := by
  unfold W14; exact Function.update_of_ne (StableHlo.devRef_ne_of_ne hb) _ _
/-- and the result array what the region leaves there. -/
theorem W14_out (c : Dev nD) : W14 m c main_v45 = o14 m c := by
  unfold W14; exact Function.update_self _ _ _

/-- At the region's exit its three input arrays are as entered (an input is never written back), -/
theorem hF0_0 (c : Dev nD) : (dat0 (Vr13 m) c).arrAt 0 cfg0.N = W14 m c main_v14 :=
  ((dat0 (Vr13 m) c).arrAt_in 0 rfl cfg0.N).trans (W14_of_ne m c main_v14 (by decide)).symm
theorem hF0_1 (c : Dev nD) : (dat0 (Vr13 m) c).arrAt 1 cfg0.N = W14 m c main_v29 :=
  ((dat0 (Vr13 m) c).arrAt_in 1 rfl cfg0.N).trans (W14_of_ne m c main_v29 (by decide)).symm
theorem hF0_2 (c : Dev nD) : (dat0 (Vr13 m) c).arrAt 2 cfg0.N = W14 m c main_v29 :=
  ((dat0 (Vr13 m) c).arrAt_in 2 rfl cfg0.N).trans (W14_of_ne m c main_v29 (by decide)).symm
/-- its result array holds the write-backs folded over the entry contents, -/
theorem hF0_3 (c : Dev nD) : (dat0 (Vr13 m) c).arrAt 3 cfg0.N = W14 m c main_v45 := (W14_out m c).symm
/-- and every buffer behind no window is as entered. -/
theorem hrest0 (c : Dev nD) : ∀ b : Ref sig .tc, b ∉ Finset.univ.image (Pipeline.arrRef spec0) → W14 m c b = Vr13 m c b :=
  fun b hb => W14_of_ne m c b fun e => hb (e ▸ Finset.mem_image.mpr ⟨3, Finset.mem_univ _, rfl⟩)

set_option backward.isDefEq.respectTransparency.types false in
/-- The first region over the thread state: entered from every unscoped buffer at `V13`, left at `W14`. The one
    transposed weight array its windows 1 and 2 both read is split in two halves at entry and joined again at exit. -/
def reg0 (hb : ∀ c : Dev nD, BodyObligation (dat0 (F := F) (Vr13 m) c) (defs₀ (F := F)) Variants.none () Set.univ) :
    Pipeline.RegionSeg (pcfgs (F := F)) hadm (pdats m) () defs₀ 𝒱h Lh lvh 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ Lh lvh 0 fun _ _ => rfl
  pre c := iprop(StableHlo.held (c : Thread nD τ) (Pipeline.ucRefs τ sig) (V13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := arrays_of_unscopedBufs0 (Vr13 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (Vr13 m) c (fun b => W14 m c b) ((dat0 (Vr13 m) c).arrAt · cfg0.N)
      (hF0_0 m c) (hF0_1 m c) (hF0_2 m c) (hF0_3 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg0_pre (hb) (c : Dev nD) : (reg0 m hb).pre c = iprop(StableHlo.held (c : Thread nD τ) (Pipeline.ucRefs τ sig) (V13 m c) ∗ Rh c) := rfl
theorem reg0_post (hb) (c : Dev nD) : (reg0 m hb).post c = iprop(StableHlo.held (c : Thread nD τ) (Pipeline.ucRefs τ sig) (W14 m c) ∗ Rh c) := rfl

end Cert.Kernel.Hand

end
-- ==== Proof.K_Reg1.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_Outs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region as a segment of @main -/

variable (m : (ℓ : Loc nD τ sig) → Buf (Elt F) ℓ)

/-! ## The exit contents at the region's arrays, and off them -/

/-- The contents the second region leaves, read at the TensorCore's references. -/
abbrev Vr20 : (c : Dev nD) → (b : Ref sig .tc) → Buf (Elt F) ((c : Thread nD τ).loc b) := fun c b => W20 m c b

/-- The first input array is never written: it leaves as it entered, and the exit contents differ from the entry
    contents only at the result array, a different buffer. -/
theorem hF1_0 (c : Dev nD) : (dat1 (Vr19 m) c).arrAt 0 cfg1.N = Vr20 m c (Pipeline.arrRef spec1 0) := by
  rw [Pipeline.Dat.arrAt_in _ (0 : Fin cfg1.W) rfl, A_eq1]
  exact (Function.update_of_ne (StableHlo.devRef_ne_of_ne (by decide)) _ _).symm

/-- The second input array likewise. -/
theorem hF1_1 (c : Dev nD) : (dat1 (Vr19 m) c).arrAt 1 cfg1.N = Vr20 m c (Pipeline.arrRef spec1 1) := by
  rw [Pipeline.Dat.arrAt_in _ (1 : Fin cfg1.W) rfl, A_eq1]
  exact (Function.update_of_ne (StableHlo.devRef_ne_of_ne (by decide)) _ _).symm

/-- The result array leaves at its write-backs folded over the entry contents: the exit contents are the entry
    contents updated there to exactly that. -/
theorem hF1_2 (c : Dev nD) : (dat1 (Vr19 m) c).arrAt 2 cfg1.N = Vr20 m c (Pipeline.arrRef spec1 2) := by
  refine Eq.symm ?_
  show W20 m c main_v60 = o20 m c
  exact Function.update_self _ _ _

/-- Each of the region's arrays holds at the exit what the pipeline leaves in it. -/
theorem hF1 (c : Dev nD) (w : Fin cfg1.W) : (dat1 (Vr19 m) c).arrAt w cfg1.N = Vr20 m c (Pipeline.arrRef spec1 w) :=
  match w with
  | ⟨0, _⟩ => hF1_0 m c
  | ⟨1, _⟩ => hF1_1 m c
  | ⟨2, _⟩ => hF1_2 m c

/-- Every buffer that is no window's array holds at the exit what it held at the entry: the only buffer updated is
    the result array, which is the third window's. -/
theorem hrest1 (c : Dev nD) : ∀ b, b ∉ Finset.univ.image (Pipeline.arrRef spec1) → Vr20 m c b = Vr19 m c b := fun b hb =>
  Function.update_of_ne (StableHlo.devRef_ne_of_ne fun e => hb (Finset.mem_image.mpr ⟨(2 : Fin cfg1.W), Finset.mem_univ _, e.symm⟩)) _ _

set_option backward.isDefEq.respectTransparency.types false in
/-- The second region over the thread state: entered from every unscoped buffer at `V19` (over the first region's
    leavings), left at `W20`. -/
def reg1 (hb : ∀ c : Dev nD, BodyObligation (dat1 (F := F) (Vr19 m) c) (defs₀ (F := F)) Variants.none () Set.univ)
    (hi : ∀ c : Dev nD, Pipeline.ΦA spec1 c ⊢ (dat1 (F := F) (Vr19 m) c).Φ 0)
    (ho : ∀ c : Dev nD, (dat1 (F := F) (Vr19 m) c).Φ (Fin.last cfg1.N) ⊢ Pipeline.ΦA spec1 c) :
    Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ Lh lvh 1 fun _ _ => rfl
  pre c := iprop(StableHlo.held (c : Thread nD τ) (Pipeline.ucRefs τ sig) (V19 m (outsA m) c) ∗ Rh c)
  post c := iprop(StableHlo.held (c : Thread nD τ) (Pipeline.ucRefs τ sig) (W20 m c) ∗ Rh c)
  X c := iprop(∃ r, prngReg c r)
  Y c := iprop(∃ r, prngReg c r)
  Z c := Pipeline.unscopedRest (Ix := Unit) (Name := ℕ) (U := UR sig nD τ) (Lvl := ℕ) spec1 c (Vr19 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vr19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vr19 m c) (Vr20 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (hb hi ho) (c : Dev nD) : (reg1 m hb hi ho).pre c = iprop(StableHlo.held (c : Thread nD τ) (Pipeline.ucRefs τ sig) (V19 m (outsA m) c) ∗ Rh c) := rfl
theorem reg1_post (hb hi ho) (c : Dev nD) : (reg1 m hb hi ho).post c = iprop(StableHlo.held (c : Thread nD τ) (Pipeline.ucRefs τ sig) (W20 m c) ∗ Rh c) := rfl

end Cert.Kernel.Hand

end
-- ==== Proof.K_Run.lean ====
import proofs.«165539_j39865886442066_1_alg».proof.Proof.Gen.Kernel.Launch
import proofs.«165539_j39865886442066_1_alg».proof.Proof.Gen.Kernel.Skeleton
import proofs.«165539_j39865886442066_1_alg».proof.Proof.Gen.Kernel.Points
import proofs.«165539_j39865886442066_1_alg».proof.Proof.Gen.Kernel.Regions
import proofs.«165539_j39865886442066_1_alg».proof.Proof.K_Outs
import proofs.«165539_j39865886442066_1_alg».proof.Proof.K_Reg0
import proofs.«165539_j39865886442066_1_alg».proof.Proof.K_Reg1
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main's run: the launch over the two regions' segments

  Given the two regions' body obligations (and the second region's invariant in and out), every weakly fair execution
  of @main terminates; read against the last valuation, the arguments end as launched and the result array holds the
  second region's leavings, re-laid. -/

open Idealize.ShloMosaic.Pipeline (Seg HostSeg RegionSeg)

variable (m : (ℓ : Loc nD τ sig) → Buf (Elt F) ℓ)

section Launch

variable (hb0 : ∀ c : Dev nD, BodyObligation (dat0 (F := F) (Vr13 m) c) (defs₀ (F := F)) Variants.none () Set.univ)
  (hb1 : ∀ c : Dev nD, BodyObligation (dat1 (F := F) (Vr19 m) c) (defs₀ (F := F)) Variants.none () Set.univ)
  (hi1 : ∀ c : Dev nD, Pipeline.ΦA spec1 c ⊢ (dat1 (F := F) (Vr19 m) c).Φ 0)
  (ho1 : ∀ c : Dev nD, (dat1 (F := F) (Vr19 m) c).Φ (Fin.last cfg1.N) ⊢ Pipeline.ΦA spec1 c)
  (ρ : Dev nD → PrngReg)

/-- The thread states the regions leave and are entered from are the generated valuations at the named leavings. -/
theorem hpost0h (c : Dev nD) : iprop(StableHlo.held (c : Thread nD τ) (Pipeline.ucRefs τ sig) (W14 m c) ∗ Rh (F := F) c)
    ⊢ (iprop(StableHlo.held (c : Thread nD τ) (Pipeline.ucRefs τ sig) (V14 m (outsB m) c) ∗ Rh (F := F) c) : sProp 𝕄) := by
  rw [V14_outsB]
theorem hpre1h (c : Dev nD) : iprop(StableHlo.held (c : Thread nD τ) (Pipeline.ucRefs τ sig) (V19 m (outsB m) c) ∗ Rh (F := F) c)
    ⊢ (iprop(StableHlo.held (c : Thread nD τ) (Pipeline.ucRefs τ sig) (V19 m (outsA m) c) ∗ Rh (F := F) c) : sProp 𝕄) := by
  rw [V19_outsB]
theorem hpost1h (c : Dev nD) : iprop(StableHlo.held (c : Thread nD τ) (Pipeline.ucRefs τ sig) (W20 m c) ∗ Rh (F := F) c)
    ⊢ (iprop(StableHlo.held (c : Thread nD τ) (Pipeline.ucRefs τ sig) (V20 m (outsB m) c) ∗ Rh (F := F) c) : sProp 𝕄) := by
  rw [V20_outsB]

/-- The launch element yields the pipeline library's at every staging cell; no other ghost resource is dealt. -/
theorem hu₀h : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the riding state on every core. -/
theorem hE0h : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lh lvh)
    ⊢ (|={Set.univ}=> bigSep Finset.univ (fun c : Dev nD => Rh (F := F) c) : sProp 𝕄) := by
  refine Pipeline.initEach Lh lvh fun c => ?_
  iintro ⟨⟨-, HO, -, Hp, -⟩, -⟩
  imodintro
  isplitl [Hp]; · iexists _; iexact Hp
  iexists ∅; iexact HO

include hb0 hb1 hi1 ho1 in
set_option backward.isDefEq.respectTransparency.types false in
/-- THE FRAME: every weakly fair execution of @main terminates with the argument arrays as launched. -/
theorem frame_of_bodies : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := 𝒱h) (L := Lh) (lv := lvh) (hL := fun _ _ => rfl) (ρ := ρ) (outs := outsB m) (pdats := pdats m)
    (O₀ := 0) (G := fun _ => iprop(emp)) (u₀ := initOf (Pipeline.cells cfgs cellOf_inj) (Pipeline.launchToks cfgs cellOf_inj)) (hu₀ := hu₀h)
    (E := fun _ c => Rh c) (hE0 := hE0h ρ) (hE2 := fun c => by iintro ⟨-, H⟩; iexact H)
    (R0 := reg0 m hb0) (hpre0 := fun c => .rfl) (hpost0 := fun c => by rw [V14_outsB]; exact .rfl)
    (R1 := reg1 m hb1 hi1 ho1) (hpre1 := fun c => by rw [V19_outsB]; exact .rfl) (hpost1 := fun c => by rw [V20_outsB]; exact .rfl)

include hb0 hb1 hi1 ho1 in
set_option backward.isDefEq.respectTransparency.types false in
/-- THE RUN WITH ITS RESULT: the same executions end with the result array at the last valuation's contents. -/
theorem run_of_bodies : θ_run defs (onTc (τ := τ) (main (F := F))) ⟨m, fun _ => 0, ρ⟩ (fun r => ∀ c : Dev nD,
      r.2.mem ((c.tc : Thread nD τ).loc main_v61) = V21 m (outsB m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ 𝒱h Lh lvh m ρ main
    (segs m (outsB m) 𝒱h Lh lvh (fun _ c => Rh c) () (pdats m) (reg0 m hb0) (reg1 m hb1 hi1 ho1))
    (fun c Q => by
      rewrite [main_chain c, Seg.run_eq_chain,
        show (segs m (outsB m) 𝒱h Lh lvh (fun _ c => Rh c) () (pdats m) (reg0 m hb0) (reg1 m hb1 hi1 ho1) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj)) (hu₀ := hu₀h)
    (T₀ := fun c => iprop(StableHlo.held (c : Thread nD τ) (Pipeline.ucRefs τ sig) (V0 m c) ∗ Rh c))
    (Tₙ := fun c => StableHlo.held (c : Thread nD τ) (Pipeline.ucRefs τ sig) (V21 m (outsB m) c))
    (hch := fun c => ⟨.rfl, .rfl, .rfl, .rfl, .rfl, .rfl, .rfl, .rfl, .rfl, .rfl, .rfl, .rfl, .rfl, .rfl,
      hpost0h m c, .rfl, .rfl, .rfl, .rfl, hpre1h m c, hpost1h m c,
      sep_mono .rfl (by iintro ⟨-, H⟩; iexact H)⟩)
    (hinit := ?_)
    (QY := fun c s => s.mem ((c.tc : Thread nD τ).loc main_v61) = V21 m (outsB m) c main_v61
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0h ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rh (F := F) c)]
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V21 m (outsB m) c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V21_main_arg0 m (outsB m) c),
        (h (Proc.devRef .tc main_arg1) (Finset.mem_filter.mpr ⟨StableHlo.devRef_mem_tcRefs main_arg1, by decide⟩)).trans (V21_main_arg1 m (outsB m) c),
        (h (Proc.devRef .tc main_arg2) (Finset.mem_filter.mpr ⟨StableHlo.devRef_mem_tcRefs main_arg2, by decide⟩)).trans (V21_main_arg2 m (outsB m) c)⟩
    · iexact HSI

end Launch

end Cert.Kernel.Hand

end
-- ==== Proof.Spec.lean ====
import Idealize.ShloMosaic.PureOps.Ideal
import Idealize.ShloMosaic.PureOps.Ideal.Laws
import Idealize.ShloMosaic.Lib.ValueIdx

/-!
  The mathematics both programs compute, over the extended reals, one ROW at a time.

  * `qd v` is the symmetric 8-bit fake quantisation of a row `v`: with `s = max (max_k |v k| / 127) ε` the entry
    `v j` becomes `clip (roundeven (v j / s)) (-127) 127 · s`.
  * `gateR`, `upR`: the two halves of the first projection of a quantised token row against the quantised weight rows;
    `hidR` the gated product `g · σ(g) · u`; `outR` the second projection of the quantised hidden row.
-/

open scoped BigOperators

noncomputable section

namespace Cert.Spec

open Idealize.ShloMosaic Idealize.ShloMosaic.ValueIdx

/-- The literal words the two programs share: −∞, 127, −127 and the scale's floor ε (the f32 nearest 1e-8). -/
abbrev ninf : EReal := Ideal.ofBits .f32 0xFF800000#32
abbrev c127 : EReal := Ideal.ofBits .f32 0x42FE0000#32
abbrev cm127 : EReal := Ideal.ofBits .f32 0xC2FE0000#32
abbrev ceps : EReal := Ideal.ofBits .f32 0x322BCC77#32

/-- The largest magnitude of a row, from −∞. -/
def rowMax {n : Nat} (v : Fin n → EReal) : EReal :=
  (Finset.univ : Finset (Fin n)).fold max ninf (fun k => max (v k) (-(v k)))

/-- A row's quantisation step. -/
def scale {n : Nat} (v : Fin n → EReal) : EReal := max (Ideal.div (rowMax v) c127) ceps

/-- The fake-quantised row. -/
def qd {n : Nat} (v : Fin n → EReal) (j : Fin n) : EReal :=
  min c127 (max cm127 (Ideal.liftRound Ideal.roundHalfEven (Ideal.div (v j) (scale v)))) * scale v

abbrev SW1 : Shape := ⟨2, ![11264, 2048]⟩
abbrev SW2 : Shape := ⟨2, ![2048, 5632]⟩

/-- Row `o` of the first weight, row `n` of the second. -/
def w1row (W1 : SW1.Idx → EReal) (o : Fin 11264) : Fin 2048 → EReal := fun k => W1 (ix2 o k)
def w2row (W2 : SW2.Idx → EReal) (n : Fin 2048) : Fin 5632 → EReal := fun i => W2 (ix2 n i)

/-- The gate and up projections of a token row `xr`, at hidden coordinate `j`. -/
def gateR (xr : Fin 2048 → EReal) (W1 : SW1.Idx → EReal) (j : Fin 5632) : EReal :=
  ∑ k : Fin 2048, qd xr k * qd (w1row W1 ⟨j.val, by have := j.isLt; omega⟩) k
def upR (xr : Fin 2048 → EReal) (W1 : SW1.Idx → EReal) (j : Fin 5632) : EReal :=
  ∑ k : Fin 2048, qd xr k * qd (w1row W1 ⟨5632 + j.val, by have := j.isLt; omega⟩) k

/-- The gated hidden row. -/
def hidR (xr : Fin 2048 → EReal) (W1 : SW1.Idx → EReal) : Fin 5632 → EReal :=
  fun j => gateR xr W1 j * Ideal.logistic (gateR xr W1 j) * upR xr W1 j

/-- The result row. -/
def outR (xr : Fin 2048 → EReal) (W1 : SW1.Idx → EReal) (W2 : SW2.Idx → EReal) (n : Fin 2048) : EReal :=
  ∑ i : Fin 5632, qd (hidR xr W1) i * qd (w2row W2 n) i

/-- A row, a weight of finite entries. -/
def RealRow {n : Nat} (v : Fin n → EReal) : Prop := ∀ k, ∃ r : ℝ, v k = (r : EReal)

/-- The four words as extended reals: −∞, ±127, and a positive real. -/
private theorem ninf_eq : ninf = ⊥ := by simp [Ideal.ofBits, Ideal.ieee]
private theorem c127_eq : c127 = ((127 : ℝ) : EReal) := by
  simp [Ideal.ofBits, Ideal.ieee, -EReal.coe_mul]; norm_num
private theorem cm127_eq : cm127 = ((-127 : ℝ) : EReal) := by
  simp [Ideal.ofBits, Ideal.ieee, -EReal.coe_mul]; norm_num
private theorem ceps_eq : ∃ e : ℝ, 0 < e ∧ ceps = (e : EReal) := by
  refine ⟨(11258999 : ℝ) * (2 : ℝ) ^ (-50 : ℤ), by positivity, ?_⟩
  simp [Ideal.ofBits, Ideal.ieee, -EReal.coe_mul]

/-- The embedding of the reals is monotone, so it carries max to max and min to min. -/
private theorem coe_max' (a b : ℝ) : ((max a b : ℝ) : EReal) = max (a : EReal) (b : EReal) :=
  EReal.coe_strictMono.monotone.map_max
private theorem coe_min' (a b : ℝ) : ((min a b : ℝ) : EReal) = min (a : EReal) (b : EReal) :=
  EReal.coe_strictMono.monotone.map_min

/-- A running maximum from −∞ of finite terms is −∞ or finite. -/
private theorem fold_max_real {ι : Type} [DecidableEq ι] (s : Finset ι) (f : ι → EReal)
    (hf : ∀ i, ∃ r : ℝ, f i = (r : EReal)) :
    s.fold max ⊥ f = ⊥ ∨ ∃ r : ℝ, s.fold max ⊥ f = (r : EReal) := by
  induction s using Finset.induction_on with
  | empty => left; simp
  | insert a s ha ih =>
    right
    obtain ⟨r, hr⟩ := hf a
    rw [Finset.fold_insert ha, hr]
    rcases ih with h | ⟨m, h⟩
    · exact ⟨r, by rw [h]; simp⟩
    · exact ⟨max r m, by rw [h, coe_max']⟩

/-- The largest magnitude of a nonempty finite row is finite: split off one entry, the rest is −∞ or finite. -/
private theorem rowMax_real {n : Nat} (v : Fin n → EReal) (hv : RealRow v) (j : Fin n) :
    ∃ m : ℝ, rowMax v = (m : EReal) := by
  have hf : ∀ k, ∃ r : ℝ, max (v k) (-(v k)) = (r : EReal) := fun k => by
    obtain ⟨r, hr⟩ := hv k
    exact ⟨max r (-r), by rw [hr, ← EReal.coe_neg, coe_max']⟩
  unfold rowMax
  rw [ninf_eq, ← Finset.insert_erase (Finset.mem_univ j), Finset.fold_insert (Finset.notMem_erase j _)]
  obtain ⟨r, hr⟩ := hf j
  rw [hr]
  rcases fold_max_real (Finset.univ.erase j) _ hf with h | ⟨m, h⟩
  · exact ⟨r, by rw [h]; simp⟩
  · exact ⟨max r m, by rw [h, coe_max']⟩

/-- The step of a nonempty finite row is a positive real: it is at least ε. -/
private theorem scale_real {n : Nat} (v : Fin n → EReal) (hv : RealRow v) (j : Fin n) :
    ∃ s : ℝ, 0 < s ∧ scale v = (s : EReal) := by
  obtain ⟨m, hm⟩ := rowMax_real v hv j
  obtain ⟨e, he, hce⟩ := ceps_eq
  refine ⟨max (m * (1 / 127)) e, lt_max_of_lt_right he, ?_⟩
  unfold scale
  rw [hce, hm, c127_eq, Ideal.div_coe (by norm_num), ← EReal.coe_mul, coe_max']

/-- A finite sum of finite terms is finite. -/
private theorem sum_real {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a
    obtain ⟨t, ht⟩ := ih
    exact ⟨r + t, by rw [Finset.sum_insert ha, hr, ht, EReal.coe_add]⟩

/-- A product of finite terms is finite. -/
private theorem mul_real {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- Adding back a real `x` after subtracting it gives the other term, whatever that is. -/
theorem add_sub_cancel_real (x q : EReal) (hx : ∃ r : ℝ, x = (r : EReal)) : x + (q - x) = q := by
  obtain ⟨r, rfl⟩ := hx
  induction q using EReal.rec with
  | bot => simp
  | top => simp
  | coe q => norm_cast; ring

/-- Quantising a finite row gives a finite row. -/
theorem qd_real {n : Nat} (v : Fin n → EReal) (hv : RealRow v) : RealRow (qd v) := by
  intro j
  obtain ⟨s, hs, hsc⟩ := scale_real v hv j
  obtain ⟨r, hr⟩ := hv j
  unfold qd
  rw [hsc, hr, c127_eq, cm127_eq, Ideal.div_coe hs.ne', ← EReal.coe_mul, Ideal.liftRound_coe, ← coe_max',
    ← coe_min', ← EReal.coe_mul]
  exact ⟨_, rfl⟩

/-- The hidden row of a finite token row against finite weights is finite. -/
theorem hidR_real (xr : Fin 2048 → EReal) (W1 : SW1.Idx → EReal) (hx : RealRow xr) (hW : ∀ i, ∃ r : ℝ, W1 i = (r : EReal)) :
    RealRow (hidR xr W1) := by
  intro j
  have hq := qd_real xr hx
  have hrow : ∀ o, RealRow (qd (w1row W1 o)) := fun o => qd_real _ (fun k => hW (ix2 o k))
  obtain ⟨g, hg⟩ : ∃ g : ℝ, gateR xr W1 j = (g : EReal) :=
    sum_real _ _ (fun k => mul_real (hq k) (hrow _ k))
  obtain ⟨u, hu⟩ : ∃ u : ℝ, upR xr W1 j = (u : EReal) :=
    sum_real _ _ (fun k => mul_real (hq k) (hrow _ k))
  show ∃ r : ℝ, gateR xr W1 j * Ideal.logistic (gateR xr W1 j) * upR xr W1 j = (r : EReal)
  rw [hg, hu, Ideal.logistic_coe, ← EReal.coe_mul, ← EReal.coe_mul]
  exact ⟨_, rfl⟩

/-- A sum over 5632 = 11 · 512 coordinates, block by block. -/
theorem sum_blocks (f : Fin 5632 → EReal) :
    ∑ i : Fin 5632, f i = ∑ kb : Fin 11, ∑ j : Fin 512, f ⟨512 * kb.val + j.val, by have := kb.isLt; have := j.isLt; omega⟩ := by
  rw [← Fintype.sum_prod_type' (f := fun (kb : Fin 11) (j : Fin 512) =>
    f ⟨512 * kb.val + j.val, by have := kb.isLt; have := j.isLt; omega⟩)]
  symm
  refine Fintype.sum_equiv (finProdFinEquiv : Fin 11 × Fin 512 ≃ Fin 5632) _ _ (fun x => ?_)
  congr 1
  ext
  simp [finProdFinEquiv]
  omega

/-- Accumulating the blocks one after the other from zero gives their sum. -/
def accBlocks (g : ℕ → EReal) : ℕ → EReal
  | 0 => 0 + g 0
  | n + 1 => accBlocks g n + g (n + 1)

theorem accBlocks_eq (g : ℕ → EReal) (n : ℕ) : accBlocks g n = ∑ kb ∈ Finset.range (n + 1), g kb := by
  induction n with
  | zero => simp [accBlocks]
  | succ n ih => rw [accBlocks, ih, Finset.sum_range_succ _ (n + 1)]

end Cert.Spec

end
-- ==== Proof.KHostArgs.lean ====
import proofs.«165539_j39865886442066_1_alg».proof.Proof.Gen.KernelIdeal.Regions
import proofs.«165539_j39865886442066_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.PureOps.Reduce

/-!
  The three argument arrays of the kernel's program on a core, as functions of an index.
-/

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

section Chain

variable {R C : ℕ}

/-- The source index over row `r` with coordinate `k` inserted on the reduced (second) axis is `(r, k)`. -/
private theorem lift_row (hred : (⟨2, ![R, C]⟩ : Shape).Reduces [1] ⟨1, ![R]⟩) (r : Fin R) (k : Fin C) :
    hred.lift (ix1 r) k = ix2 r k := by
  funext c
  apply Fin.ext
  show hred.liftVal (ix1 r) k.val c = (ix2 r k c).val
  unfold Shape.Reduces.liftVal
  match c with
  | ⟨0, _⟩ => rfl
  | ⟨1, _⟩ => rfl

/-- The column of row steps, as the program computes it: the rows' largest magnitudes from −∞, as a column, over 127,
    floored at ε. -/
private def stepCol (hr : (⟨2, ![R, C]⟩ : Shape).ReducesTo [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (x : FVec Ideal ⟨2, ![R, C]⟩ .f32) : FVec Ideal ⟨2, ![R, 1]⟩ .f32 :=
  maximumf
    (Host.divf
      (broadcastInDim ⟨2, ![R, 1]⟩ ![0] b1
        (Host.reduce FloatOps.maximumf (Host.absf x) (constant ⟨0, ![]⟩ .f32 0xFF800000#32) hr hu))
      (broadcastInDim ⟨2, ![R, 1]⟩ ![] b0 (constant ⟨0, ![]⟩ .f32 0x42FE0000#32)))
    (broadcastInDim ⟨2, ![R, 1]⟩ ![] b0 (constant ⟨0, ![]⟩ .f32 0x322BCC77#32))

/-- Its entry on row `r` is that row's step. -/
private theorem stepCol_apply (hr : (⟨2, ![R, C]⟩ : Shape).ReducesTo [1] ⟨1, ![R]⟩)
    (hred : (⟨2, ![R, C]⟩ : Shape).Reduces [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (x : FVec Ideal ⟨2, ![R, C]⟩ .f32) (r : Fin R) (z : Fin 1) :
    stepCol hr hu b1 b0 x (ix2 r z) = Spec.scale (fun k : Fin C => x (ix2 r k)) := by
  unfold stepCol
  show FloatOps.maximumf (FloatOps.hostDivf _ _) _ = _
  rw [broadcastInDim_apply _ b1 _ (ix2 r z) (ix1 r) (fun a => match a with
        | ⟨0, _⟩ => by
          show r.val = if R = 1 then 0 else r.val
          split
          · have := r.isLt; omega
          · rfl),
    broadcastInDim_apply _ b0 _ (ix2 r z) ix0 (fun a => a.elim0),
    broadcastInDim_apply _ b0 _ (ix2 r z) ix0 (fun a => a.elim0),
    Host.reduce_eq_fold_single FloatOps.maximumf (Host.absf x) _ hr hred hu (ix1 r)]
  unfold Spec.scale Spec.rowMax
  have hrow : (Host.absf x ∘ hred.lift (ix1 r)) = fun k : Fin C => max (x (ix2 r k)) (-(x (ix2 r k))) := by
    funext k
    show FloatOps.hostAbsf (x (hred.lift (ix1 r) k)) = _
    rw [lift_row hred r k]
    rfl
  rw [hrow]
  rfl

end Chain

section Chain2

variable {R C : ℕ}

/-- The fake-quantised array, as the program computes it: each entry over its row's step, rounded to the nearest
    integer (ties to even), clipped to ±127, times the step. -/
private def qdArr (hr : (⟨2, ![R, C]⟩ : Shape).ReducesTo [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (b2 : (⟨2, ![R, 1]⟩ : Shape).BroadcastsInDim ⟨2, ![R, C]⟩ ![0, 1])
    (b3 : (⟨0, ![]⟩ : Shape).BroadcastsInDim ⟨2, ![R, C]⟩ ![])
    (x : FVec Ideal ⟨2, ![R, C]⟩ .f32) : FVec Ideal ⟨2, ![R, C]⟩ .f32 :=
  mulf
    (minimumf
      (broadcastInDim ⟨2, ![R, C]⟩ ![] b3 (id (constant ⟨0, ![]⟩ .f32 0x42FE0000#32)))
      (maximumf
        (broadcastInDim ⟨2, ![R, C]⟩ ![] b3 (id (constant ⟨0, ![]⟩ .f32 0xC2FE0000#32)))
        (Host.roundeven (Host.divf x (broadcastInDim ⟨2, ![R, C]⟩ ![0, 1] b2 (stepCol hr hu b1 b0 x))))))
    (broadcastInDim ⟨2, ![R, C]⟩ ![0, 1] b2 (stepCol hr hu b1 b0 x))

/-- Its entry `(r, j)` is entry `j` of the fake-quantised row `r`. -/
private theorem qdArr_apply (hr : (⟨2, ![R, C]⟩ : Shape).ReducesTo [1] ⟨1, ![R]⟩)
    (hred : (⟨2, ![R, C]⟩ : Shape).Reduces [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (b2 : (⟨2, ![R, 1]⟩ : Shape).BroadcastsInDim ⟨2, ![R, C]⟩ ![0, 1])
    (b3 : (⟨0, ![]⟩ : Shape).BroadcastsInDim ⟨2, ![R, C]⟩ ![])
    (x : FVec Ideal ⟨2, ![R, C]⟩ .f32) (r : Fin R) (j : Fin C) :
    qdArr hr hu b1 b0 b2 b3 x (ix2 r j) = Spec.qd (fun k : Fin C => x (ix2 r k)) j := by
  have hstep : broadcastInDim ⟨2, ![R, C]⟩ ![0, 1] b2 (stepCol hr hu b1 b0 x) (ix2 r j)
      = Spec.scale (fun k : Fin C => x (ix2 r k)) := by
    rw [broadcastInDim_apply _ b2 _ (ix2 r j) (ix2 r (0 : Fin 1)) (fun a => match a with
        | ⟨0, _⟩ => by
          show r.val = if R = 1 then 0 else r.val
          split
          · have := r.isLt; omega
          · rfl
        | ⟨1, _⟩ => by
          show 0 = if (1 : ℕ) = 1 then 0 else j.val
          rw [if_pos rfl])]
    exact stepCol_apply hr hred hu b1 b0 x r 0
  unfold qdArr
  show FloatOps.mulf (FloatOps.minimumf _ (FloatOps.maximumf _ (FloatOps.hostUnary .roundeven (FloatOps.hostDivf _ _)))) _ = _
  rw [hstep, broadcastInDim_apply _ b3 _ (ix2 r j) ix0 (fun a => a.elim0),
    broadcastInDim_apply _ b3 _ (ix2 r j) ix0 (fun a => a.elim0)]
  unfold Spec.qd
  rfl

end Chain2

variable (m : (ℓ : Loc nD τ sig) → Buf (Elt Ideal) ℓ) (outs : Outs (F := Ideal))

/-- The three argument arrays on core `c`, as functions of an index. -/
abbrev xArg (c : Dev nD) : S4x2048x2048.Idx → EReal := m ((c : Thread nD τ).loc main_arg0)
abbrev w1Arg (c : Dev nD) : S11264x2048.Idx → EReal := m ((c : Thread nD τ).loc main_arg1)
abbrev w2Arg (c : Dev nD) : S2048x5632.Idx → EReal := m ((c : Thread nD τ).loc main_arg2)

end Cert.KernelIdeal.HostVal

end
-- ==== Proof.KHostA.lean ====
import proofs.«165539_j39865886442066_1_alg».proof.Proof.Gen.KernelIdeal.Regions
import proofs.«165539_j39865886442066_1_alg».proof.Proof.Spec
import proofs.«165539_j39865886442066_1_alg».proof.Proof.KHostArgs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.PureOps.Reduce

/-!
  What the host operations of the kernel's program compute, at the ideal values, read at an index: each operand of the
  two kernel regions is the fake-quantised rows of an argument (or of the first region's result), re-laid; the
  program's result is the second region's result, re-laid.
-/

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Outs (F := Ideal))

section Mats

variable {n d : Nat}

/-- The column of quantisation steps of a matrix's rows, as the program builds it. -/
private abbrev stepCol (X : FVec Ideal ⟨2, ![n, d]⟩ .f32)
    (h' : (⟨2, ![n, d]⟩ : Shape).ReducesTo [1] (⟨1, ![n]⟩ : Shape)) (hu : 0 < (⟨0, ![]⟩ : Shape).numel)
    (hb1 : (⟨1, ![n]⟩ : Shape).BroadcastsInDim (⟨2, ![n, 1]⟩ : Shape) (![0] : Fin 1 → Fin (⟨2, ![n, 1]⟩ : Shape).rank))
    (hb0 : (⟨0, ![]⟩ : Shape).BroadcastsInDim (⟨2, ![n, 1]⟩ : Shape) (![] : Fin 0 → Fin (⟨2, ![n, 1]⟩ : Shape).rank)) :
    FVec Ideal ⟨2, ![n, 1]⟩ .f32 :=
  maximumf
    (Host.divf
      (broadcastInDim (⟨2, ![n, 1]⟩ : Shape) ![0] hb1
        (Host.reduce FloatOps.maximumf (Host.absf X) (constant (⟨0, ![]⟩ : Shape) .f32 0xFF800000#32) h' hu))
      (broadcastInDim (⟨2, ![n, 1]⟩ : Shape) ![] hb0 (constant (⟨0, ![]⟩ : Shape) .f32 0x42FE0000#32)))
    (broadcastInDim (⟨2, ![n, 1]⟩ : Shape) ![] hb0 (constant (⟨0, ![]⟩ : Shape) .f32 0x322BCC77#32))

/-- A matrix divided by its rows' steps, rounded, clipped to ±127 and multiplied back, as the program builds it. -/
private abbrev qdMat (X : FVec Ideal ⟨2, ![n, d]⟩ .f32) (S : FVec Ideal ⟨2, ![n, 1]⟩ .f32)
    (hb2 : (⟨2, ![n, 1]⟩ : Shape).BroadcastsInDim (⟨2, ![n, d]⟩ : Shape) (![0, 1] : Fin 2 → Fin (⟨2, ![n, d]⟩ : Shape).rank))
    (hbs : (⟨0, ![]⟩ : Shape).BroadcastsInDim (⟨2, ![n, d]⟩ : Shape) (![] : Fin 0 → Fin (⟨2, ![n, d]⟩ : Shape).rank)) :
    FVec Ideal ⟨2, ![n, d]⟩ .f32 :=
  mulf
    (minimumf (broadcastInDim (⟨2, ![n, d]⟩ : Shape) ![] hbs (id (constant (⟨0, ![]⟩ : Shape) .f32 0x42FE0000#32)))
      (maximumf (broadcastInDim (⟨2, ![n, d]⟩ : Shape) ![] hbs (id (constant (⟨0, ![]⟩ : Shape) .f32 0xC2FE0000#32)))
        (Host.roundeven (Host.divf X (broadcastInDim (⟨2, ![n, d]⟩ : Shape) ![0, 1] hb2 S)))))
    (broadcastInDim (⟨2, ![n, d]⟩ : Shape) ![0, 1] hb2 S)

end Mats

/-! ### One row's fake quantisation, as the program spells it, read at an index -/

section Chain

variable {n d : Nat}

/-- The reduced index `r` with column `k` put back is (r, k). -/
private theorem lift_row (h : (⟨2, ![n, d]⟩ : Shape).Reduces [1] (⟨1, ![n]⟩ : Shape)) (r : Fin n)
    (k : Fin ((⟨2, ![n, d]⟩ : Shape).size 1)) : h.lift (ix1 r) k = ix2 r (⟨k.val, k.isLt⟩ : Fin d) := by
  funext a; apply Fin.ext
  fin_cases a <;> rfl

/-- From −∞ the maximum over the last axis of the magnitudes, at row `r`, is the row's largest magnitude. -/
private theorem rowMax_apply (X : FVec Ideal ⟨2, ![n, d]⟩ .f32)
    (h' : (⟨2, ![n, d]⟩ : Shape).ReducesTo [1] (⟨1, ![n]⟩ : Shape)) (h : (⟨2, ![n, d]⟩ : Shape).Reduces [1] (⟨1, ![n]⟩ : Shape))
    (hu : 0 < (⟨0, ![]⟩ : Shape).numel) (r : Fin n) :
    Host.reduce FloatOps.maximumf (Host.absf X) (constant (⟨0, ![]⟩ : Shape) .f32 0xFF800000#32) h' hu (ix1 r)
      = Spec.rowMax (fun k : Fin d => X (ix2 r k)) := by
  rw [Host.reduce_eq_fold_single FloatOps.maximumf (Host.absf X) _ h' h hu]
  have hf : (Host.absf X ∘ h.lift (ix1 r)) = fun k : Fin d => max (X (ix2 r k)) (-(X (ix2 r k))) :=
    funext fun k => by
      show FloatOps.hostAbsf (X (h.lift (ix1 r) k)) = _
      rw [lift_row h r k]; rfl
  unfold Spec.rowMax
  exact congrArg (fun f => Finset.fold max Spec.ninf f (Finset.univ : Finset (Fin d))) hf

/-- The column of steps, at row `r`: the row's largest magnitude over 127, floored at ε. -/
private theorem step_apply (X : FVec Ideal ⟨2, ![n, d]⟩ .f32)
    (h' : (⟨2, ![n, d]⟩ : Shape).ReducesTo [1] (⟨1, ![n]⟩ : Shape)) (h : (⟨2, ![n, d]⟩ : Shape).Reduces [1] (⟨1, ![n]⟩ : Shape))
    (hu : 0 < (⟨0, ![]⟩ : Shape).numel)
    (hb1 : (⟨1, ![n]⟩ : Shape).BroadcastsInDim (⟨2, ![n, 1]⟩ : Shape) (![0] : Fin 1 → Fin (⟨2, ![n, 1]⟩ : Shape).rank))
    (hb0 : (⟨0, ![]⟩ : Shape).BroadcastsInDim (⟨2, ![n, 1]⟩ : Shape) (![] : Fin 0 → Fin (⟨2, ![n, 1]⟩ : Shape).rank))
    (r : Fin n) :
    (maximumf
        (Host.divf
          (broadcastInDim (⟨2, ![n, 1]⟩ : Shape) ![0] hb1
            (Host.reduce FloatOps.maximumf (Host.absf X) (constant (⟨0, ![]⟩ : Shape) .f32 0xFF800000#32) h' hu))
          (broadcastInDim (⟨2, ![n, 1]⟩ : Shape) ![] hb0 (constant (⟨0, ![]⟩ : Shape) .f32 0x42FE0000#32)))
        (broadcastInDim (⟨2, ![n, 1]⟩ : Shape) ![] hb0 (constant (⟨0, ![]⟩ : Shape) .f32 0x322BCC77#32))
      : FVec Ideal ⟨2, ![n, 1]⟩ .f32) (ix2 r (0 : Fin 1))
      = Spec.scale (fun k : Fin d => X (ix2 r k)) := by
  have e1 := broadcastInDim_apply (![0] : Fin 1 → Fin (⟨2, ![n, 1]⟩ : Shape).rank) hb1
    (Host.reduce FloatOps.maximumf (Host.absf X) (constant (⟨0, ![]⟩ : Shape) .f32 0xFF800000#32) h' hu)
    (ix2 r (0 : Fin 1)) (ix1 r) (fun a => match a with
      | ⟨0, _⟩ => by
        show r.val = if n = 1 then 0 else r.val
        have := r.isLt
        split <;> omega)
  have e2 := broadcastInDim_apply (![] : Fin 0 → Fin (⟨2, ![n, 1]⟩ : Shape).rank) hb0
    (constant (F := Ideal) (⟨0, ![]⟩ : Shape) .f32 0x42FE0000#32) (ix2 r (0 : Fin 1)) ix0 (fun a => a.elim0)
  have e3 := broadcastInDim_apply (![] : Fin 0 → Fin (⟨2, ![n, 1]⟩ : Shape).rank) hb0
    (constant (F := Ideal) (⟨0, ![]⟩ : Shape) .f32 0x322BCC77#32) (ix2 r (0 : Fin 1)) ix0 (fun a => a.elim0)
  show FloatOps.maximumf (FloatOps.hostDivf (broadcastInDim _ _ hb1 _ (ix2 r (0 : Fin 1))) (broadcastInDim _ _ hb0 _ (ix2 r (0 : Fin 1))))
      (broadcastInDim _ _ hb0 _ (ix2 r (0 : Fin 1))) = _
  rw [e1, e2, e3, rowMax_apply X h' h hu r]
  rfl

/-- The fake-quantised array at (r, k): the clip of the rounded quotient by the row's step, times the step. -/
private theorem qd_apply (X : FVec Ideal ⟨2, ![n, d]⟩ .f32) (S : FVec Ideal ⟨2, ![n, 1]⟩ .f32)
    (hb2 : (⟨2, ![n, 1]⟩ : Shape).BroadcastsInDim (⟨2, ![n, d]⟩ : Shape) (![0, 1] : Fin 2 → Fin (⟨2, ![n, d]⟩ : Shape).rank))
    (hbs : (⟨0, ![]⟩ : Shape).BroadcastsInDim (⟨2, ![n, d]⟩ : Shape) (![] : Fin 0 → Fin (⟨2, ![n, d]⟩ : Shape).rank))
    (r : Fin n) (k : Fin d) (hS : S (ix2 r (0 : Fin 1)) = Spec.scale (fun k' : Fin d => X (ix2 r k'))) :
    (mulf
        (minimumf (broadcastInDim (⟨2, ![n, d]⟩ : Shape) ![] hbs (id (constant (⟨0, ![]⟩ : Shape) .f32 0x42FE0000#32)))
          (maximumf (broadcastInDim (⟨2, ![n, d]⟩ : Shape) ![] hbs (id (constant (⟨0, ![]⟩ : Shape) .f32 0xC2FE0000#32)))
            (Host.roundeven (Host.divf X (broadcastInDim (⟨2, ![n, d]⟩ : Shape) ![0, 1] hb2 S)))))
        (broadcastInDim (⟨2, ![n, d]⟩ : Shape) ![0, 1] hb2 S)
      : FVec Ideal ⟨2, ![n, d]⟩ .f32) (ix2 r k)
      = Spec.qd (fun k' : Fin d => X (ix2 r k')) k := by
  have e1 := broadcastInDim_apply (![0, 1] : Fin 2 → Fin (⟨2, ![n, d]⟩ : Shape).rank) hb2 S (ix2 r k) (ix2 r (0 : Fin 1))
    (fun a => match a with
      | ⟨0, _⟩ => by
        show r.val = if n = 1 then 0 else r.val
        have := r.isLt
        split <;> omega
      | ⟨1, _⟩ => by
        show 0 = if (1 : Nat) = 1 then 0 else k.val
        rw [if_pos rfl])
  have e2 := broadcastInDim_apply (![] : Fin 0 → Fin (⟨2, ![n, d]⟩ : Shape).rank) hbs
    (id (constant (F := Ideal) (⟨0, ![]⟩ : Shape) .f32 0x42FE0000#32)) (ix2 r k) ix0 (fun a => a.elim0)
  have e3 := broadcastInDim_apply (![] : Fin 0 → Fin (⟨2, ![n, d]⟩ : Shape).rank) hbs
    (id (constant (F := Ideal) (⟨0, ![]⟩ : Shape) .f32 0xC2FE0000#32)) (ix2 r k) ix0 (fun a => a.elim0)
  show FloatOps.mulf
      (FloatOps.minimumf (broadcastInDim _ _ hbs _ (ix2 r k))
        (FloatOps.maximumf (broadcastInDim _ _ hbs _ (ix2 r k))
          (FloatOps.hostUnary .roundeven (FloatOps.hostDivf (X (ix2 r k)) (broadcastInDim _ _ hb2 S (ix2 r k))))))
      (broadcastInDim _ _ hb2 S (ix2 r k)) = _
  rw [e1, e2, e3, hS]
  rfl

end Chain

/-- The token rows as one matrix: row `r` is token row `(r / 2048, r % 2048)`. -/
private abbrev xMat (c : Dev nD) : FVec Ideal S8192x2048 .f32 :=
  shapeCast S8192x2048 (xArg m c) shapeCasts_S4x2048x2048_S8192x2048

private theorem xMat_apply (c : Dev nD) (r : Fin 8192) (k : Fin 2048) :
    xMat m c (ix2 r k)
      = xArg m c (ix3 (⟨r.val / 2048, by have := r.isLt; omega⟩ : Fin 4) (⟨r.val % 2048, Nat.mod_lt _ (by decide)⟩ : Fin 2048) k) :=
  shapeCast_apply _ _ _ _ (by
    rw [Shape.rowMajor_val_three, Shape.rowMajor_val_two]
    show (r.val / 2048 * 2048 + r.val % 2048) * 2048 + k.val = r.val * 2048 + k.val
    omega)

/-- What the left operand's buffer holds: the token matrix, fake-quantised along its rows. -/
private theorem v14_term (c : Dev nD) :
    (V5 m c main_v14 : S8192x2048.Idx → EReal)
      = truncf .bf16 (qdMat (xMat m c)
          (stepCol (xMat m c) reducesTo_S8192x2048_S8192_d1 h_S_ bcast_S8192_S8192x1_0 bcast_S_S8192x1)
          bcast_S8192x1_S8192x2048_0_1 bcast_S_S8192x2048) bitsLt_bf16_f32 := by
  dsimp only [V5, V4, V3, V2, V1, V0]
  simp only [hostOps0, hostOps0_1, hostOps0_2, hostOps0_3, hostOps0_4]
  after_results_simp
  rfl

/-- The first region's left operand: row `r` is the fake-quantised token row `(r / 2048, r % 2048)`. -/
theorem v14_apply (c : Dev nD) (r : Fin 8192) (k : Fin 2048) :
    (V13 m c main_v14 : S8192x2048.Idx → EReal) (ix2 r k)
      = Spec.qd (fun k' : Fin 2048 => xArg m c (ix3 (⟨r.val / 2048, by have := r.isLt; omega⟩ : Fin 4) (⟨r.val % 2048, Nat.mod_lt _ (by decide)⟩ : Fin 2048) k')) k := by
  rw [V13_of m c main_v14 (by decide), V12_of m c main_v14 (by decide), V11_of m c main_v14 (by decide),
    V10_of m c main_v14 (by decide), V9_of m c main_v14 (by decide), V8_of m c main_v14 (by decide),
    V7_of m c main_v14 (by decide), V6_of m c main_v14 (by decide), v14_term m c, truncf_apply]
  refine (qd_apply (xMat m c) _ bcast_S8192x1_S8192x2048_0_1 bcast_S_S8192x2048 r k
    (step_apply (xMat m c) reducesTo_S8192x2048_S8192_d1 (by decide) h_S_ bcast_S8192_S8192x1_0 bcast_S_S8192x1 r)).trans ?_
  exact congrArg (fun v => Spec.qd v k) (funext fun k' => xMat_apply m c r k')

/-- What the right operand's buffer holds: the first weight, fake-quantised along its rows, transposed. -/
private theorem v29_term (c : Dev nD) :
    (V9 m c main_v29 : S2048x11264.Idx → EReal)
      = truncf .bf16 (transpose S2048x11264 [1, 0] (qdMat (w1Arg m c)
          (stepCol (w1Arg m c) reducesTo_S11264x2048_S11264_d1 h_S_ bcast_S11264_S11264x1_0 bcast_S_S11264x1)
          bcast_S11264x1_S11264x2048_0_1 bcast_S_S11264x2048) transposes_S11264x2048_S2048x11264_1_0) bitsLt_bf16_f32 := by
  dsimp only [V9, V8, V7, V6, V5, V4, V3, V2, V1, V0]
  simp only [hostOps0, hostOps0_1, hostOps0_2, hostOps0_3, hostOps0_4, hostOps0_5, hostOps0_6, hostOps0_7, hostOps0_8]
  after_results_simp
  rfl

/-- The first region's right operand: column `o` is the fake-quantised row `o` of the first weight. -/
theorem v29_apply (c : Dev nD) (k : Fin 2048) (o : Fin 11264) :
    (V13 m c main_v29 : S2048x11264.Idx → EReal) (ix2 k o) = Spec.qd (Spec.w1row (w1Arg m c) o) k := by
  rw [V13_of m c main_v29 (by decide), V12_of m c main_v29 (by decide), V11_of m c main_v29 (by decide),
    V10_of m c main_v29 (by decide), v29_term m c, truncf_apply]
  refine (transpose_apply [1, 0] _ transposes_S11264x2048_S2048x11264_1_0 (ix2 k o) (ix2 o k)
    (fun b => match b with
      | ⟨0, _⟩ => rfl
      | ⟨1, _⟩ => rfl)).trans ?_
  exact qd_apply (w1Arg m c) _ bcast_S11264x1_S11264x2048_0_1 bcast_S_S11264x2048 o k
    (step_apply (w1Arg m c) reducesTo_S11264x2048_S11264_d1 (by decide) h_S_ bcast_S11264_S11264x1_0 bcast_S_S11264x1 o)

end Cert.KernelIdeal.HostVal

end
-- ==== Proof.KHostB.lean ====
import proofs.«165539_j39865886442066_1_alg».proof.Proof.Gen.KernelIdeal.Regions
import proofs.«165539_j39865886442066_1_alg».proof.Proof.Spec
import proofs.«165539_j39865886442066_1_alg».proof.Proof.KHostArgs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.PureOps.Reduce

/-!
  What the host operations of the kernel's program compute, at the ideal values, read at an index: each operand of the
  two kernel regions is the fake-quantised rows of an argument (or of the first region's result), re-laid; the
  program's result is the second region's result, re-laid.
-/

set_option maxRecDepth 16384

noncomputable section

namespace Cert.KernelIdeal.HostVal

open Cert.KernelIdeal Cert.KernelIdeal.Gen
open Idealize.ShloMosaic Idealize.ShloMosaic.TcCoe Idealize.ShloMosaic.ValueIdx Idealize.SL.Sem

section Chain

variable {R C : ℕ}

/-- The source index over row `r` with coordinate `k` inserted on the reduced (second) axis is `(r, k)`. -/
private theorem lift_row (hred : (⟨2, ![R, C]⟩ : Shape).Reduces [1] ⟨1, ![R]⟩) (r : Fin R) (k : Fin C) :
    hred.lift (ix1 r) k = ix2 r k := by
  funext c
  apply Fin.ext
  show hred.liftVal (ix1 r) k.val c = (ix2 r k c).val
  unfold Shape.Reduces.liftVal
  match c with
  | ⟨0, _⟩ => rfl
  | ⟨1, _⟩ => rfl

/-- The column of row steps, as the program computes it: the rows' largest magnitudes from −∞, as a column, over 127,
    floored at ε. -/
private def stepCol (hr : (⟨2, ![R, C]⟩ : Shape).ReducesTo [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (x : FVec Ideal ⟨2, ![R, C]⟩ .f32) : FVec Ideal ⟨2, ![R, 1]⟩ .f32 :=
  maximumf
    (Host.divf
      (broadcastInDim ⟨2, ![R, 1]⟩ ![0] b1
        (Host.reduce FloatOps.maximumf (Host.absf x) (constant ⟨0, ![]⟩ .f32 0xFF800000#32) hr hu))
      (broadcastInDim ⟨2, ![R, 1]⟩ ![] b0 (constant ⟨0, ![]⟩ .f32 0x42FE0000#32)))
    (broadcastInDim ⟨2, ![R, 1]⟩ ![] b0 (constant ⟨0, ![]⟩ .f32 0x322BCC77#32))

/-- Its entry on row `r` is that row's step. -/
private theorem stepCol_apply (hr : (⟨2, ![R, C]⟩ : Shape).ReducesTo [1] ⟨1, ![R]⟩)
    (hred : (⟨2, ![R, C]⟩ : Shape).Reduces [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (x : FVec Ideal ⟨2, ![R, C]⟩ .f32) (r : Fin R) (z : Fin 1) :
    stepCol hr hu b1 b0 x (ix2 r z) = Spec.scale (fun k : Fin C => x (ix2 r k)) := by
  unfold stepCol
  show FloatOps.maximumf (FloatOps.hostDivf _ _) _ = _
  rw [broadcastInDim_apply _ b1 _ (ix2 r z) (ix1 r) (fun a => match a with
        | ⟨0, _⟩ => by
          show r.val = if R = 1 then 0 else r.val
          split
          · have := r.isLt; omega
          · rfl),
    broadcastInDim_apply _ b0 _ (ix2 r z) ix0 (fun a => a.elim0),
    broadcastInDim_apply _ b0 _ (ix2 r z) ix0 (fun a => a.elim0),
    Host.reduce_eq_fold_single FloatOps.maximumf (Host.absf x) _ hr hred hu (ix1 r)]
  unfold Spec.scale Spec.rowMax
  have hrow : (Host.absf x ∘ hred.lift (ix1 r)) = fun k : Fin C => max (x (ix2 r k)) (-(x (ix2 r k))) := by
    funext k
    show FloatOps.hostAbsf (x (hred.lift (ix1 r) k)) = _
    rw [lift_row hred r k]
    rfl
  rw [hrow]
  rfl

end Chain

section Chain2

variable {R C : ℕ}

/-- The fake-quantised array, as the program computes it: each entry over its row's step, rounded to the nearest
    integer (ties to even), clipped to ±127, times the step. -/
private def qdArr (hr : (⟨2, ![R, C]⟩ : Shape).ReducesTo [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (b2 : (⟨2, ![R, 1]⟩ : Shape).BroadcastsInDim ⟨2, ![R, C]⟩ ![0, 1])
    (b3 : (⟨0, ![]⟩ : Shape).BroadcastsInDim ⟨2, ![R, C]⟩ ![])
    (x : FVec Ideal ⟨2, ![R, C]⟩ .f32) : FVec Ideal ⟨2, ![R, C]⟩ .f32 :=
  mulf
    (minimumf
      (broadcastInDim ⟨2, ![R, C]⟩ ![] b3 (id (constant ⟨0, ![]⟩ .f32 0x42FE0000#32)))
      (maximumf
        (broadcastInDim ⟨2, ![R, C]⟩ ![] b3 (id (constant ⟨0, ![]⟩ .f32 0xC2FE0000#32)))
        (Host.roundeven (Host.divf x (broadcastInDim ⟨2, ![R, C]⟩ ![0, 1] b2 (stepCol hr hu b1 b0 x))))))
    (broadcastInDim ⟨2, ![R, C]⟩ ![0, 1] b2 (stepCol hr hu b1 b0 x))

/-- Its entry `(r, j)` is entry `j` of the fake-quantised row `r`. -/
private theorem qdArr_apply (hr : (⟨2, ![R, C]⟩ : Shape).ReducesTo [1] ⟨1, ![R]⟩)
    (hred : (⟨2, ![R, C]⟩ : Shape).Reduces [1] ⟨1, ![R]⟩) (hu : 0 < (⟨0, ![]⟩ : Shape).numel)
    (b1 : (⟨1, ![R]⟩ : Shape).BroadcastsInDim ⟨2, ![R, 1]⟩ ![0])
    (b0 : (⟨0, ![]⟩ : Shape).BroadcastsInDim ⟨2, ![R, 1]⟩ ![])
    (b2 : (⟨2, ![R, 1]⟩ : Shape).BroadcastsInDim ⟨2, ![R, C]⟩ ![0, 1])
    (b3 : (⟨0, ![]⟩ : Shape).BroadcastsInDim ⟨2, ![R, C]⟩ ![])
    (x : FVec Ideal ⟨2, ![R, C]⟩ .f32) (r : Fin R) (j : Fin C) :
    qdArr hr hu b1 b0 b2 b3 x (ix2 r j) = Spec.qd (fun k : Fin C => x (ix2 r k)) j := by
  have hstep : broadcastInDim ⟨2, ![R, C]⟩ ![0, 1] b2 (stepCol hr hu b1 b0 x) (ix2 r j)
      = Spec.scale (fun k : Fin C => x (ix2 r k)) := by
    rw [broadcastInDim_apply _ b2 _ (ix2 r j) (ix2 r (0 : Fin 1)) (fun a => match a with
        | ⟨0, _⟩ => by
          show r.val = if R = 1 then 0 else r.val
          split
          · have := r.isLt; omega
          · rfl
        | ⟨1, _⟩ => by
          show 0 = if (1 : ℕ) = 1 then 0 else j.val
          rw [if_pos rfl])]
    exact stepCol_apply hr hred hu b1 b0 x r 0
  unfold qdArr
  show FloatOps.mulf (FloatOps.minimumf _ (FloatOps.maximumf _ (FloatOps.hostUnary .roundeven (FloatOps.hostDivf _ _)))) _ = _
  rw [hstep, broadcastInDim_apply _ b3 _ (ix2 r j) ix0 (fun a => a.elim0),
    broadcastInDim_apply _ b3 _ (ix2 r j) ix0 (fun a => a.elim0)]
  unfold Spec.qd
  rfl

end Chain2

variable (m : (ℓ : Loc nD τ sig) → Buf (Elt Ideal) ℓ) (outs : Outs (F := Ideal))

/-- What the operations from the second weight's magnitudes on leave in `main_v44`, from any contents: the second
    weight fake-quantised along its rows, transposed. -/
private theorem v44_term (X : Valuation τ sig (Elt Ideal)) :
    (StableHlo.after hostOps0_12 (StableHlo.after hostOps0_11 (StableHlo.after hostOps0_10 (StableHlo.after hostOps0_9
      (StableHlo.after hostOps0_8 X)))) main_v44 : S5632x2048.Idx → EReal)
      = truncf .bf16 (transpose S5632x2048 [1, 0]
          (qdArr reducesTo_S2048x5632_S2048_d1 h_S_ bcast_S2048_S2048x1_0 bcast_S_S2048x1 bcast_S2048x1_S2048x5632_0_1
            bcast_S_S2048x5632 (X main_arg2)) transposes_S2048x5632_S5632x2048_1_0) bitsLt_bf16_f32 := by
  simp only [hostOps0_8, hostOps0_9, hostOps0_10, hostOps0_11, hostOps0_12]
  after_results_simp
  rfl

/-- The second region's right operand: column `n` is the fake-quantised row `n` of the second weight. -/
theorem v44_apply (c : Dev nD) (i : Fin 5632) (n : Fin 2048) :
    (V13 m c main_v44 : S5632x2048.Idx → EReal) (ix2 i n) = Spec.qd (Spec.w2row (w2Arg m c) n) i := by
  have harg : V8 m c main_arg2 = m ((c : Thread nD τ).loc main_arg2) :=
    (V8_of m c main_arg2 (by decide)).trans <| (V7_of m c main_arg2 (by decide)).trans <|
    (V6_of m c main_arg2 (by decide)).trans <| (V5_of m c main_arg2 (by decide)).trans <|
    (V4_of m c main_arg2 (by decide)).trans <| (V3_of m c main_arg2 (by decide)).trans <|
    (V2_of m c main_arg2 (by decide)).trans <| (V1_of m c main_arg2 (by decide)).trans rfl
  refine (congrFun (v44_term (V8 m c)) (ix2 i n)).trans ?_
  show FloatOps.truncf .bf16 _ (transpose S5632x2048 [1, 0] _ transposes_S2048x5632_S5632x2048_1_0 (ix2 i n)) = _
  rw [Ideal.truncf_def, transpose_ix2_apply, qdArr_apply _ (by decide), harg]
  rfl

/-- No item between the regions writes it. -/
theorem v44_kept (c : Dev nD) : V19 m outs c main_v44 = V13 m c main_v44 := by
  exact (V19_of m outs c main_v44 (by decide)).trans <| (V18_of m outs c main_v44 (by decide)).trans <|
    (V17_of m outs c main_v44 (by decide)).trans <| (V16_of m outs c main_v44 (by decide)).trans <|
    (V15_of m outs c main_v44 (by decide)).trans <| V14_of m outs c main_v44 (by decide)

/-- What the operations between the regions leave in `main_v59`, from any contents: `main_v45` fake-quantised along its
    rows. -/
private theorem v59_term (X : Valuation τ sig (Elt Ideal)) :
    (StableHlo.after hostOps1_4 (StableHlo.after hostOps1_3 (StableHlo.after hostOps1_2 (StableHlo.after hostOps1_1
      (StableHlo.after hostOps1 X)))) main_v59 : S8192x5632.Idx → EReal)
      = truncf .bf16
          (qdArr reducesTo_S8192x5632_S8192_d1 h_S_ bcast_S8192_S8192x1_0 bcast_S_S8192x1 bcast_S8192x1_S8192x5632_0_1
            bcast_S_S8192x5632 (X main_v45)) bitsLt_bf16_f32 := by
  simp only [hostOps1, hostOps1_1, hostOps1_2, hostOps1_3, hostOps1_4]
  after_results_simp
  rfl

/-- The second region's left operand: row `r` is the fake-quantised row `r` of the first region's result. -/
theorem v59_apply (c : Dev nD) (r : Fin 8192) (i : Fin 5632) :
    (V19 m outs c main_v59 : S8192x5632.Idx → EReal) (ix2 r i)
      = Spec.qd (fun i' : Fin 5632 => (outs 14 main_v45 c : S8192x5632.Idx → EReal) (ix2 r i')) i := by
  have hres : V14 m outs c main_v45 = outs 14 main_v45 c := Function.update_self _ _ _
  refine (congrFun (v59_term (V14 m outs c)) (ix2 r i)).trans ?_
  show FloatOps.truncf .bf16 _ (qdArr _ _ _ _ _ _ _ (ix2 r i)) = _
  rw [Ideal.truncf_def, qdArr_apply _ (by decide), hres]

/-- The program's result: the second region's result, its rows regrouped. -/
theorem v61_apply (c : Dev nD) (b : Fin 4) (s : Fin 2048) (n : Fin 2048) :
    (V21 m outs c main_v61 : S4x2048x2048.Idx → EReal) (ix3 b s n)
      = (outs 20 main_v60 c : S8192x2048.Idx → EReal) (ix2 (⟨2048 * b.val + s.val, by have := b.isLt; have := s.isLt; omega⟩ : Fin 8192) n) := by
  have hres : V20 m outs c main_v60 = outs 20 main_v60 c := Function.update_self _ _ _
  have e : (V21 m outs c main_v61 : S4x2048x2048.Idx → EReal)
      = shapeCast S4x2048x2048 (V20 m outs c main_v60 : S8192x2048.Idx → EReal) shapeCasts_S8192x2048_S4x2048x2048 := by
    show (StableHlo.after hostOps2 (V20 m outs c) main_v61 : S4x2048x2048.Idx → EReal) = _
    generalize V20 m outs c = X
    simp only [hostOps2]
    after_results
    rfl
  rw [e, hres]
  exact shapeCast_apply _ _ _ _ (by
    show (S8192x2048.rowMajor _).val = (S4x2048x2048.rowMajor _).val
    rw [Shape.rowMajor_val_two, Shape.rowMajor_val_three]
    show (2048 * b.val + s.val) * 2048 + n.val = (b.val * 2048 + s.val) * 2048 + n.val
    omega)

end Cert.KernelIdeal.HostVal

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.R0Value.lean ====
import proofs.«165539_j39865886442066_1_alg».proof.Proof.R0Defs
import proofs.«165539_j39865886442066_1_alg».proof.Proof.Spec
import proofs.«165539_j39865886442066_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
  What the first kernel region leaves in its result array, at the ideal values, entry by entry: the gated product of the two
  projections of row `r` of the left operand against columns `j` and `5632 + j` of the right operand.
-/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The region's two operands as it finds them, and its result array after its 88 write-backs, as functions of an index. -/
abbrev lhs0 (c : Dev nD) : S8192x2048.Idx → EReal := V c main_v14
abbrev rhs0 (c : Dev nD) : S2048x11264.Idx → EReal := V c main_v29
abbrev res0 (c : Dev nD) : S8192x5632.Idx → EReal := (dat0 (F := Ideal) V c).arrAt 3 cfg0.N

/-- The two projections of row `r`, at hidden coordinate `j`: over the region's entry contents. -/
def gate0 (c : Dev nD) (r : Fin 8192) (j : Fin 5632) : EReal :=
  ∑ k : Fin 2048, lhs0 V c (ix2 r k) * rhs0 V c (ix2 k (⟨j.val, by have := j.isLt; omega⟩ : Fin 11264))
def up0 (c : Dev nD) (r : Fin 8192) (j : Fin 5632) : EReal :=
  ∑ k : Fin 2048, lhs0 V c (ix2 r k) * rhs0 V c (ix2 k (⟨5632 + j.val, by have := j.isLt; omega⟩ : Fin 11264))

/-! ## The body's stored value at one entry of the block -/

/-- Entry (p, q) of what the body stores: with g and u the two products of row p of the left block against column q of
    each right block (a product accumulated from zero is the plain sum of products), the value (g · logistic g) · u. -/
theorem pay0_apply (x0 : Vec Ideal S1024x2048 .bf16) (x1 x2 : Vec Ideal S2048x512 .bf16) (p : Fin 1024) (q : Fin 512) :
    out0_3 (F := Ideal) x0 x1 x2 (ix2 p q)
      = (∑ k : Fin 2048, x0 (ix2 p k) * x1 (ix2 k q)) * Ideal.logistic (∑ k : Fin 2048, x0 (ix2 p k) * x1 (ix2 k q))
          * (∑ k : Fin 2048, x0 (ix2 p k) * x2 (ix2 k q)) := by
  have e1 := Cert.Lib.PlainDot.matmul_zero_apply (φ₁ := .bf16) (φ₂ := .bf16)
    dot_S1024x2048_S2048x512_S1024x512_1_0_0_1_n_n rfl rfl rfl rfl rfl rfl none x0 x1 p q
  have e2 := Cert.Lib.PlainDot.matmul_zero_apply (φ₁ := .bf16) (φ₂ := .bf16)
    dot_S1024x2048_S2048x512_S1024x512_1_0_0_1_n_n rfl rfl rfl rfl rfl rfl none x0 x2 p q
  unfold out0_3 k0_pay1
  simp only [shapeCast_self]
  rw [← e1, ← e2]
  rfl

/-! ## The three input blocks at a grid point, as entries of the two operand arrays -/

/-- The index maps over the 88 grid points: point t = (t / 11, t % 11) takes row block t / 11 of the left operand,
    column blocks t % 11 and t % 11 + 11 of the right operand, and writes block (t / 11, t % 11) of the result. -/
theorem idx_facts0 : ∀ t : Fin cfg0.N,
    win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11 + 11
    ∧ win0_3.index t (0 : Fin 2) = t.val / 11 ∧ win0_3.index t (1 : Fin 2) = t.val % 11 :=
  (by decide +kernel : ∀ t : Fin grid0.N, _)

/-- The three input blocks at point t, at their literal shapes. -/
abbrev xblk0 (c : Dev nD) (t : Fin cfg0.N) : Vec Ideal S1024x2048 .bf16 := iblk0 V c 0 t
abbrev gblk0 (c : Dev nD) (t : Fin cfg0.N) : Vec Ideal S2048x512 .bf16 := iblk0 V c 1 t
abbrev ublk0 (c : Dev nD) (t : Fin cfg0.N) : Vec Ideal S2048x512 .bf16 := iblk0 V c 2 t

/-- The left block at point t is rows 1024·(t / 11) … of the left operand, all its columns. -/
theorem xblk0_apply (c : Dev nD) (t : Fin cfg0.N) (p : Fin 1024) (k : Fin 2048) (r : Fin 8192)
    (hr : r.val = 1024 * (t.val / 11) + p.val) :
    xblk0 V c t (ix2 p k) = lhs0 V c (ix2 r k) := by
  obtain ⟨e0, e1, -⟩ := idx_facts0 t
  unfold xblk0 iblk0
  rw [View.read_apply]
  show V c main_v14 _ = V c main_v14 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = k.val; omega

/-- The first right block at point t is columns 512·(t % 11) … of the right operand, all its rows. -/
theorem gblk0_apply (c : Dev nD) (t : Fin cfg0.N) (k : Fin 2048) (q : Fin 512) (j : Fin 11264)
    (hj : j.val = 512 * (t.val % 11) + q.val) :
    gblk0 V c t (ix2 k q) = rhs0 V c (ix2 k j) := by
  obtain ⟨-, -, e2, e3, -⟩ := idx_facts0 t
  unfold gblk0 iblk0
  rw [View.read_apply]
  show V c main_v29 _ = V c main_v29 _
  congr 1
  funext a
  apply Fin.ext
  match a with
  | ⟨0, _⟩ => show win0_1.index t (0 : Fin 2) * 2048 + 1 * k.val = k.val; omega
  | ⟨1, _⟩ => show win0_1.index t (1 : Fin 2) * 512 + 1 * q.val = j.val; omega

/-- The second right block at point t is columns 5632 + 512·(t % 11) … of the same array. -/
theorem ublk0_apply (c : Dev nD) (t : Fin cfg0.N) (k : Fin 2048) (q : Fin 512) (j : Fin 11264)
    (hj : j.val = 5632 + 512 * (t.val % 11) + q.val) :
    ublk0 V c t (ix2 k q) = rhs0 V c (ix2 k j) := by
  obtain ⟨-, -, -, -, e4, e5, -⟩ := idx_facts0 t
  unfold ublk0 iblk0
  rw [View.read_apply]
  show V c main_v29 _ = V c main_v29 _
  congr 1
  funext a
  apply Fin.ext
  match a with
  | ⟨0, _⟩ => show win0_2.index t (0 : Fin 2) * 2048 + 1 * k.val = k.val; omega
  | ⟨1, _⟩ => show win0_2.index t (1 : Fin 2) * 512 + 1 * q.val = j.val; omega

/-! ## The whole result array as one function of the operands, and what each point writes back -/

/-- The result array entry by entry: the gated product of the two projections. -/
def gated0 (c : Dev nD) : S8192x5632.Idx → EReal := fun i =>
  gate0 V c ⟨(i 0).val, idx2_lt0 i⟩ ⟨(i 1).val, idx2_lt1 i⟩
    * Ideal.logistic (gate0 V c ⟨(i 0).val, idx2_lt0 i⟩ ⟨(i 1).val, idx2_lt1 i⟩)
    * up0 V c ⟨(i 0).val, idx2_lt0 i⟩ ⟨(i 1).val, idx2_lt1 i⟩

/-- Entry (p, q) of the block computed at point t is the entry of `gated0` at row 1024·(t / 11) + p and column
    512·(t % 11) + q: the sums over the hidden axis agree term by term. -/
theorem gated0_at (c : Dev nD) (t : Fin cfg0.N) (p : Fin 1024) (q : Fin 512) (i : S8192x5632.Idx)
    (h0 : (i 0).val = 1024 * (t.val / 11) + p.val) (h1 : (i 1).val = 512 * (t.val % 11) + q.val) :
    (∑ k : Fin 2048, xblk0 V c t (ix2 p k) * gblk0 V c t (ix2 k q))
        * Ideal.logistic (∑ k : Fin 2048, xblk0 V c t (ix2 p k) * gblk0 V c t (ix2 k q))
        * (∑ k : Fin 2048, xblk0 V c t (ix2 p k) * ublk0 V c t (ix2 k q))
      = gated0 V c i := by
  have hi0 : (i 0).val < 8192 := idx2_lt0 i
  have hi1 : (i 1).val < 5632 := idx2_lt1 i
  have eg : (∑ k : Fin 2048, xblk0 V c t (ix2 p k) * gblk0 V c t (ix2 k q))
      = gate0 V c ⟨(i 0).val, idx2_lt0 i⟩ ⟨(i 1).val, idx2_lt1 i⟩ := by
    unfold gate0
    refine Finset.sum_congr rfl fun k _ => ?_
    rw [xblk0_apply V c t p k ⟨(i 0).val, hi0⟩ h0, gblk0_apply V c t k q ⟨(i 1).val, by omega⟩ h1]
  have eu : (∑ k : Fin 2048, xblk0 V c t (ix2 p k) * ublk0 V c t (ix2 k q))
      = up0 V c ⟨(i 0).val, idx2_lt0 i⟩ ⟨(i 1).val, idx2_lt1 i⟩ := by
    unfold up0
    refine Finset.sum_congr rfl fun k _ => ?_
    rw [xblk0_apply V c t p k ⟨(i 0).val, hi0⟩ h0, ublk0_apply V c t k q ⟨5632 + (i 1).val, by omega⟩ (by show 5632 + (i 1).val = _; omega)]
  rw [eg, eu]
  rfl

/-- What point t writes back is its block of `gated0`. -/
theorem flushed0_eq (c : Dev nD) (t : Fin cfg0.N) :
    (dat0 (F := Ideal) V c).flushed 3 t = ((cfg0.win 3).blk t).view.read (Elt Ideal) (gated0 V c) := by
  show (cfg0.win 3).cut (grid0.coords t) ((dat0 V c).after 3 t) = _
  rw [after0_3]
  obtain ⟨-, -, -, -, -, -, e6, e7⟩ := idx_facts0 t
  funext y
  obtain ⟨p, q, rfl⟩ : ∃ (p : Fin 1024) (q : Fin 512), y = ix2 p q := ⟨y 0, y 1, eq_ix2 y⟩
  show out0_3 (xblk0 V c t) (gblk0 V c t) (ublk0 V c t) (ix2 p q) = gated0 V c (((cfg0.win 3).blk t).view.emb (ix2 p q))
  refine (pay0_apply (xblk0 V c t) (gblk0 V c t) (ublk0 V c t) p q).trans ?_
  refine gated0_at V c t p q _ ?_ ?_
  · show win0_3.index t (0 : Fin 2) * 1024 + 1 * p.val = _; omega
  · show win0_3.index t (1 : Fin 2) * 512 + 1 * q.val = _; omega

/-- An index of the result array is in point t's block iff each coordinate is in the block's range on its axis. -/
theorem mem_blk0_3 (t : Fin cfg0.N) (i : S8192x5632.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v45).slice (win0_3.rect t)).set ↔ _
  rw [View.set_slice_whole, Rect.mem_set_unit]
  exact Iff.rfl

/-- The result array at entry `(r, j)`: the entry lies in the block of point (r / 1024, j / 512), which wrote there
    its block of `gated0`; a later point that covers the entry again writes the same value. -/
theorem o14_apply (c : Dev nD) (r : Fin 8192) (j : Fin 5632) :
    res0 V c (ix2 r j) = gate0 V c r j * Ideal.logistic (gate0 V c r j) * up0 V c r j := by
  have hr : r.val < 8192 := r.isLt
  have hj : j.val < 5632 := j.isLt
  have hN : cfg0.N = 88 := rfl
  let t : Fin cfg0.N := ⟨r.val / 1024 * 11 + j.val / 512, by rw [hN]; omega⟩
  have ht : t.val = r.val / 1024 * 11 + j.val / 512 := rfl
  obtain ⟨-, -, -, -, -, -, e6, e7⟩ := idx_facts0 t
  have hmem : ix2 r j ∈ ((cfg0.win 3).blk t).view.set := by
    rw [mem_blk0_3]
    intro a
    match a with
    | ⟨0, _⟩ => show win0_3.index t (0 : Fin 2) * 1024 ≤ r.val ∧ r.val < win0_3.index t (0 : Fin 2) * 1024 + 1024; omega
    | ⟨1, _⟩ => show win0_3.index t (1 : Fin 2) * 512 ≤ j.val ∧ j.val < win0_3.index t (1 : Fin 2) * 512 + 512; omega
  exact (dat0 (F := Ideal) V c).arrAt_apply_of_mem 3 (gated0 V c) (fun t _ => flushed0_eq V c t) cfg0.N t (ix2 r j) t.isLt
    (flush0_3 t) hmem

end Cert.KernelIdeal.Hand

end
-- ==== Proof.R1Value.lean ====
import proofs.«165539_j39865886442066_1_alg».proof.Proof.R1Defs
import proofs.«165539_j39865886442066_1_alg».proof.Proof.Spec
import proofs.«165539_j39865886442066_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
  What the second kernel region leaves in its result array, at the ideal values, entry by entry: row `r` of the left
  operand against column `n` of the right operand, the eleven blocks of 512 products accumulated one after the other.
-/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The region's two operands as it finds them, and its result array after its write-backs, as functions of an index. -/
abbrev lhs1 (c : Dev nD) : S8192x5632.Idx → EReal := V c main_v59
abbrev rhs1 (c : Dev nD) : S5632x2048.Idx → EReal := V c main_v44
abbrev res1 (c : Dev nD) : S8192x2048.Idx → EReal := (dat1 (F := Ideal) V c).arrAt 2 cfg1.N

/-- The zero splat at any entry. -/
theorem zero1_apply (p : Fin 1024) (q : Fin 2048) : k1_pay1 (F := Ideal) (ix2 p q) = 0 := by
  unfold k1_pay1
  refine (congrFun (shapeCast_self _ _) (ix2 p q)).trans ?_
  exact Ideal.ofBits_zero_f32

/-- One step of the accumulation at an entry: what was there plus the 512 products of the two blocks. -/
theorem step1_apply (v3 : Vec Ideal S1024x2048 .f32) (v4 : Vec Ideal S1024x512 .bf16) (v6 : Vec Ideal S512x2048 .bf16)
    (p : Fin 1024) (q : Fin 2048) :
    k1_pay2 v3 v4 v6 (ix2 p q) = v3 (ix2 p q) + ∑ k : Fin 512, v4 (ix2 p k) * v6 (ix2 k q) := by
  unfold k1_pay2
  refine (congrFun (shapeCast_self _ _) (ix2 p q)).trans ?_
  refine congrArg (v3 (ix2 p q) + ·) ?_
  refine Eq.trans ?_ (Cert.Lib.PlainDot.matmul_zero_apply (φ₁ := .bf16) (φ₂ := .bf16)
    dot_S1024x512_S512x2048_S1024x2048_1_0_0_1_n_n rfl rfl rfl rfl rfl rfl none v4 v6 p q)
  rw [shapeCast_self, shapeCast_self]

/-- The block indices of the three windows at point `t = 11·mi + kb`: `(mi, kb)`, `(kb, 0)`, `(mi, 0)`. -/
theorem idx1 : ∀ t : Fin cfg1.N,
    win1_0.index t (0 : Fin 2) = t.val / 11 ∧ win1_0.index t (1 : Fin 2) = t.val % 11
  ∧ win1_1.index t (0 : Fin 2) = t.val % 11 ∧ win1_1.index t (1 : Fin 2) = 0
  ∧ win1_2.index t (0 : Fin 2) = t.val / 11 ∧ win1_2.index t (1 : Fin 2) = 0 :=
  (by decide +kernel : ∀ t : Fin grid1.N, _)

/-- The two operand blocks at a point, at their literal types. -/
abbrev lblk1 (c : Dev nD) (t : Fin cfg1.N) : Vec Ideal S1024x512 .bf16 := iblk1 (F := Ideal) V c 0 t
abbrev rblk1 (c : Dev nD) (t : Fin cfg1.N) : Vec Ideal S512x2048 .bf16 := iblk1 (F := Ideal) V c 1 t

/-- Entry `(p, k)` of the left block at point `t` is entry `(1024·(t / 11) + p, 512·(t % 11) + k)` of the left operand. -/
theorem lblk1_apply (c : Dev nD) (t : Fin cfg1.N) (p : Fin 1024) (k : Fin 512) (i : S8192x5632.Idx)
    (h0 : (i 0).val = 1024 * (t.val / 11) + p.val) (h1 : (i 1).val = 512 * (t.val % 11) + k.val) :
    lblk1 V c t (ix2 p k) = lhs1 V c i := by
  obtain ⟨e0, e1, -⟩ := idx1 t
  unfold lblk1 iblk1
  rw [View.read_apply]
  show V c main_v59 _ = V c main_v59 i
  congr 1
  funext a
  apply Fin.ext
  match a with
  | ⟨0, _⟩ => show win1_0.index t (0 : Fin 2) * 1024 + 1 * p.val = (i 0).val; rw [e0, h0]; omega
  | ⟨1, _⟩ => show win1_0.index t (1 : Fin 2) * 512 + 1 * k.val = (i 1).val; rw [e1, h1]; omega

/-- Entry `(k, q)` of the right block at point `t` is entry `(512·(t % 11) + k, q)` of the right operand. -/
theorem rblk1_apply (c : Dev nD) (t : Fin cfg1.N) (k : Fin 512) (q : Fin 2048) (i : S5632x2048.Idx)
    (h0 : (i 0).val = 512 * (t.val % 11) + k.val) (h1 : (i 1).val = q.val) :
    rblk1 V c t (ix2 k q) = rhs1 V c i := by
  obtain ⟨-, -, e2, e3, -⟩ := idx1 t
  unfold rblk1 iblk1
  rw [View.read_apply]
  show V c main_v44 _ = V c main_v44 i
  congr 1
  funext a
  apply Fin.ext
  match a with
  | ⟨0, _⟩ => show win1_1.index t (0 : Fin 2) * 512 + 1 * k.val = (i 0).val; rw [e2, h0]; omega
  | ⟨1, _⟩ => show win1_1.index t (1 : Fin 2) * 2048 + 1 * q.val = (i 1).val; rw [e3, h1]; omega

/-- The accumulator where a row of blocks begins: the step from the zero splat. -/
theorem acc1v_reset (c : Dev nD) (n : ℕ) (hn : n < cfg1.N) (h0 : n % 11 = 0) :
    acc1 V c n hn = k1_pay2 (k1_pay1 (F := Ideal)) (lblk1 V c ⟨n, hn⟩) (rblk1 V c ⟨n, hn⟩) := by
  cases n with
  | zero => rfl
  | succ m =>
    show k1_pay2 (if (m + 1) % 11 = 0 then k1_pay1 (F := Ideal) else acc1 V c m (Nat.lt_of_succ_lt hn)) _ _ = _
    rw [if_pos h0]

/-- The accumulator elsewhere: the step from what the point before left. -/
theorem acc1v_step (c : Dev nD) (n : ℕ) (hn : n + 1 < cfg1.N) (h0 : ¬(n + 1) % 11 = 0) :
    acc1 V c (n + 1) hn = k1_pay2 (acc1 V c n (Nat.lt_of_succ_lt hn)) (lblk1 V c ⟨n + 1, hn⟩) (rblk1 V c ⟨n + 1, hn⟩) := by
  show k1_pay2 (if (n + 1) % 11 = 0 then k1_pay1 (F := Ideal) else acc1 V c n (Nat.lt_of_succ_lt hn)) _ _ = _
  rw [if_neg h0]

/-- The 512 products of block `kb` of row `r` of the left operand against column `n` of the right operand. -/
def gblk1 (c : Dev nD) (r : Fin 8192) (n : Fin 2048) (kb : ℕ) : EReal :=
  if h : kb < 11 then
    ∑ j : Fin 512, lhs1 V c (ix2 r ⟨512 * kb + j.val, by have := j.isLt; omega⟩)
      * rhs1 V c (ix2 ⟨512 * kb + j.val, by have := j.isLt; omega⟩ n)
  else 0

/-- The products of the two blocks at point `t`, at row `p` and column `q` of the blocks, are those of block `t % 11` of
    row `1024·(t / 11) + p` against column `q`. -/
theorem blk1_sum (c : Dev nD) (t : Fin cfg1.N) (p : Fin 1024) (q : Fin 2048) (r : Fin 8192) (kb : ℕ)
    (hr : r.val = 1024 * (t.val / 11) + p.val) (hkb : t.val % 11 = kb) :
    ∑ k : Fin 512, lblk1 V c t (ix2 p k) * rblk1 V c t (ix2 k q) = gblk1 V c r q kb := by
  have hlt : kb < 11 := by omega
  unfold gblk1
  rw [dif_pos hlt]
  refine Finset.sum_congr rfl fun k _ => ?_
  rw [lblk1_apply V c t p k (ix2 r ⟨512 * kb + k.val, by have := k.isLt; omega⟩) hr (by show 512 * kb + k.val = _; rw [hkb]),
    rblk1_apply V c t k q (ix2 ⟨512 * kb + k.val, by have := k.isLt; omega⟩ q) (by show 512 * kb + k.val = _; rw [hkb]) rfl]

/-- Within row-block `mi`, after the point of column-block `kb` the accumulator holds, at row `p` and column `q`, the
    blocks `0 … kb` of row `1024·mi + p` against column `q` accumulated one after the other from zero. -/
theorem acc1_apply (c : Dev nD) (mi : ℕ) (hmi : mi < 8) (p : Fin 1024) (q : Fin 2048) (r : Fin 8192)
    (hr : r.val = 1024 * mi + p.val) :
    ∀ (kb : ℕ) (hkb : kb < 11) (h : 11 * mi + kb < cfg1.N),
      acc1 V c (11 * mi + kb) h (ix2 p q) = Cert.Spec.accBlocks (gblk1 V c r q) kb
  | 0, _, h => by
    rw [acc1v_reset V c (11 * mi + 0) h (by omega)]
    refine (step1_apply _ (lblk1 V c ⟨11 * mi + 0, h⟩) (rblk1 V c ⟨11 * mi + 0, h⟩) p q).trans ?_
    rw [zero1_apply]
    show 0 + _ = 0 + gblk1 V c r q 0
    refine congrArg (0 + ·) ?_
    exact blk1_sum V c ⟨11 * mi + 0, h⟩ p q r 0 (by show r.val = 1024 * ((11 * mi + 0) / 11) + p.val; rw [hr]; omega)
      (by show (11 * mi + 0) % 11 = 0; omega)
  | kb + 1, hkb, h => by
    show acc1 V c (11 * mi + kb + 1) h (ix2 p q) = _
    rw [acc1v_step V c (11 * mi + kb) h (by omega)]
    refine (step1_apply _ (lblk1 V c ⟨11 * mi + kb + 1, h⟩) (rblk1 V c ⟨11 * mi + kb + 1, h⟩) p q).trans ?_
    rw [acc1_apply c mi hmi p q r hr kb (by omega) (Nat.lt_of_succ_lt h)]
    show _ = Cert.Spec.accBlocks (gblk1 V c r q) kb + gblk1 V c r q (kb + 1)
    refine congrArg (Cert.Spec.accBlocks (gblk1 V c r q) kb + ·) ?_
    exact blk1_sum V c ⟨11 * mi + kb + 1, h⟩ p q r (kb + 1)
      (by show r.val = 1024 * ((11 * mi + kb + 1) / 11) + p.val; rw [hr]; omega)
      (by show (11 * mi + kb + 1) % 11 = kb + 1; omega)

/-- At a point that closes a row of blocks the accumulator holds, at row `p` and column `q`, the whole product of
    row `1024·(t / 11) + p` against column `q`. -/
theorem acc1_last (c : Dev nD) (t : Fin cfg1.N) (h10 : t.val % 11 = 10) (p : Fin 1024) (q : Fin 2048) (r : Fin 8192)
    (hr : r.val = 1024 * (t.val / 11) + p.val) :
    acc1 V c t.val t.isLt (ix2 p q) = ∑ i : Fin 5632, lhs1 V c (ix2 r i) * rhs1 V c (ix2 i q) := by
  have hN : cfg1.N = 88 := N_1
  have hlt := t.isLt
  have same : ∀ (u : ℕ) (hu : u < cfg1.N), u = t.val → acc1 V c u hu = acc1 V c t.val t.isLt :=
    fun u hu e => by subst e; rfl
  have hu : 11 * (t.val / 11) + 10 < cfg1.N := by omega
  rw [← same (11 * (t.val / 11) + 10) hu (by omega),
    acc1_apply V c (t.val / 11) (by omega) p q r hr 10 (by omega) hu,
    Cert.Spec.accBlocks_eq, Cert.Spec.sum_blocks, Finset.sum_range]
  refine Finset.sum_congr rfl fun kb _ => ?_
  unfold gblk1
  rw [dif_pos kb.isLt]

/-- Row `r` of the left operand against column `n` of the right operand. -/
def entry1 (c : Dev nD) (r : Fin 8192) (n : Fin 2048) : EReal :=
  ∑ i : Fin 5632, lhs1 V c (ix2 r i) * rhs1 V c (ix2 i n)

/-- The whole product, entry by entry. -/
abbrev G1 (c : Dev nD) : S8192x2048.Idx → EReal := fun i => entry1 V c (i 0) (i 1)

/-- What a point that closes a row of blocks writes back is its block `(t / 11, 0)` of the whole product. -/
theorem flushed1_eq (c : Dev nD) (t : Fin cfg1.N) (hf : (cfg1.win 2).flush t = true) :
    (dat1 (F := Ideal) V c).flushed 2 t = ((cfg1.win 2).blk t).view.read (Elt Ideal) (G1 V c) := by
  have h10 : t.val % 11 = 10 := (flush1_2 t).mp hf
  have hN : cfg1.N = 88 := N_1
  have hlt := t.isLt
  obtain ⟨-, -, -, -, e4, e5⟩ := idx1 t
  show (cfg1.win 2).cut (grid1.coords t) ((dat1 (F := Ideal) V c).after 2 t) = _
  rw [after1_2]
  funext y
  have hy0 : (y 0).val < 1024 := (y 0).isLt
  have hy1 : (y 1).val < 2048 := (y 1).isLt
  have hx : (cfg1.win 2).xinj (grid1.coords t) y = ix2 (⟨(y 0).val, hy0⟩ : Fin 1024) (⟨(y 1).val, hy1⟩ : Fin 2048) := by
    funext a
    match a with
    | ⟨0, _⟩ => rfl
    | ⟨1, _⟩ => rfl
  show acc1 V c t.val t.isLt ((cfg1.win 2).xinj (grid1.coords t) y) = G1 V c (((cfg1.win 2).blk t).view.emb y)
  refine (congrArg (acc1 V c t.val t.isLt) hx).trans ?_
  refine (acc1_last V c t h10 ⟨(y 0).val, hy0⟩ ⟨(y 1).val, hy1⟩ ⟨1024 * (t.val / 11) + (y 0).val, by omega⟩ rfl).trans ?_
  show entry1 V c ⟨1024 * (t.val / 11) + (y 0).val, by omega⟩ ⟨(y 1).val, hy1⟩
    = entry1 V c (((cfg1.win 2).blk t).view.emb y 0) (((cfg1.win 2).blk t).view.emb y 1)
  congr 1 <;> apply Fin.ext
  · show 1024 * (t.val / 11) + (y 0).val = win1_2.index t (0 : Fin 2) * 1024 + 1 * (y 0).val
    rw [e4]; omega
  · show (y 1).val = win1_2.index t (1 : Fin 2) * 2048 + 1 * (y 1).val
    rw [e5]; omega

/-- Every entry `(r, n)` of the result array lies in the block written back at the point `11·(r / 1024) + 10`. -/
theorem cover1 (i : S8192x2048.Idx) :
    ∃ t : Fin cfg1.N, (cfg1.win 2).flush t = true ∧ i ∈ ((cfg1.win 2).blk t).view.set := by
  have hN : cfg1.N = 88 := N_1
  have hi0 : (i 0).val < 8192 := (i 0).isLt
  have hi1 : (i 1).val < 2048 := (i 1).isLt
  obtain ⟨t, ht⟩ : ∃ t : Fin cfg1.N, t.val = 11 * ((i 0).val / 1024) + 10 := ⟨⟨11 * ((i 0).val / 1024) + 10, by omega⟩, rfl⟩
  obtain ⟨-, -, -, -, e4, e5⟩ := idx1 t
  refine ⟨t, (flush1_2 t).mpr (by omega), ?_⟩
  show i ∈ ((View.whole main_v60).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 2048 ≤ (i 1).val ∧ (i 1).val < win1_2.index t (1 : Fin 2) * 2048 + 2048
    rw [e5]; omega

/-- The result array after the write-backs is the whole product: the eight written blocks tile it. -/
theorem res1_eq (c : Dev nD) : res1 V c = G1 V c :=
  (dat1 (F := Ideal) V c).arrAt_eq_of_cover 2 (G1 V c) (flushed1_eq V c) cover1

/-- The result array at entry `(r, n)`. -/
theorem o20_apply (c : Dev nD) (r : Fin 8192) (n : Fin 2048) :
    res1 V c (ix2 r n) = ∑ i : Fin 5632, lhs1 V c (ix2 r i) * rhs1 V c (ix2 i n) := by
  exact congrFun (res1_eq V c) (ix2 r n)

end Cert.KernelIdeal.Hand

end
-- ==== Proof.RefQd.lean ====
import proofs.«165539_j39865886442066_1_alg».proof.Proof.Gen.ReferenceIdeal.Read
import proofs.«165539_j39865886442066_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

/-!
  The reference's four straight-through quantisations, read at an index at the ideal values: each adds to its operand
  the difference between the operand's fake-quantised row and the operand, which for a finite operand is the
  fake-quantised row itself.
-/

set_option maxRecDepth 16384

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The stages over plain rows -/

/-- A reduced rank-2 index with coordinate `k` put back on the last axis. -/
private theorem lift_last3 {n0 n1 n2 : Nat}
    (h : (⟨3, ![n0, n1, n2]⟩ : Shape).Reduces [2] (⟨2, ![n0, n1]⟩ : Shape)) (b : Fin n0) (s : Fin n1)
    (k : Fin ((⟨3, ![n0, n1, n2]⟩ : Shape).size 2)) :
    h.lift (ix2 b s) k = ix3 b s (⟨k.val, k.isLt⟩ : Fin n2) := by
  funext c; apply Fin.ext
  fin_cases c <;> rfl

/-- A reduced rank-1 index with coordinate `k` put back on the last axis. -/
private theorem lift_last2 {n0 n1 : Nat}
    (h : (⟨2, ![n0, n1]⟩ : Shape).Reduces [1] (⟨1, ![n0]⟩ : Shape)) (o : Fin n0)
    (k : Fin ((⟨2, ![n0, n1]⟩ : Shape).size 1)) :
    h.lift (ix1 o) k = ix2 o (⟨k.val, k.isLt⟩ : Fin n1) := by
  funext c; apply Fin.ext
  fin_cases c <;> rfl

/-- From −∞, the maximum over the last axis of the magnitudes of a rank-3 array is the row's largest magnitude. -/
private theorem rowMax_last3 {n0 n1 n2 : Nat} (x : FVec Ideal ⟨3, ![n0, n1, n2]⟩ .f32)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape))
    (hu : 0 < (⟨0, ![]⟩ : Shape).numel) (b : Fin n0) (s : Fin n1) :
    Host.reduce FloatOps.maximumf (Host.absf x) (constant (⟨0, ![]⟩ : Shape) .f32 0xFF800000#32) h' hu (ix2 b s)
      = Spec.rowMax (fun k : Fin n2 => x (ix3 b s k)) := by
  rw [Host.reduce_eq_fold_single FloatOps.maximumf _ _ h' h hu]
  have hf : (Host.absf x ∘ h.lift (ix2 b s))
      = fun k : Fin n2 => max (x (ix3 b s k)) (-(x (ix3 b s k))) :=
    funext fun k => congrArg (fun i => max (x i) (-(x i))) (lift_last3 h b s k)
  exact congrArg (fun f => Finset.fold max Spec.ninf f (Finset.univ : Finset (Fin n2))) hf

/-- The same for a rank-2 array. -/
private theorem rowMax_last2 {n0 n1 : Nat} (x : FVec Ideal ⟨2, ![n0, n1]⟩ .f32)
    (h' : (⟨2, ![n0, n1]⟩ : Shape).ReducesTo [1] (⟨1, ![n0]⟩ : Shape))
    (h : (⟨2, ![n0, n1]⟩ : Shape).Reduces [1] (⟨1, ![n0]⟩ : Shape))
    (hu : 0 < (⟨0, ![]⟩ : Shape).numel) (o : Fin n0) :
    Host.reduce FloatOps.maximumf (Host.absf x) (constant (⟨0, ![]⟩ : Shape) .f32 0xFF800000#32) h' hu (ix1 o)
      = Spec.rowMax (fun k : Fin n1 => x (ix2 o k)) := by
  rw [Host.reduce_eq_fold_single FloatOps.maximumf _ _ h' h hu]
  have hf : (Host.absf x ∘ h.lift (ix1 o))
      = fun k : Fin n1 => max (x (ix2 o k)) (-(x (ix2 o k))) :=
    funext fun k => congrArg (fun i => max (x i) (-(x i))) (lift_last2 h o k)
  exact congrArg (fun f => Finset.fold max Spec.ninf f (Finset.univ : Finset (Fin n1))) hf

/-- The step of a row, as the programs spell it. -/
private theorem scale_of {n : Nat} (row : Fin n → EReal) :
    FloatOps.maximumf (F := Ideal) (φ := .f32)
      (FloatOps.hostDivf (Spec.rowMax row) (FloatOps.ofBits .f32 0x42FE0000#32)) (FloatOps.ofBits .f32 0x322BCC77#32)
      = Spec.scale row := rfl

/-- The straight-through chain at one finite entry of a row: the entry plus (its quantisation minus the entry) is
    its quantisation. -/
private theorem ste_of {n : Nat} (row : Fin n → EReal) (k : Fin n) (hx : ∃ r : ℝ, row k = (r : EReal)) :
    FloatOps.addf (F := Ideal) (φ := .f32) (row k)
      (FloatOps.subf
        (FloatOps.mulf
          (FloatOps.minimumf (FloatOps.ofBits .f32 0x42FE0000#32)
            (FloatOps.maximumf (FloatOps.ofBits .f32 0xC2FE0000#32)
              (FloatOps.hostUnary .roundeven (FloatOps.hostDivf (row k) (Spec.scale row)))))
          (Spec.scale row))
        (row k))
      = Spec.qd row k :=
  Spec.add_sub_cancel_real (row k) (Spec.qd row k) hx

variable (x0 : S4x2048x2048.Idx → EReal) (x1 : S11264x2048.Idx → EReal) (x2 : S2048x5632.Idx → EReal)

/-- A token row of the activations. -/
abbrev xrow (b : Fin 4) (s : Fin 2048) : Fin 2048 → EReal := fun k => x0 (ix3 b s k)

/-- The hidden row before its quantisation, as the reference computes it. -/
abbrev hrow (b : Fin 4) (s : Fin 2048) : Fin 5632 → EReal := fun j => val_main_v34 (F := Ideal) x0 x1 (ix3 b s j)

/-- The largest magnitude of a token row, as the reference reduces it. -/
private theorem rowMax_x (b : Fin 4) (s : Fin 2048) :
    val_main_v1 (F := Ideal) x0 (ix2 b s) = Spec.rowMax (xrow x0 b s) :=
  rowMax_last3 x0 reducesTo_S4x2048x2048_S4x2048_d2 (by decide) h_S_ b s

/-- The token row's step, read at any keepdims index over (b, s). -/
private theorem scale_x (b : Fin 4) (s : Fin 2048) (j : S4x2048x1.Idx) (hb : j 0 = b) (hs : j 1 = s) :
    val_main_v6 (F := Ideal) x0 j = Spec.scale (xrow x0 b s) := by
  have e : idx_main_v2 j = ix2 b s := funext fun a => match a with
    | ⟨0, _⟩ => hb
    | ⟨1, _⟩ => hs
  rw [val_main_v6_apply, val_main_v4_apply, val_main_v2_apply, val_main_v3_apply, val_main_cst_0_apply,
    val_main_v5_apply, val_main_cst_1_apply, e, rowMax_x]
  exact scale_of _

theorem ste_x (h0 : ∀ i, ∃ r : ℝ, x0 i = (r : EReal)) (b : Fin 4) (s : Fin 2048) (k : Fin 2048) :
    val_main_v14 (F := Ideal) x0 (ix3 b s k) = Spec.qd (xrow x0 b s) k := by
  rw [val_main_v14_apply, val_main_v13_apply, val_main_v12_apply, val_main_v11_apply,
    scale_x x0 b s (idx_main_v11 (ix3 b s k)) rfl rfl, val_main_v10_apply, val_main_call1_v4_apply,
    val_main_call1_v3_apply, val_main_cst_3_apply, val_main_call1_v2_apply, val_main_call1_v1_apply,
    val_main_call1_v0_apply, val_main_cst_2_apply, val_main_v9_apply, val_main_v8_apply, val_main_v7_apply,
    scale_x x0 b s (idx_main_v7 (ix3 b s k)) rfl rfl]
  exact ste_of (xrow x0 b s) k (h0 _)

/-- The largest magnitude of a row of the first weight, as the reference reduces it. -/
private theorem rowMax_w1 (o : Fin 11264) :
    val_main_v16 (F := Ideal) x1 (ix1 o) = Spec.rowMax (Spec.w1row x1 o) :=
  rowMax_last2 x1 reducesTo_S11264x2048_S11264_d1 (by decide) h_S_ o

/-- That row's step, read at any keepdims index over o. -/
private theorem scale_w1 (o : Fin 11264) (j : S11264x1.Idx) (ho : j 0 = o) :
    val_main_v21 (F := Ideal) x1 j = Spec.scale (Spec.w1row x1 o) := by
  have e : idx_main_v17 j = ix1 o := funext fun a => match a with
    | ⟨0, _⟩ => ho
  rw [val_main_v21_apply, val_main_v19_apply, val_main_v17_apply, val_main_v18_apply, val_main_cst_5_apply,
    val_main_v20_apply, val_main_cst_6_apply, e, rowMax_w1]
  exact scale_of _

theorem ste_w1 (h1 : ∀ i, ∃ r : ℝ, x1 i = (r : EReal)) (o : Fin 11264) (k : Fin 2048) :
    val_main_v29 (F := Ideal) x1 (ix2 o k) = Spec.qd (Spec.w1row x1 o) k := by
  rw [val_main_v29_apply, val_main_v28_apply, val_main_v27_apply, val_main_v26_apply,
    scale_w1 x1 o (idx_main_v26 (ix2 o k)) rfl, val_main_v25_apply, val_main_call3_v4_apply,
    val_main_call3_v3_apply, val_main_cst_8_apply, val_main_call3_v2_apply, val_main_call3_v1_apply,
    val_main_call3_v0_apply, val_main_cst_7_apply, val_main_v24_apply, val_main_v23_apply, val_main_v22_apply,
    scale_w1 x1 o (idx_main_v22 (ix2 o k)) rfl]
  exact ste_of (Spec.w1row x1 o) k (h1 _)

/-- The largest magnitude of a row of the second weight, as the reference reduces it. -/
private theorem rowMax_w2 (n : Fin 2048) :
    val_main_v51 (F := Ideal) x2 (ix1 n) = Spec.rowMax (Spec.w2row x2 n) :=
  rowMax_last2 x2 reducesTo_S2048x5632_S2048_d1 (by decide) h_S_ n

/-- That row's step, read at any keepdims index over n. -/
private theorem scale_w2 (n : Fin 2048) (j : S2048x1.Idx) (hn : j 0 = n) :
    val_main_v56 (F := Ideal) x2 j = Spec.scale (Spec.w2row x2 n) := by
  have e : idx_main_v52 j = ix1 n := funext fun a => match a with
    | ⟨0, _⟩ => hn
  rw [val_main_v56_apply, val_main_v54_apply, val_main_v52_apply, val_main_v53_apply, val_main_cst_15_apply,
    val_main_v55_apply, val_main_cst_16_apply, e, rowMax_w2]
  exact scale_of _

theorem ste_w2 (h2 : ∀ i, ∃ r : ℝ, x2 i = (r : EReal)) (n : Fin 2048) (i : Fin 5632) :
    val_main_v64 (F := Ideal) x2 (ix2 n i) = Spec.qd (Spec.w2row x2 n) i := by
  rw [val_main_v64_apply, val_main_v63_apply, val_main_v62_apply, val_main_v61_apply,
    scale_w2 x2 n (idx_main_v61 (ix2 n i)) rfl, val_main_v60_apply, val_main_call8_v4_apply,
    val_main_call8_v3_apply, val_main_cst_18_apply, val_main_call8_v2_apply, val_main_call8_v1_apply,
    val_main_call8_v0_apply, val_main_cst_17_apply, val_main_v59_apply, val_main_v58_apply, val_main_v57_apply,
    scale_w2 x2 n (idx_main_v57 (ix2 n i)) rfl]
  exact ste_of (Spec.w2row x2 n) i (h2 _)

/-- The largest magnitude of a hidden row, as the reference reduces it. -/
private theorem rowMax_h (b : Fin 4) (s : Fin 2048) :
    val_main_v36 (F := Ideal) x0 x1 (ix2 b s) = Spec.rowMax (hrow x0 x1 b s) :=
  rowMax_last3 (val_main_v34 (F := Ideal) x0 x1) reducesTo_S4x2048x5632_S4x2048_d2 (by decide) h_S_ b s

/-- The hidden row's step, read at any keepdims index over (b, s). -/
private theorem scale_h (b : Fin 4) (s : Fin 2048) (j : S4x2048x1.Idx) (hb : j 0 = b) (hs : j 1 = s) :
    val_main_v41 (F := Ideal) x0 x1 j = Spec.scale (hrow x0 x1 b s) := by
  have e : idx_main_v37 j = ix2 b s := funext fun a => match a with
    | ⟨0, _⟩ => hb
    | ⟨1, _⟩ => hs
  rw [val_main_v41_apply, val_main_v39_apply, val_main_v37_apply, val_main_v38_apply, val_main_cst_10_apply,
    val_main_v40_apply, val_main_cst_11_apply, e, rowMax_h]
  exact scale_of _

theorem ste_h (b : Fin 4) (s : Fin 2048) (hh : Spec.RealRow (hrow x0 x1 b s)) (i : Fin 5632) :
    val_main_v49 (F := Ideal) x0 x1 (ix3 b s i) = Spec.qd (hrow x0 x1 b s) i := by
  rw [val_main_v49_apply, val_main_v48_apply, val_main_v47_apply, val_main_v46_apply,
    scale_h x0 x1 b s (idx_main_v46 (ix3 b s i)) rfl rfl, val_main_v45_apply, val_main_call6_v4_apply,
    val_main_call6_v3_apply, val_main_cst_13_apply, val_main_call6_v2_apply, val_main_call6_v1_apply,
    val_main_call6_v0_apply, val_main_cst_12_apply, val_main_v44_apply, val_main_v43_apply, val_main_v42_apply,
    scale_h x0 x1 b s (idx_main_v42 (ix3 b s i)) rfl rfl]
  exact ste_of (hrow x0 x1 b s) i (hh i)

end Cert.ReferenceIdeal.RefValue

end
-- ==== Proof.RefValue.lean ====
import proofs.«165539_j39865886442066_1_alg».proof.Proof.Gen.ReferenceIdeal.Read
import proofs.«165539_j39865886442066_1_alg».proof.Proof.Spec
import proofs.«165539_j39865886442066_1_alg».proof.Proof.RefQd
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

/-!
  The reference's result, read at an index at the ideal values, is the specification's result row.
-/

set_option maxRecDepth 16384

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : S4x2048x2048.Idx → EReal) (x1 : S11264x2048.Idx → EReal) (x2 : S2048x5632.Idx → EReal)

/-- The gate projection: the first 5632 columns of the product of the quantised token row with the quantised rows of
    the first weight. -/
private theorem gate_eq (h0 : ∀ i, ∃ r : ℝ, x0 i = (r : EReal)) (h1 : ∀ i, ∃ r : ℝ, x1 i = (r : EReal)) (b : Fin 4)
    (s : Fin 2048) (j : Fin 5632) :
    val_main_v31 (F := Ideal) x0 x1 (ix3 b s j) = Spec.gateR (xrow x0 b s) x1 j := by
  rw [val_main_v31_apply, val_main_v30_apply]
  unfold Spec.gateR
  refine Finset.sum_congr rfl fun k _ => ?_
  have el : lidx_main_v30 (idx_main_v31 (ix3 b s j)) k = ix3 b s k := funext fun a => match a with
    | ⟨0, _⟩ => rfl
    | ⟨1, _⟩ => rfl
    | ⟨2, _⟩ => rfl
  have er : ridx_main_v30 (idx_main_v31 (ix3 b s j)) k
      = ix2 (⟨j.val, by have := j.isLt; omega⟩ : Fin 11264) k := funext fun a => match a with
    | ⟨0, _⟩ => rfl
    | ⟨1, _⟩ => rfl
  rw [el, er, ste_x x0 h0, ste_w1 x1 h1]

/-- The up projection: the last 5632 columns of the same product. -/
private theorem up_eq (h0 : ∀ i, ∃ r : ℝ, x0 i = (r : EReal)) (h1 : ∀ i, ∃ r : ℝ, x1 i = (r : EReal)) (b : Fin 4)
    (s : Fin 2048) (j : Fin 5632) :
    val_main_v32 (F := Ideal) x0 x1 (ix3 b s j) = Spec.upR (xrow x0 b s) x1 j := by
  rw [val_main_v32_apply, val_main_v30_apply]
  unfold Spec.upR
  refine Finset.sum_congr rfl fun k _ => ?_
  have el : lidx_main_v30 (idx_main_v32 (ix3 b s j)) k = ix3 b s k := funext fun a => match a with
    | ⟨0, _⟩ => rfl
    | ⟨1, _⟩ => rfl
    | ⟨2, _⟩ => rfl
  have er : ridx_main_v30 (idx_main_v32 (ix3 b s j)) k
      = ix2 (⟨5632 + j.val, by have := j.isLt; omega⟩ : Fin 11264) k := funext fun a => match a with
    | ⟨0, _⟩ => rfl
    | ⟨1, _⟩ => rfl
  rw [el, er, ste_x x0 h0, ste_w1 x1 h1]

/-- The reference's hidden row is the specification's. -/
theorem hrow_eq (h0 : ∀ i, ∃ r : ℝ, x0 i = (r : EReal)) (h1 : ∀ i, ∃ r : ℝ, x1 i = (r : EReal)) (b : Fin 4) (s : Fin 2048) :
    hrow x0 x1 b s = Spec.hidR (xrow x0 b s) x1 := by
  funext j
  show val_main_v34 (F := Ideal) x0 x1 (ix3 b s j) = Spec.hidR (xrow x0 b s) x1 j
  rw [val_main_v34_apply, val_main_v33_apply, val_main_call4_v5_apply, val_main_call4_v4_apply,
    val_main_call4_cst_0_apply, val_main_call4_v3_apply, val_main_call4_v2_apply, val_main_call4_cst_apply,
    val_main_call4_v1_apply, val_main_call4_v0_apply, gate_eq x0 x1 h0 h1, up_eq x0 x1 h0 h1]
  simp only [Ideal.mulf_def, Ideal.hostDivf_def, Ideal.addf_def, Ideal.hostUnary_exp_def, Ideal.hostNegf_def,
    Ideal.negf_def, Ideal.ofBits_def, Ideal.ofBits_one_f32]
  rfl

/-- The reference's result at `(b, s, n)`. -/
theorem ref_apply (h0 : ∀ i, ∃ r : ℝ, x0 i = (r : EReal)) (h1 : ∀ i, ∃ r : ℝ, x1 i = (r : EReal))
    (h2 : ∀ i, ∃ r : ℝ, x2 i = (r : EReal)) (b : Fin 4) (s : Fin 2048) (n : Fin 2048) :
    val_main_v65 (F := Ideal) x0 x1 x2 (ix3 b s n) = Spec.outR (xrow x0 b s) x1 x2 n := by
  have hreal : Spec.RealRow (hrow x0 x1 b s) := by
    rw [hrow_eq x0 x1 h0 h1]
    exact Spec.hidR_real _ _ (fun k => h0 _) h1
  rw [val_main_v65_apply]
  unfold Spec.outR
  refine Finset.sum_congr rfl fun k _ => ?_
  have el : lidx_main_v65 (ix3 b s n) k = ix3 b s k := funext fun a => match a with
    | ⟨0, _⟩ => rfl
    | ⟨1, _⟩ => rfl
    | ⟨2, _⟩ => rfl
  have er : ridx_main_v65 (ix3 b s n) k = ix2 n k := funext fun a => match a with
    | ⟨0, _⟩ => rfl
    | ⟨1, _⟩ => rfl
  rw [el, er, ste_h x0 x1 b s hreal, ste_w2 x2 h2, hrow_eq x0 x1 h0 h1]

end Cert.ReferenceIdeal.RefValue

end
-- ==== Proof.Finite.lean ====
import proofs.«165539_j39865886442066_1_alg».proof.Pre_finite_inputs
import Idealize.ShloMosaic.Lib.IdealHost
import Idealize.ShloMosaic.Lib.ReduceAll
import Idealize.ShloMosaic.Lib.ValueIdx
import Idealize.ShloMosaic.PureOps.Ideal
import Idealize.ShloMosaic.PureOps.Ideal.Laws

/-!
  The precondition read back: when the printed predicate "every entry of every input is smaller in magnitude than +∞" is
  all ones at the ideal values, every entry of the three inputs is a real number.
-/

noncomputable section

namespace Cert.Pre_finite_inputs.Decode

open Cert.Pre_finite_inputs Idealize.ShloMosaic

variable [Cert.Pre_finite_inputs.Facts]

/-- The scalar shape has one index. -/
private instance : Subsingleton S_.Idx := ⟨fun a b => funext fun d => d.elim0⟩

/-- The word the predicate compares against denotes +∞. -/
private theorem pinf_eq : Ideal.ofBits .f32 0x7F800000#32 = ⊤ := by simp [Ideal.ofBits, Ideal.ieee]

/-- An extended real whose magnitude max(x, −x) is strictly below +∞ is a real: at either infinity the magnitude is +∞. -/
private theorem real_of_abs_lt_top (x : EReal) (h : Ideal.cmp .olt (max x (-x)) ⊤ = 1#1) :
    ∃ r : ℝ, x = (r : EReal) := by
  induction x using EReal.rec with
  | bot => simp [Ideal.cmp] at h
  | top => simp [Ideal.cmp] at h
  | coe r => exact ⟨r, rfl⟩

/-- One entry of one input: the comparison of its magnitude with the broadcast +∞ being 1 makes it a real. -/
private theorem entry_real {s : Shape} (x : FVec Ideal s .f32)
    (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  apply real_of_abs_lt_top
  have hc : broadcastInDim s ![] hb (constant (F := Ideal) S_ .f32 0x7F800000#32) i = ⊤ := by
    rw [ValueIdx.broadcastInDim_scalar_apply]; exact pinf_eq
  rw [← hc]; exact h

theorem real_of_fn (a0 : S4x2048x2048.Idx → EReal) (a1 : S11264x2048.Idx → EReal) (a2 : S2048x5632.Idx → EReal)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [fn] at e
  obtain ⟨e01, e2⟩ := IntOp.andi_eq_one.1 e
  obtain ⟨e0, e1⟩ := IntOp.andi_eq_one.1 e01
  exact ⟨fun i => entry_real a0 _ i (Host.reduce_andi_all _ _ _ _ _ e0 i),
    fun i => entry_real a1 _ i (Host.reduce_andi_all _ _ _ _ _ e1 i),
    fun i => entry_real a2 _ i (Host.reduce_andi_all _ _ _ _ _ e2 i)⟩

end Cert.Pre_finite_inputs.Decode

end
-- ==== Proof.Bridge.lean ====
import proofs.«165539_j39865886442066_1_alg».proof.Defs
import proofs.«165539_j39865886442066_1_alg».proof.Proof.Spec
import proofs.«165539_j39865886442066_1_alg».proof.Proof.Outs
import proofs.«165539_j39865886442066_1_alg».proof.Proof.KHostA
import proofs.«165539_j39865886442066_1_alg».proof.Proof.KHostB
import proofs.«165539_j39865886442066_1_alg».proof.Proof.R0Value
import proofs.«165539_j39865886442066_1_alg».proof.Proof.R1Value
import proofs.«165539_j39865886442066_1_alg».proof.Proof.RefValue
import proofs.«165539_j39865886442066_1_alg».proof.Proof.Finite
import Idealize.ShloMosaic.Lib.ValueIdx

/-!
  The kernel's result array and the reference's are one function of the arguments, entry by entry: at `(b, s, n)` both
  are the specification's result row of the token row `(b, s)` at `n`.
-/

set_option maxRecDepth 16384

open scoped BigOperators

noncomputable section

namespace Cert.KernelIdeal.Hand

open Cert.KernelIdeal Cert.KernelIdeal.Gen Cert.KernelIdeal.HostVal
open Idealize.ShloMosaic Idealize.ShloMosaic.TcCoe Idealize.ShloMosaic.ValueIdx
open Idealize.SL Idealize.SL.Sem

variable (m : (ℓ : Loc nD τ sig) → Buf (Elt Ideal) ℓ)

/-- The token row `(b, s)` of the activations on core `c`. -/
abbrev tokRow (c : Dev nD) (b : Fin 4) (s : Fin 2048) : Fin 2048 → EReal := fun k => xArg m c (ix3 b s k)

/-- Row `2048·b + s` of the first region's left operand is the fake-quantised token row `(b, s)`. -/
theorem lhs0_row (c : Dev nD) (b : Fin 4) (s : Fin 2048) (k : Fin 2048) :
    lhs0 (Vr13 m) c (ix2 (⟨2048 * b.val + s.val, by have := b.isLt; have := s.isLt; omega⟩ : Fin 8192) k) = Spec.qd (tokRow m c b s) k := by
  have h := v14_apply m c (⟨2048 * b.val + s.val, by have := b.isLt; have := s.isLt; omega⟩ : Fin 8192) k
  have hb : (⟨(2048 * b.val + s.val) / 2048, by have := b.isLt; have := s.isLt; omega⟩ : Fin 4) = b :=
    Fin.ext (by have := s.isLt; show (2048 * b.val + s.val) / 2048 = b.val; omega)
  have hs : (⟨(2048 * b.val + s.val) % 2048, Nat.mod_lt _ (by decide)⟩ : Fin 2048) = s :=
    Fin.ext (by have := s.isLt; show (2048 * b.val + s.val) % 2048 = s.val; omega)
  simp only [hb, hs] at h
  exact h

/-- The first region's result row `2048·b + s` is the specification's hidden row of the token row `(b, s)`. -/
theorem res0_row (c : Dev nD) (b : Fin 4) (s : Fin 2048) (j : Fin 5632) :
    res0 (Vr13 m) c (ix2 (⟨2048 * b.val + s.val, by have := b.isLt; have := s.isLt; omega⟩ : Fin 8192) j)
      = Spec.hidR (tokRow m c b s) (w1Arg m c) j := by
  rw [o14_apply]
  have hg : gate0 (Vr13 m) c (⟨2048 * b.val + s.val, by have := b.isLt; have := s.isLt; omega⟩ : Fin 8192) j = Spec.gateR (tokRow m c b s) (w1Arg m c) j := by
    unfold gate0 Spec.gateR
    refine Finset.sum_congr rfl fun k _ => ?_
    rw [lhs0_row]
    exact congrArg _ (v29_apply m c k _)
  have hu : up0 (Vr13 m) c (⟨2048 * b.val + s.val, by have := b.isLt; have := s.isLt; omega⟩ : Fin 8192) j = Spec.upR (tokRow m c b s) (w1Arg m c) j := by
    unfold up0 Spec.upR
    refine Finset.sum_congr rfl fun k _ => ?_
    rw [lhs0_row]
    exact congrArg _ (v29_apply m c k _)
  rw [hg, hu]; rfl

/-- The kernel's result at `(b, s, n)`. -/
theorem kernel_apply (c : Dev nD) (b : Fin 4) (s : Fin 2048) (n : Fin 2048) :
    (V21 m (outsB m) c main_v61 : S4x2048x2048.Idx → EReal) (ix3 b s n)
      = Spec.outR (tokRow m c b s) (w1Arg m c) (w2Arg m c) n := by
  rw [v61_apply, outsB_20]
  show res1 (Vr19 m) c (ix2 _ n) = _
  rw [o20_apply]
  unfold Spec.outR
  refine Finset.sum_congr rfl fun i _ => ?_
  have hl : lhs1 (Vr19 m) c (ix2 (⟨2048 * b.val + s.val, by have := b.isLt; have := s.isLt; omega⟩ : Fin 8192) i)
      = Spec.qd (Spec.hidR (tokRow m c b s) (w1Arg m c)) i := by
    refine (v59_apply m (outsA m) c _ i).trans ?_
    refine congrFun (congrArg Spec.qd (funext fun i' => ?_)) i
    rw [outsA_14]
    exact res0_row m c b s i'
  have hr : rhs1 (Vr19 m) c (ix2 i n) = Spec.qd (Spec.w2row (w2Arg m c) n) i := by
    show (V19 m (outsA m) c main_v44 : S5632x2048.Idx → EReal) (ix2 i n) = _
    rw [v44_kept]
    exact v44_apply m c i n
  rw [hl, hr]

end Cert.KernelIdeal.Hand

end
-- ==== Proof.lean ====
/-
  Equivalence over the extended reals of a quantised gated feed-forward block — per-row 8-bit fake quantisation of the
  activations and of both weights, a first projection split into gate and up halves and gated as g · σ(g) · u, a second
  quantisation of the hidden rows, a second projection — computed by two pipelined kernel regions (the first fusing the
  two half-projections with the gating over an 8 × 11 grid of blocks, the second accumulating eleven 512-wide blocks of
  products per row block) against its plain reference, which quantises "straight through" (x + (q(x) − x)) and contracts
  whole arrays.

  Both programs compute, at (b, s, n), the specification's result row (Spec.outR) of the token row (b, s): the reference
  because adding back a finite operand after subtracting it leaves the quantised value, and every intermediate stays
  finite under the precondition; the kernel because its regions' block results tile the arrays and a sum over 5632
  coordinates is the sum of its eleven blocks. The frames of the two kernel programs run each region's body at every grid
  point over the region's proof data and chain the regions between the host stretches.
-/
import proofs.«165539_j39865886442066_1_alg».proof.Defs
import proofs.«165539_j39865886442066_1_alg».proof.Proof.Gen.Kernel
import proofs.«165539_j39865886442066_1_alg».proof.Proof.Gen.KernelIdeal
import proofs.«165539_j39865886442066_1_alg».proof.Proof.Gen.ReferenceIdeal
import proofs.«165539_j39865886442066_1_alg».proof.Proof.Gen.Pre_finite_inputs
import proofs.«165539_j39865886442066_1_alg».proof.Proof.Gen.ReferenceIdeal.Run
import proofs.«165539_j39865886442066_1_alg».proof.Proof.Gen.ReferenceIdeal.Read
import proofs.«165539_j39865886442066_1_alg».proof.Proof.R0Body
import proofs.«165539_j39865886442066_1_alg».proof.Proof.R1Body
import proofs.«165539_j39865886442066_1_alg».proof.Proof.Run
import proofs.«165539_j39865886442066_1_alg».proof.Proof.K_R0Body
import proofs.«165539_j39865886442066_1_alg».proof.Proof.K_R1Body
import proofs.«165539_j39865886442066_1_alg».proof.Proof.K_Run
import proofs.«165539_j39865886442066_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The printed kernel program runs to the end, faulting nowhere, its arguments unchanged. -/
theorem frame_k : Cert.frame_Kernel := fun m ρ _ =>
  Cert.Kernel.Hand.frame_of_bodies (F := Bits) m
    (fun c => Cert.Kernel.Hand.body_obligation0 _ c) (fun c => Cert.Kernel.Hand.body_obligation1 _ c)
    (fun c => Cert.Kernel.Hand.hin1 _ c) (fun c => Cert.Kernel.Hand.hout1 _ c) ρ

/-- So does its idealization. -/
theorem frame_ki : Cert.frame_KernelIdeal := fun m ρ _ =>
  Cert.KernelIdeal.Hand.frame_of_bodies (F := Ideal) m
    (fun c => Cert.KernelIdeal.Hand.body_obligation0 _ c) (fun c => Cert.KernelIdeal.Hand.body_obligation1 _ c)
    (fun c => Cert.KernelIdeal.Hand.hin1 _ c) (fun c => Cert.KernelIdeal.Hand.hout1 _ c) ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the specification's result rows. -/
theorem algebraic : Cert.algebraic_KernelIdeal_ReferenceIdeal := by
  intro m ρ m' ρ' hpre hagree
  refine ⟨fun c => Cert.KernelIdeal.Gen.V21 m (Cert.KernelIdeal.Hand.outsB m) c Cert.KernelIdeal.main_v61,
    Cert.KernelIdeal.Hand.run_of_bodies (F := Ideal) m
      (fun c => Cert.KernelIdeal.Hand.body_obligation0 _ c) (fun c => Cert.KernelIdeal.Hand.body_obligation1 _ c)
      (fun c => Cert.KernelIdeal.Hand.hin1 _ c) (fun c => Cert.KernelIdeal.Hand.hout1 _ c) ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2]
  have hr := Cert.Pre_finite_inputs.Decode.real_of_fn _ _ _ (hpre c)
  funext i
  obtain ⟨b, s, n, rfl⟩ : ∃ (b : Fin 4) (s : Fin 2048) (n : Fin 2048), i = ix3 b s n := ⟨i 0, i 1, i 2, eq_ix3 i⟩
  rw [Cert.ReferenceIdeal.RefValue.ref_apply _ _ _ hr.1 hr.2.1 hr.2.2]
  exact (Cert.KernelIdeal.Hand.kernel_apply m c b s n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
